-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1000 : Shape := ⟨2, ![1024, 1000]⟩
abbrev S1000x1024 : Shape := ⟨2, ![1000, 1024]⟩
abbrev S1024 : Shape := ⟨1, ![1024]⟩
abbrev S1024x1024 : Shape := ⟨2, ![1024, 1024]⟩
abbrev S1000 : Shape := ⟨1, ![1000]⟩
abbrev S100000x1000 : Shape := ⟨2, ![100000, 1000]⟩
abbrev S100000 : Shape := ⟨1, ![100000]⟩
abbrev S_ : Shape := ⟨0, ![]⟩

class Facts : Prop where
  bcast_S_S1024x1000 : S_.BroadcastsInDim S1024x1000 (![] : Fin 0 → Fin S1024x1000.rank)
  reducesTo_S1024x1000_S_d0_1 : S1024x1000.ReducesTo [0, 1] S_
  h_S_ : 0 < S_.numel
  bcast_S_S1000x1024 : S_.BroadcastsInDim S1000x1024 (![] : Fin 0 → Fin S1000x1024.rank)
  reducesTo_S1000x1024_S_d0_1 : S1000x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1000 : S_.BroadcastsInDim S1000 (![] : Fin 0 → Fin S1000.rank)
  reducesTo_S1000_S_d0 : S1000.ReducesTo [0] S_
  bcast_S_S100000x1000 : S_.BroadcastsInDim S100000x1000 (![] : Fin 0 → Fin S100000x1000.rank)
  reducesTo_S100000x1000_S_d0_1 : S100000x1000.ReducesTo [0, 1] S_
  bcast_S_S100000 : S_.BroadcastsInDim S100000 (![] : Fin 0 → Fin S100000.rank)
  reducesTo_S100000_S_d0 : S100000.ReducesTo [0] S_

variable [Facts]

def fn_part2 {F : FTy → Type} [FloatOps F] (main_arg7 : FVec F S100000x1000 .f32) (main_arg8 : FVec F S100000 .f32) (main_arg9 : FVec F S100000 .f32) (main_v33 : IVec S_ 1) : IVec S_ 1 :=
  let main_v34 : FVec F S100000x1000 .f32 := Host.absf main_arg7
  let main_cst_12 : FVec F S_ .f32 := constant S_ .f32 0x7F800000#32
  let main_v35 : FVec F S100000x1000 .f32 := broadcastInDim S100000x1000 ![] bcast_S_S100000x1000 main_cst_12
  let main_v36 : IVec S100000x1000 1 := cmpf .olt main_v34 main_v35
  let main_c_13 : IVec S_ 1 := constantI S_ 1 1#1
  let main_v37 : IVec S_ 1 := (fun x v => Host.reduce IntOp.andi x v reducesTo_S100000x1000_S_d0_1 h_S_) main_v36 main_c_13
  let main_v38 : IVec S_ 1 := andi main_v33 main_v37
  let main_v39 : FVec F S100000 .f32 := Host.absf main_arg8
  let main_cst_14 : FVec F S_ .f32 := constant S_ .f32 0x7F800000#32
  let main_v40 : FVec F S100000 .f32 := broadcastInDim S100000 ![] bcast_S_S100000 main_cst_14
  let main_v41 : IVec S100000 1 := cmpf .olt main_v39 main_v40
  let main_c_15 : IVec S_ 1 := constantI S_ 1 1#1
  let main_v42 : IVec S_ 1 := (fun x v => Host.reduce IntOp.andi x v reducesTo_S100000_S_d0 h_S_) main_v41 main_c_15
  let main_v43 : IVec S_ 1 := andi main_v38 main_v42
  let main_v44 : FVec F S100000 .f32 := Host.absf main_arg9
  let main_cst_16 : FVec F S_ .f32 := constant S_ .f32 0x7F800000#32
  let main_v45 : FVec F S100000 .f32 := broadcastInDim S100000 ![] bcast_S_S100000 main_cst_16
  let main_v46 : IVec S100000 1 := cmpf .olt main_v44 main_v45
  let main_c_17 : IVec S_ 1 := constantI S_ 1 1#1
  let main_v47 : IVec S_ 1 := (fun x v => Host.reduce IntOp.andi x v reducesTo_S100000_S_d0 h_S_) main_v46 main_c_17
  let main_v48 : IVec S_ 1 := andi main_v43 main_v47
  main_v48

def fn_part1 {F : FTy → Type} [FloatOps F] (main_arg4 : FVec F S1024 .f32) (main_arg5 : FVec F S1024x1000 .f32) (main_arg6 : FVec F S1000 .f32) (main_arg7 : FVec F S100000x1000 .f32) (main_arg8 : FVec F S100000 .f32) (main_arg9 : FVec F S100000 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1000 .f32 := Host.absf main_arg5
  let main_cst_8 : FVec F S_ .f32 := constant S_ .f32 0x7F800000#32
  let main_v25 : FVec F S1024x1000 .f32 := broadcastInDim S1024x1000 ![] bcast_S_S1024x1000 main_cst_8
  let main_v26 : IVec S1024x1000 1 := cmpf .olt main_v24 main_v25
  let main_c_9 : IVec S_ 1 := constantI S_ 1 1#1
  let main_v27 : IVec S_ 1 := (fun x v => Host.reduce IntOp.andi x v reducesTo_S1024x1000_S_d0_1 h_S_) main_v26 main_c_9
  let main_v28 : IVec S_ 1 := andi main_v23 main_v27
  let main_v29 : FVec F S1000 .f32 := Host.absf main_arg6
  let main_cst_10 : FVec F S_ .f32 := constant S_ .f32 0x7F800000#32
  let main_v30 : FVec F S1000 .f32 := broadcastInDim S1000 ![] bcast_S_S1000 main_cst_10
  let main_v31 : IVec S1000 1 := cmpf .olt main_v29 main_v30
  let main_c_11 : IVec S_ 1 := constantI S_ 1 1#1
  let main_v32 : IVec S_ 1 := (fun x v => Host.reduce IntOp.andi x v reducesTo_S1000_S_d0 h_S_) main_v31 main_c_11
  let main_v33 : IVec S_ 1 := andi main_v28 main_v32
  fn_part2 (F := F) main_arg7 main_arg8 main_arg9 main_v33

def fn {F : FTy → Type} [FloatOps F] (main_arg0 : FVec F S1024x1000 .f32) (main_arg1 : FVec F S1000x1024 .f32) (main_arg2 : FVec F S1024 .f32) (main_arg3 : FVec F S1024x1024 .f32) (main_arg4 : FVec F S1024 .f32) (main_arg5 : FVec F S1024x1000 .f32) (main_arg6 : FVec F S1000 .f32) (main_arg7 : FVec F S100000x1000 .f32) (main_arg8 : FVec F S100000 .f32) (main_arg9 : FVec F S100000 .f32) : IVec S_ 1 :=
  let main_v0 : FVec F S1024x1000 .f32 := Host.absf main_arg0
  let main_cst : FVec F S_ .f32 := constant S_ .f32 0x7F800000#32
  let main_v1 : FVec F S1024x1000 .f32 := broadcastInDim S1024x1000 ![] bcast_S_S1024x1000 main_cst
  let main_v2 : IVec S1024x1000 1 := cmpf .olt main_v0 main_v1
  let main_c : IVec S_ 1 := constantI S_ 1 1#1
  let main_v3 : IVec S_ 1 := (fun x v => Host.reduce IntOp.andi x v reducesTo_S1024x1000_S_d0_1 h_S_) main_v2 main_c
  let main_v4 : FVec F S1000x1024 .f32 := Host.absf main_arg1
  let main_cst_0 : FVec F S_ .f32 := constant S_ .f32 0x7F800000#32
  let main_v5 : FVec F S1000x1024 .f32 := broadcastInDim S1000x1024 ![] bcast_S_S1000x1024 main_cst_0
  let main_v6 : IVec S1000x1024 1 := cmpf .olt main_v4 main_v5
  let main_c_1 : IVec S_ 1 := constantI S_ 1 1#1
  let main_v7 : IVec S_ 1 := (fun x v => Host.reduce IntOp.andi x v reducesTo_S1000x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_v13 main_v16
-- ==== Kernel.lean ====
abbrev S1024x1000 : Shape := ⟨2, ![1024, 1000]⟩
abbrev S1000x1024 : Shape := ⟨2, ![1000, 1024]⟩
abbrev S1024 : Shape := ⟨1, ![1024]⟩
abbrev S1024x1024 : Shape := ⟨2, ![1024, 1024]⟩
abbrev S1000 : Shape := ⟨1, ![1000]⟩
abbrev S100000x1000 : Shape := ⟨2, ![100000, 1000]⟩
abbrev S100000 : Shape := ⟨1, ![100000]⟩
abbrev S1x1024 : Shape := ⟨2, ![1, 1024]⟩
abbrev S1x1000 : Shape := ⟨2, ![1, 1000]⟩
abbrev S1024x50x20 : Shape := ⟨3, ![1024, 50, 20]⟩
abbrev S_ : Shape := ⟨0, ![]⟩
abbrev S1024x50 : Shape := ⟨2, ![1024, 50]⟩
abbrev S1024x50x1 : Shape := ⟨3, ![1024, 50, 1]⟩
abbrev S100352x1000 : Shape := ⟨2, ![100352, 1000]⟩
abbrev S100352 : Shape := ⟨1, ![100352]⟩
abbrev S1x100352 : Shape := ⟨2, ![1, 100352]⟩
abbrev S1x1 : Shape := ⟨2, ![1, 1]⟩
abbrev S1 : Shape := ⟨1, ![1]⟩

abbrev nBuf : Space → Nat
  | .hbm => 49
  | .vmem => 17
  | .smem => 0
  | _ => 0

abbrev bufTy : (tb : Table) → Fin (tcTables nBuf tb) → BufTy
  | .hbm, ⟨0, _⟩ => ⟨S1024x1000, .f32⟩
  | .hbm, ⟨1, _⟩ => ⟨S1000x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1000, .f32⟩
  | .hbm, ⟨6, _⟩ => ⟨S1000, .f32⟩
  | .hbm, ⟨7, _⟩ => ⟨S100000x1000, .f32⟩
  | .hbm, ⟨8, _⟩ => ⟨S100000, .f32⟩
  | .hbm, ⟨9, _⟩ => ⟨S100000, .f32⟩
  | .hbm, ⟨10, _⟩ => ⟨S1024x1000, .f32⟩
  | .hbm, ⟨11, _⟩ => ⟨S1024x50x20, .f32⟩
  | .hbm, ⟨12, _⟩ => ⟨S_, .f32⟩
  | .hbm, ⟨13, _⟩ => ⟨S1024x50, .f32⟩
  | .hbm, ⟨14, _⟩ => ⟨S_, .f32⟩
  | .hbm, ⟨15, _⟩ => ⟨S1024x50, .f32⟩
  | .hbm, ⟨16, _⟩ => ⟨S1024x50, .f32⟩
  | .hbm, ⟨17, _⟩ => ⟨S1024x50x1, .f32⟩
  | .hbm, ⟨18, _⟩ => ⟨S1024x50x20, .f32⟩
  | .hbm, ⟨19, _⟩ => ⟨S1024x50x20, .f32⟩
  | .hbm, ⟨20, _⟩ => ⟨S1024x50x20, .f32⟩
  | .hbm, ⟨21, _⟩ => ⟨S_, .f32⟩
  | .hbm, ⟨22, _⟩ => ⟨S1024x50, .f32⟩
  | .hbm, ⟨23, _⟩ => ⟨S1024x50x1, .f32⟩
  | .hbm, ⟨24, _⟩ => ⟨S1024x50x1, .f32⟩
  | .hbm, ⟨25, _⟩ => ⟨S1024x50x20, .f32⟩
  | .hbm, ⟨26, _⟩ => ⟨S1024x50x20, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S1024x50x20, .f32⟩
  | .hbm, ⟨31, _⟩ => ⟨S1024x50x20, .f32⟩
  | .hbm, ⟨32, _⟩ => ⟨S_, .f32⟩
  | .hbm, ⟨33, _⟩ => ⟨S1024x50x20, .f32⟩
  | .hbm, ⟨34, _⟩ => ⟨S1024x50x20, .f32⟩
  | .hbm, ⟨35, _⟩ => ⟨S1024x1000, .f32⟩
  | .hbm, ⟨36, _⟩ => ⟨S_, .i32⟩
  | .hbm, ⟨37, _⟩ => ⟨S_, .f32⟩
  | .hbm, ⟨38, _⟩ => ⟨S100352x1000, .f32⟩
  | .hbm, ⟨39, _⟩ => ⟨S_, .i32⟩
  | .hbm, ⟨40, _⟩ => ⟨S_, .f32⟩
  | .hbm, ⟨41, _⟩ => ⟨S100352, .f32⟩
  | .hbm, ⟨42, _⟩ => ⟨S1x100352, .f32⟩
  | .hbm, ⟨43, _⟩ => ⟨S_, .i32⟩
  | .hbm, ⟨44, _⟩ => ⟨S_, .f32⟩
  | .hbm, ⟨45, _⟩ => ⟨S100352, .f32⟩
  | .hbm, ⟨46, _⟩ => ⟨S1x100352, .f32⟩
  | .hbm, ⟨47, _⟩ => ⟨S1x1, .f32⟩
  | .hbm, ⟨48, _⟩ => ⟨S_, .f32⟩
  | .local _ .vmem, ⟨0, _⟩ => ⟨S1024x1000, .f32⟩
  | .local _ .vmem, ⟨1, _⟩ => ⟨S1000x1024, .f32⟩
  | .local _ .vmem, ⟨2, _⟩ => ⟨S1024, .f32⟩
  | .local _ .vmem, ⟨3, _⟩ => ⟨S1024x1024, .f32⟩
  | .local _ .vmem, ⟨4, _⟩ => ⟨S1024, .f32⟩
  | .local _ .vmem, ⟨5, _⟩ => ⟨S1024x1000, .f32⟩
  | .local _ .vmem, ⟨6, _⟩ => ⟨S1000, .f32⟩
  | .local _ .vmem, ⟨7, _⟩ => ⟨S1024x1000, .f32⟩
  | .local _ .vmem, ⟨8, _⟩ => ⟨S1024x1000, .f32⟩
  | .local _ .vmem, ⟨9, _⟩ => ⟨S1024x1000, .f32⟩
  | .local _ .vmem, ⟨10, _⟩ => ⟨S1024x1000, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1, .f32⟩
  | .local _ .vmem, ⟨16, _⟩ => ⟨S1x1, .f32⟩
  | _, _ => ⟨S1024x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_call0_cst : Ref sig .tc := ⟨.hbm, 12, rfl⟩
abbrev main_call0_v0 : Ref sig .tc := ⟨.hbm, 13, rfl⟩
abbrev main_call0_cst_0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_cst_1 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_v2 : Ref sig .tc := ⟨.hbm, 26, rfl⟩
abbrev main_cst : Ref sig .tc := ⟨.hbm, 27, rfl⟩
abbrev main_cst_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_v3 : Ref sig .tc := ⟨.hbm, 34, rfl⟩
abbrev main_v4 : Ref sig .tc := ⟨.hbm, 35, rfl⟩
abbrev main_c : Ref sig .tc := ⟨.hbm, 36, rfl⟩
abbrev main_call2_v0 : Ref sig .tc := ⟨.hbm, 37, rfl⟩
abbrev main_v5 : Ref sig .tc := ⟨.hbm, 38, rfl⟩
abbrev main_c_1 : Ref sig .tc := ⟨.hbm, 39, rfl⟩
abbrev main_call3_v0 : Ref sig .tc := ⟨.hbm, 40, rfl⟩
abbrev main_v6 : Ref sig .tc := ⟨.hbm, 41, rfl⟩
abbrev main_v7 : Ref sig .tc := ⟨.hbm, 42, rfl⟩
abbrev main_c_2 : Ref sig .tc := ⟨.hbm, 43, rfl⟩
abbrev main_call4_v0 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_scratch0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x1000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1000x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1000 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1000 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1000 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![98], ![false]⟩

def k1_cond2 (i : grid1.Coords) : BitVec 1 :=
  let arg0 : BitVec 32 := BitVec.ofNat 32 (i 0).val
  let c97_i32 : BitVec 32 := 97#32
  let v27 : BitVec 1 := Scalar.cmpi .eq arg0 c97_i32
  let v28 : BitVec 32 := Scalar.extui v27
  let c0_i32_15 : BitVec 32 := 0#32
  let v29 : BitVec 1 := Scalar.cmpi .ne v28 c0_i32_15
  v29

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x1000 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1024x1000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

class Facts₀ : Prop where
  inb_S1024x1000_S1024x1000_0_0 : ∀ a, (![0, 0] : Fin 2 → Nat) a + S1024x1000.size a ≤ S1024x1000.size a
  h_S1024x1000 : 0 < S1024x1000.numel
  inb_S1000x1024_S1000x1024_0_0 : ∀ a, (![0, 0] : Fin 2 → Nat) a + S1000x1024.size a ≤ S1000x1024.size a
  h_S1000x1024 : 0 < S1000x1024.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  inb_S1000_S1000_0 : ∀ a, (![0] : Fin 1 → Nat) a + S1000.size a ≤ S1000.size a
  h_S1000 : 0 < S1000.numel
  shapeCasts_S1000_S1x1000 : S1000.ShapeCasts S1x1000
  broadcasts_S1x1000_S1024x1000 : S1x1000.Broadcasts S1024x1000
  shapeCasts_S1024x1000_S1024x50x20 : S1024x1000.ShapeCasts S1024x50x20
  reducesTo_S1024x50x20_S1024x50_d2 : S1024x50x20.ReducesTo [2] S1024x50
  h_S_ : 0 < S_.numel
  bcast_S_S1024x50 : S_.BroadcastsInDim S1024x50 (![] : Fin 0 → Fin S1024x50.rank)
  bcast_S1024x50_S1024x50x1_0_1 : S1024x50.BroadcastsInDim S1024x50x1 (![0, 1] : Fin 2 → Fin S1024x50x1.rank)
  bcast_S1024x50x1_S1024x50x20_0_1_2 : S1024x50x1.BroadcastsInDim S1024x50x20 (![0, 1, 2] : Fin 3 → Fin S1024x50x20.rank)
  bcast_S_S1024x50x20 : S_.BroadcastsInDim S1024x50x20 (![] : Fin 0 → Fin S1024x50x20.rank)
  shapeCasts_S1024x50x20_S1024x1000 : S1024x50x20.ShapeCasts S1024x1000
  pads_S100000x1000_S100352x1000_03520_000 : S100000x1000.Pads (![0, 0] : Fin 2 → Nat) ![352, 0] ![0, 0] S100352x1000
  pads_S100000_S100352_03520 : S100000.Pads (![0] : Fin 1 → Nat) ![352] ![0] S100352
  shapeCasts_S100352_S1x100352 : S100352.ShapeCasts S1x100352
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1024x1000_S1024x1000 : S1024x1000.ShapeCasts S1024x1000
  reduces_S1024x1024_S1024 : S1024x1024.Reduces [0] S1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  reduces_S1x1024_S1 : S1x1024.Reduces [1] S1
  shapeCasts_S1_S1x1 : S1.ShapeCasts S1x1
  shapeCasts_S1x1_S_ : S1x1.ShapeCasts S_
  dot_S1024x1000_S1000x1024_S1024x1024_1_0_0_1_n_n_wf : DotDims.WF S1024x1000 S1000x1024 S1024x1024 [1] [0] [0] [1] [] []
  dot_S1024x1024_S1024x1024_S1024x1024_1_0_0_1_n_n_wf : DotDims.WF S1024x1024 S1024x1024 S1024x1024 [1] [0] [0] [1] [] []
  dot_S1024x1024_S1024x1000_S1024x1000_1_0_0_1_n_n_wf : DotDims.WF S1024x1024 S1024x1000 S1024x1000 [1] [0] [0] [1] [] []
  dot_S1024x1000_S1024x1000_S1024x1024_1_1_0_0_n_n_wf : DotDims.WF S1024x1000 S1024x1000 S1024x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x1000.size a ≤ S1024x1000.size a
  hwx0_0 : ∀ i : grid0.Coords, EltTy.bits .f32 = 32 ∨ (Rect.block (s := S1024x1000) S1024x1000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x1024.size a ≤ S1000x1024.size a
  hwx0_1 : ∀ i : grid0.Coords, EltTy.bits .f32 = 32 ∨ (Rect.block (s := S1000x1024) S1000x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1000.size a ≤ S1024x1000.size a
  hwx0_5 : ∀ i : grid0.Coords, EltTy.bits .f32 = 32 ∨ (Rect.block (s := S1024x1000) S1024x1000.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1000.size a ≤ S1000.size a
  hwx0_6 : ∀ i : grid0.Coords, EltTy.bits .f32 = 32 ∨ (Rect.block (s := S1000) S1000.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1000.size a ≤ S1024x1000.size a
  hwx0_7 : ∀ i : grid0.Coords, EltTy.bits .f32 = 32 ∨ (Rect.block (s := S1024x1000) S1024x1000.size (cc0_transform_7 i) (hinb0_7 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x1000.size a ≤ S1024x1000.size a
  hwx1_0 : ∀ i : grid1.Coords, EltTy.bits .f32 = 32 ∨ (Rect.block (s := S1024x1000) S1024x1000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1000.size a ≤ S100352x1000.size a
  hwx1_1 : ∀ i : grid1.Coords, EltTy.bits .f32 = 32 ∨ (Rect.block (s := S100352x1000) S1024x1000.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x100352.size a
  hwx1_2 : ∀ i : grid1.Coords, EltTy.bits .f32 = 32 ∨ (Rect.block (s := S1x100352) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x100352.size a
  hwx1_3 : ∀ i : grid1.Coords, EltTy.bits .f32 = 32 ∨ (Rect.block (s := S1x100352) S1x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)

variable [Facts₀]

def dot_S1024x1000_S1000x1024_S1024x1024_1_0_0_1_n_n : DotDims S1024x1000 S1000x1024 S1024x1024 where
  lhsContracting := [1]
  rhsContracting := [0]
  lhsNonContracting := [0]
  rhsNonContracting := [1]
  lhsBatch := []
  rhsBatch := []
  wf := dot_S1024x1000_S1000x1024_S1024x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x1000_S1024x1000_1_0_0_1_n_n : DotDims S1024x1024 S1024x1000 S1024x1000 where
  lhsContracting := [1]
  rhsContracting := [0]
  lhsNonContracting := [0]
  rhsNonContracting := [1]
  lhsBatch := []
  rhsBatch := []
  wf := dot_S1024x1024_S1024x1000_S1024x1000_1_0_0_1_n_n_wf
def dot_S1024x1000_S1024x1000_S1024x1024_1_1_0_0_n_n : DotDims S1024x1000 S1024x1000 S1024x1024 where
  lhsContracting := [1]
  rhsContracting := [1]
  lhsNonContracting := [0]
  rhsNonContracting := [0]
  lhsBatch := []
  rhsBatch := []
  wf := dot_S1024x1000_S1024x1000_S1024x1024_1_1_0_0_n_n_wf

abbrev win0_0 : Pipeline.Window sig grid0 :=
  Pipeline.Window.ofSpec (Memref.whole main_arg0) S1024x1000.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024x1000.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1000.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1024x1000.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v4) S1024x1000.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1024x1000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1x1.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S1024x1000 : Shape := ⟨2, ![1024, 1000]⟩
abbrev S1000x1024 : Shape := ⟨2, ![1000, 1024]⟩
abbrev S1024 : Shape := ⟨1, ![1024]⟩
abbrev S1024x1024 : Shape := ⟨2, ![1024, 1024]⟩
abbrev S1000 : Shape := ⟨1, ![1000]⟩
abbrev S100000x1000 : Shape := ⟨2, ![100000, 1000]⟩
abbrev S100000 : Shape := ⟨1, ![100000]⟩
abbrev S1x1024 : Shape := ⟨2, ![1, 1024]⟩
abbrev S_ : Shape := ⟨0, ![]⟩
abbrev S1x1000 : Shape := ⟨2, ![1, 1000]⟩
abbrev S1024x50x20 : Shape := ⟨3, ![1024, 50, 20]⟩
abbrev S1024x50 : Shape := ⟨2, ![1024, 50]⟩
abbrev S1024x50x1 : Shape := ⟨3, ![1024, 50, 1]⟩
abbrev S1000x100000 : Shape := ⟨2, ![1000, 100000]⟩
abbrev S1024x100000 : Shape := ⟨2, ![1024, 100000]⟩

abbrev nBuf : Space → Nat
  | .hbm => 66
  | .vmem => 0
  | .smem => 0
  | _ => 0

abbrev bufTy : (tb : Table) → Fin (tcTables nBuf tb) → BufTy
  | .hbm, ⟨0, _⟩ => ⟨S1024x1000, .f32⟩
  | .hbm, ⟨1, _⟩ => ⟨S1000x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1000, .f32⟩
  | .hbm, ⟨6, _⟩ => ⟨S1000, .f32⟩
  | .hbm, ⟨7, _⟩ => ⟨S100000x1000, .f32⟩
  | .hbm, ⟨8, _⟩ => ⟨S100000, .f32⟩
  | .hbm, ⟨9, _⟩ => ⟨S100000, .f32⟩
  | .hbm, ⟨10, _⟩ => ⟨S1024x1024, .f32⟩
  | .hbm, ⟨11, _⟩ => ⟨S1x1024, .f32⟩
  | .hbm, ⟨12, _⟩ => ⟨S1024x1024, .f32⟩
  | .hbm, ⟨13, _⟩ => ⟨S1024x1024, .f32⟩
  | .hbm, ⟨14, _⟩ => ⟨S_, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1x1024, .f32⟩
  | .hbm, ⟨19, _⟩ => ⟨S1024x1024, .f32⟩
  | .hbm, ⟨20, _⟩ => ⟨S1024x1024, .f32⟩
  | .hbm, ⟨21, _⟩ => ⟨S_, .f32⟩
  | .hbm, ⟨22, _⟩ => ⟨S1024x1024, .f32⟩
  | .hbm, ⟨23, _⟩ => ⟨S1024x1024, .f32⟩
  | .hbm, ⟨24, _⟩ => ⟨S1024x1000, .f32⟩
  | .hbm, ⟨25, _⟩ => ⟨S1x1000, .f32⟩
  | .hbm, ⟨26, _⟩ => ⟨S1024x1000, .f32⟩
  | .hbm, ⟨27, _⟩ => ⟨S1024x1000, .f32⟩
  | .hbm, ⟨28, _⟩ => ⟨S1024x50x20, .f32⟩
  | .hbm, ⟨29, _⟩ => ⟨S_, .f32⟩
  | .hbm, ⟨30, _⟩ => ⟨S1024x50, .f32⟩
  | .hbm, ⟨31, _⟩ => ⟨S_, .f32⟩
  | .hbm, ⟨32, _⟩ => ⟨S1024x50, .f32⟩
  | .hbm, ⟨33, _⟩ => ⟨S1024x50, .f32⟩
  | .hbm, ⟨34, _⟩ => ⟨S1024x50x1, .f32⟩
  | .hbm, ⟨35, _⟩ => ⟨S1024x50x20, .f32⟩
  | .hbm, ⟨36, _⟩ => ⟨S1024x50x20, .f32⟩
  | .hbm, ⟨37, _⟩ => ⟨S1024x50x20, .f32⟩
  | .hbm, ⟨38, _⟩ => ⟨S_, .f32⟩
  | .hbm, ⟨39, _⟩ => ⟨S1024x50, .f32⟩
  | .hbm, ⟨40, _⟩ => ⟨S1024x50x1, .f32⟩
  | .hbm, ⟨41, _⟩ => ⟨S1024x50x1, .f32⟩
  | .hbm, ⟨42, _⟩ => ⟨S1024x50x20, .f32⟩
  | .hbm, ⟨43, _⟩ => ⟨S1024x50x20, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S1024x50x20, .f32⟩
  | .hbm, ⟨48, _⟩ => ⟨S1024x50x20, .f32⟩
  | .hbm, ⟨49, _⟩ => ⟨S_, .f32⟩
  | .hbm, ⟨50, _⟩ => ⟨S1024x50x20, .f32⟩
  | .hbm, ⟨51, _⟩ => ⟨S1024x50x20, .f32⟩
  | .hbm, ⟨52, _⟩ => ⟨S1024x1000, .f32⟩
  | .hbm, ⟨53, _⟩ => ⟨S1000x100000, .f32⟩
  | .hbm, ⟨54, _⟩ => ⟨S1024x100000, .f32⟩
  | .hbm, ⟨55, _⟩ => ⟨S1024x100000, .f32⟩
  | .hbm, ⟨56, _⟩ => ⟨S_, .f32⟩
  | .hbm, ⟨57, _⟩ => ⟨S100000, .f32⟩
  | .hbm, ⟨58, _⟩ => ⟨S_, .f32⟩
  | .hbm, ⟨59, _⟩ => ⟨S100000, .f32⟩
  | .hbm, ⟨60, _⟩ => ⟨S100000, .f32⟩
  | .hbm, ⟨61, _⟩ => ⟨S100000, .f32⟩
  | .hbm, ⟨62, _⟩ => ⟨S100000, .f32⟩
  | .hbm, ⟨63, _⟩ => ⟨S100000, .f32⟩
  | .hbm, ⟨64, _⟩ => ⟨S_, .f32⟩
  | .hbm, ⟨65, _⟩ => ⟨S_, .f32⟩
  | _, _ => ⟨S1024x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_cst : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_call2_cst : Ref sig .tc := ⟨.hbm, 29, rfl⟩
abbrev main_call2_v0 : Ref sig .tc := ⟨.hbm, 30, rfl⟩
abbrev main_call2_cst_0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_v6 : Ref sig .tc := ⟨.hbm, 37, rfl⟩
abbrev main_call2_cst_1 : Ref sig .tc := ⟨.hbm, 38, rfl⟩
abbrev main_call2_v7 : Ref sig .tc := ⟨.hbm, 39, rfl⟩
abbrev main_call2_v8 : Ref sig .tc := ⟨.hbm, 40, rfl⟩
abbrev main_call2_v9 : Ref sig .tc := ⟨.hbm, 41, rfl⟩
abbrev main_call2_v10 : Ref sig .tc := ⟨.hbm, 42, rfl⟩
abbrev main_v15 : Ref sig .tc := ⟨.hbm, 43, rfl⟩
abbrev main_cst : Ref sig .tc := ⟨.hbm, 44, rfl⟩
abbrev main_cst_0 : Ref sig .tc := ⟨.hbm, 45, rfl⟩
abbrev main_call3_v0 : Ref sig .tc := ⟨.hbm, 46, rfl⟩
abbrev main_call3_v1 : Ref sig .tc := ⟨.hbm, 47, rfl⟩
abbrev main_call3_v2 : Ref sig .tc := ⟨.hbm, 48, rfl⟩
abbrev main_call3_v3 : Ref sig .tc := ⟨.hbm, 49, rfl⟩
abbrev main_call3_v4 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_cst_1 : Ref sig .tc := ⟨.hbm, 56, rfl⟩
abbrev main_v21 : Ref sig .tc := ⟨.hbm, 57, rfl⟩
abbrev main_cst_2 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_cst_3 : Ref sig .tc := ⟨.hbm, 64, rfl⟩
abbrev main_v27 : Ref sig .tc := ⟨.hbm, 65, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  bcast_S_S1024x1024 : S_.BroadcastsInDim S1024x1024 (![] : Fin 0 → Fin S1024x1024.rank)
  bcast_S1000_S1x1000_1 : S1000.BroadcastsInDim S1x1000 (![1] : Fin 1 → Fin S1x1000.rank)
  bcast_S1x1000_S1024x1000_0_1 : S1x1000.BroadcastsInDim S1024x1000 (![0, 1] : Fin 2 → Fin S1024x1000.rank)
  shapeCasts_S1024x1000_S1024x50x20 : S1024x1000.ShapeCasts S1024x50x20
  reducesTo_S1024x50x20_S1024x50_d2 : S1024x50x20.ReducesTo [2] S1024x50
  h_S_ : 0 < S_.numel
  bcast_S_S1024x50 : S_.BroadcastsInDim S1024x50 (![] : Fin 0 → Fin S1024x50.rank)
  bcast_S1024x50_S1024x50x1_0_1 : S1024x50.BroadcastsInDim S1024x50x1 (![0, 1] : Fin 2 → Fin S1024x50x1.rank)
  bcast_S1024x50x1_S1024x50x20_0_1_2 : S1024x50x1.BroadcastsInDim S1024x50x20 (![0, 1, 2] : Fin 3 → Fin S1024x50x20.rank)
  bcast_S_S1024x50x20 : S_.BroadcastsInDim S1024x50x20 (![] : Fin 0 → Fin S1024x50x20.rank)
  shapeCasts_S1024x50x20_S1024x1000 : S1024x50x20.ShapeCasts S1024x1000
  transposes_S100000x1000_S1000x100000_1_0 : S100000x1000.Transposes [1, 0] S1000x100000
  reducesTo_S1024x100000_S100000_d0 : S1024x100000.ReducesTo [0] S100000
  bcast_S_S100000 : S_.BroadcastsInDim S100000 (![] : Fin 0 → Fin S100000.rank)
  reducesTo_S100000_S_d0 : S100000.ReducesTo [0] S_
  dot_S1024x1000_S1000x1024_S1024x1024_1_0_0_1_n_n_wf : DotDims.WF S1024x1000 S1000x1024 S1024x1024 [1] [0] [0] [1] [] []
  dot_S1024x1024_S1024x1024_S1024x1024_1_0_0_1_n_n_wf : DotDims.WF S1024x1024 S1024x1024 S1024x1024 [1] [0] [0] [1] [] []
  dot_S1024x1024_S1024x1000_S1024x1000_1_0_0_1_n_n_wf : DotDims.WF S1024x1024 S1024x1000 S1024x1000 [1] [0] [0] [1] [] []
  dot_S1024x1000_S1000x100000_S1024x100000_1_0_0_1_n_n_wf : DotDims.WF S1024x1000 S1000x100000 S1024x100000 [1] [0] [0] [1] [] []

variable [Facts₀]

def dot_S1024x1000_S1000x1024_S1024x1024_1_0_0_1_n_n : DotDims S1024x1000 S1000x1024 S1024x1024 where
  lhsContracting := [1]
  rhsContracting := [0]
  lhsNonContracting := [0]
  rhsNonContracting := [1]
  lhsBatch := []
  rhsBatch := []
  wf := dot_S1024x1000_S1000x1024_S1024x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x1000_S1024x1000_1_0_0_1_n_n : DotDims S1024x1024 S1024x1000 S1024x1000 where
  lhsContracting := [1]
  rhsContracting := [0]
  lhsNonContracting := [0]
  rhsNonContracting := [1]
  lhsBatch := []
  rhsBatch := []
  wf := dot_S1024x1024_S1024x1000_S1024x1000_1_0_0_1_n_n_wf
def dot_S1024x1000_S1000x100000_S1024x100000_1_0_0_1_n_n : DotDims S1024x1000 S1000x100000 S1024x100000 where
  lhsContracting := [1]
  rhsContracting := [0]
  lhsNonContracting := [0]
  rhsNonContracting := [1]
  lhsBatch := []
  rhsBatch := []
  wf := dot_S1024x1000_S1000x100000_S1024x100000_1_0_0_1_n_n_wf

class Facts : Prop extends Facts₀ where

variable [Facts]
-- ==== Proof.Kernel.Mlp.lean ====
/-
  The first kernel region (the three-layer perceptron, one grid point, every operand one whole block) as proof data
  for the pipeline rule: at any contents `V` of the core's buffers at the region's entry, each input window's staging
  buffer holds the whole operand, the body stores the perceptron's value of them into the output window's buffer, and
  the scoped rest and the generator register pass through untouched.
-/
import proofs.«177796_j44246753083785_1_alg».proof.Proof.Gen.Kernel.Launch
import proofs.«177796_j44246753083785_1_alg».proof.Proof.Gen.Kernel.Skeleton
import proofs.«177796_j44246753083785_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at the point, for any proof data over `V` that leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at the point, for any proof data over `V` that leaves it in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at the point, for any proof data over `V` that leaves it in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at the point, for any proof data over `V` that leaves it in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at the point, for any proof data over `V` that leaves it in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at the point, for any proof data over `V` that leaves it in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's staging buffer holds its block at the point, for any proof data over `V` that leaves it in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take the whole buffer -/

abbrev rw_S1024x1000 : Rect S1024x1000 := Rect.unit (s := S1024x1000) ![0, 0] S1024x1000.size inb_S1024x1000_S1024x1000_0_0
abbrev rw_S1000x1024 : Rect S1000x1024 := Rect.unit (s := S1000x1024) ![0, 0] S1000x1024.size inb_S1000x1024_S1000x1024_0_0
abbrev rw_S1024 : Rect S1024 := Rect.unit (s := S1024) ![0] S1024.size inb_S1024_S1024_0
abbrev rw_S1024x1024 : Rect S1024x1024 := Rect.unit (s := S1024x1024) ![0, 0] S1024x1024.size inb_S1024x1024_S1024x1024_0_0
abbrev rw_S1000 : Rect S1000 := Rect.unit (s := S1000) ![0] S1000.size inb_S1000_S1000_0

/-- The output window's staging buffer after the body: its one store, of the perceptron's value of the seven loads. -/
def out0_7 (x0 : Vec F S1024x1000 .f32) (x1 : Vec F S1000x1024 .f32) (x2 : Vec F S1024 .f32) (x3 : Vec F S1024x1024 .f32)
    (x4 : Vec F S1024 .f32) (x5 : Vec F S1024x1000 .f32) (x6 : Vec F S1000 .f32) : Vec F S1024x1000 .f32 :=
  View.canon [⟨rw_S1024x1000, k0_pay1 (View.ld x0 rw_S1024x1000) (View.ld x1 rw_S1000x1024) (View.ld x2 rw_S1024) (View.ld x3 rw_S1024x1024)
    (View.ld x4 rw_S1024) (View.ld x5 rw_S1024x1000) (View.ld x6 rw_S1000)⟩]

/-- The store takes the whole buffer, so it covers it. -/
theorem cover0_7 (p0 : Vec F S1024x1000 .f32) (y : S1024x1000.Idx) :
    ∃ pc ∈ ([⟨rw_S1024x1000, p0⟩] : List (View.Piece (Elt F) S1024x1000 .f32)), y ∈ pc.1.set :=
  View.cover_of_tiled [⟨rw_S1024x1000, p0⟩] S1024x1000.size (by rfl) y

set_option maxHeartbeats 1000000 in
/-- The body on whole staging memrefs: the inputs come back as they were, the output's buffer holds `out0_7` of them. -/
theorem sound_kernel0 (c : Dev nD) (E : Set ℕ) (i : grid0.Coords)
    (arg1 : Memref sig .tc .vmem S1024x1000 .f32) (harg1 : arg1.IsWhole) (arg2 : Memref sig .tc .vmem S1000x1024 .f32) (harg2 : arg2.IsWhole)
    (arg3 : Memref sig .tc .vmem S1024 .f32) (harg3 : arg3.IsWhole) (arg4 : Memref sig .tc .vmem S1024x1024 .f32) (harg4 : arg4.IsWhole)
    (arg5 : Memref sig .tc .vmem S1024 .f32) (harg5 : arg5.IsWhole) (arg6 : Memref sig .tc .vmem S1024x1000 .f32) (harg6 : arg6.IsWhole)
    (arg7 : Memref sig .tc .vmem S1000 .f32) (harg7 : arg7.IsWhole) (arg8 : Memref sig .tc .vmem S1024x1000 .f32) (harg8 : arg8.IsWhole)
    (x0 : Vec F S1024x1000 .f32) (x1 : Vec F S1000x1024 .f32) (x2 : Vec F S1024 .f32) (x3 : Vec F S1024x1024 .f32)
    (x4 : Vec F S1024 .f32) (x5 : Vec F S1024x1000 .f32) (x6 : Vec F S1000 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The pipeline's proof data -/

/-- The proof data of the first pipeline on core `c`: the arrays as the region finds them; after the body each input's
    buffer at its block and the output's at `out0_7` of the input blocks; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t
    = out0_7 (iblk0 V c 0 t) (iblk0 V c 1 t) (iblk0 V c 2 t) (iblk0 V c 3 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline rule's body obligation, at the one point. -/
theorem body_obligation0 (c : Dev nD) : BodyObligation (dat0 (F := F) V c) (defs₀ (F := F)) Variants.none () Set.univ := fun t => by
  rw [bigSep_W0, bigSep_W0]
  exact sound_body0 V c t

end Region0

end Cert.Kernel.Fr

end
-- ==== Proof.Kernel.LossRuns.lean ====
/-
  The second kernel region's body (the streamed loss reduction over 98 tiles of 1024 queries) as three triples, one
  per control case of its two conditionals on the grid coordinate: the first tile (the accumulator scratch is reset
  before it is added to), a middle tile (the accumulator is added to), the last tile (added to, then copied into the
  output window's buffer).
-/
import proofs.«177796_j44246753083785_1_alg».proof.Proof.Gen.Kernel.Launch
import proofs.«177796_j44246753083785_1_alg».proof.Proof.Gen.Kernel.Skeleton
import proofs.«177796_j44246753083785_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's two conditions, decided over the grid -/

/-- The first conditional (reset the accumulator): the grid coordinate is 0. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)

/-- The second conditional (copy the accumulator out): the grid coordinate is 97. -/
abbrev cond1_1 (i : grid1.Coords) : Prop := k1_cond2 i = 1#1
theorem hcond1_1 : ∀ t : Fin cfg1.N, cond1_1 (grid1.coords t) ↔ t.val = 97 :=
  (by decide +kernel : ∀ t : Fin grid1.N, cond1_1 (grid1.coords t) ↔ t.val = 97)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last tile the output window is idle and is not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At the last tile it is live. -/
theorem liveAt1_4 : ∀ t : Fin cfg1.N, cond1_1 (grid1.coords t) → cfg1.idle 4 (grid1.coords t) = false := by decide +kernel

/-- The accumulator scratch: a whole scoped buffer of the kernel's own. -/
abbrev scM1 : Memref sig .tc .vmem S1x1 .f32 := Memref.whole cc1_scratch0

abbrev rw_S1x1 : Rect S1x1 := Rect.unit (s := S1x1) ![0, 0] S1x1.size inb_S1x1_S1x1_0_0

end Cert.Kernel.Fr

end
-- ==== Proof.Kernel.Loss.lean ====
/-
  The second kernel region (the loss reduction) as proof data for the pipeline rule, at any contents `V` of the core's
  buffers at the region's entry. What the accumulator scratch holds after tile `n` is a recursion on the tile: the
  body's payload of the tile's four input blocks and of what the tile before left (of the reset value at the first
  tile). The region invariant carries the scratch at that value from tile to tile; the output window's buffer is
  written at the last tile only, with the accumulator's final value, and handed back untouched elsewhere.
-/
import proofs.«177796_j44246753083785_1_alg».proof.Proof.Kernel.LossRuns
import Idealize.ShloMosaic.Lib.Pipeline.Value

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body on whole memrefs, case by case

Every load and store of the body takes a whole buffer. The four input buffers come back as they were; the accumulator
scratch ends at the payload of the four inputs and of what it held when the update read it: the reset value at the
first tile (the reset's store is read back by the update's load), its incoming contents elsewhere; at the last tile the
output buffer receives what the update left in the scratch. Where the output buffer is not stored into it is not
mentioned: it stays in the frame. -/

theorem hz2 : (![0, 0] : Fin 2 → Nat) = fun _ => 0 := funext fun a => by fin_cases a <;> rfl

/-- A store of the whole 1x1 buffer, last, covers it. -/
theorem cover1 (p : Vec F S1x1 .f32) (L : List (View.Piece (Elt F) S1x1 .f32)) (y : S1x1.Idx) :
    ∃ pc ∈ ((⟨rw_S1x1, p⟩ : View.Piece (Elt F) S1x1 .f32) :: L), y ∈ pc.1.set :=
  ⟨_, List.mem_cons_self, View.mem_set_unit_zero hz2 inb_S1x1_S1x1_0_0 y⟩

set_option maxHeartbeats 1000000 in
/-- The first tile: the scratch, at anything, is reset and then updated. -/
theorem sound_kernel1_A (c : Dev nD) (E : Set ℕ) (i : grid1.Coords)
    (arg1 : Memref sig .tc .vmem S1024x1000 .f32) (harg1 : arg1.IsWhole) (arg2 : Memref sig .tc .vmem S1024x1000 .f32) (harg2 : arg2.IsWhole)
    (arg3 : Memref sig .tc .vmem S1x1024 .f32) (harg3 : arg3.IsWhole) (arg4 : Memref sig .tc .vmem S1x1024 .f32) (harg4 : arg4.IsWhole)
    (arg5 : Memref sig .tc .vmem S1x1 .f32) (harg5 : arg5.IsWhole) (arg6 : Memref sig .tc .vmem S1x1 .f32) (harg6 : arg6.IsWhole)
    (hc0 : cond1_0 i) (hc1 : ¬cond1_1 i)
    (x0 : Vec F S1024x1000 .f32) (x1 : Vec F S1024x1000 .f32) (x2 : Vec F S1x1024 .f32) (x3 : Vec F S1x1024 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg6 fullShare (k1_pay2 x0 x1 x2 x3 (k1_pay1 (F := F)))) -∗ K ⟨⟩))
      ⊢ wp frame (wpE (defs₀ (F := F)) Variants.none c none) E (cc1__loss_kernel i arg1 harg1 arg2 harg2 arg3 harg3 arg4 harg4 arg5 harg5 arg6 harg6) K := by
  simp only [cc1__loss_kernel_eq_skeleton]; unfold cc1__loss_kernel_skel
  unfold owns
  iintro ⟨⟨%f0, %hf0, H0⟩, ⟨%f1, %hf1, H1⟩, ⟨%f2, %hf2, H2⟩, ⟨%f3, %hf3, H3⟩, ⟨%d6, %f6, -, H6⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H6
  ipureintro
  sl_unfold_words
  rw [View.read_writes_eq_canon _ _ _ (cover1 _ _), View.canon_cons_unit_zero hz2]
  simp only [View.readAt_eq_ld, View.readCov_unit_zero (S := S1x1) _ hz2, View.ld_unit_zero (S := S1x1) hz2,
    View.ld_unit_zero (S := S1024x1000) hz2, View.ld_unit_zero (S := S1x1024) hz2]

set_option maxHeartbeats 1000000 in
/-- A middle tile: the scratch is updated. -/
theorem sound_kernel1_B (c : Dev nD) (E : Set ℕ) (i : grid1.Coords)
    (arg1 : Memref sig .tc .vmem S1024x1000 .f32) (harg1 : arg1.IsWhole) (arg2 : Memref sig .tc .vmem S1024x1000 .f32) (harg2 : arg2.IsWhole)
    (arg3 : Memref sig .tc .vmem S1x1024 .f32) (harg3 : arg3.IsWhole) (arg4 : Memref sig .tc .vmem S1x1024 .f32) (harg4 : arg4.IsWhole)
    (arg5 : Memref sig .tc .vmem S1x1 .f32) (harg5 : arg5.IsWhole) (arg6 : Memref sig .tc .vmem S1x1 .f32) (harg6 : arg6.IsWhole)
    (hc0 : ¬cond1_0 i) (hc1 : ¬cond1_1 i)
    (x0 : Vec F S1024x1000 .f32) (x1 : Vec F S1024x1000 .f32) (x2 : Vec F S1x1024 .f32) (x3 : Vec F S1x1024 .f32)
    (a : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg6 fullShare a
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg6 fullShare (k1_pay2 x0 x1 x2 x3 a)) -∗ K ⟨⟩))
      ⊢ wp frame (wpE (defs₀ (F := F)) Variants.none c none) E (cc1__loss_kernel i arg1 harg1 arg2 harg2 arg3 harg3 arg4 harg4 arg5 harg5 arg6 harg6) K := by
  simp only [cc1__loss_kernel_eq_skeleton]; unfold cc1__loss_kernel_skel
  unfold owns
  iintro ⟨⟨%f0, %hf0, H0⟩, ⟨%f1, %hf1, H1⟩, ⟨%f2, %hf2, H2⟩, ⟨%f3, %hf3, H3⟩, ⟨%f6, %hf6, H6⟩, Hk⟩
  subst hf0; subst hf1; subst hf2; subst hf3; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H6
  ipureintro
  rw [View.read_writes_eq_canon _ _ _ (cover1 _ _), View.canon_unit_zero hz2]
  simp only [View.readAt_eq_ld, View.ld_unit_zero (S := S1x1) hz2, View.ld_unit_zero (S := S1024x1000) hz2,
    View.ld_unit_zero (S := S1x1024) hz2]

set_option maxHeartbeats 1000000 in
/-- The last tile: the scratch is updated, and what the update left is copied into the output buffer. -/
theorem sound_kernel1_C (c : Dev nD) (E : Set ℕ) (i : grid1.Coords)
    (arg1 : Memref sig .tc .vmem S1024x1000 .f32) (harg1 : arg1.IsWhole) (arg2 : Memref sig .tc .vmem S1024x1000 .f32) (harg2 : arg2.IsWhole)
    (arg3 : Memref sig .tc .vmem S1x1024 .f32) (harg3 : arg3.IsWhole) (arg4 : Memref sig .tc .vmem S1x1024 .f32) (harg4 : arg4.IsWhole)
    (arg5 : Memref sig .tc .vmem S1x1 .f32) (harg5 : arg5.IsWhole) (arg6 : Memref sig .tc .vmem S1x1 .f32) (harg6 : arg6.IsWhole)
    (hc0 : ¬cond1_0 i) (hc1 : cond1_1 i)
    (x0 : Vec F S1024x1000 .f32) (x1 : Vec F S1024x1000 .f32) (x2 : Vec F S1x1024 .f32) (x3 : Vec F S1x1024 .f32)
    (a : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ owns (c : Thread nD τ) arg6 fullShare a
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (k1_pay2 x0 x1 x2 x3 a)
            ∗ owns (c : Thread nD τ) arg6 fullShare (k1_pay2 x0 x1 x2 x3 a)) -∗ K ⟨⟩))
      ⊢ wp frame (wpE (defs₀ (F := F)) Variants.none c none) E (cc1__loss_kernel i arg1 harg1 arg2 harg2 arg3 harg3 arg4 harg4 arg5 harg5 arg6 harg6) K := by
  simp only [cc1__loss_kernel_eq_skeleton]; unfold cc1__loss_kernel_skel
  unfold owns
  iintro ⟨⟨%f0, %hf0, H0⟩, ⟨%f1, %hf1, H1⟩, ⟨%f2, %hf2, H2⟩, ⟨%f3, %hf3, H3⟩, ⟨%d5, %f5, -, H5⟩, ⟨%f6, %hf6, H6⟩, Hk⟩
  subst hf0; subst hf1; subst hf2; subst hf3; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H5]
  · iexists _; isplitr
    swap; · iexact H5
    ipureintro
    sl_unfold_words
    rw [View.read_writes_eq_canon _ _ _ (cover1 _ _), View.canon_unit_zero hz2]
    simp only [View.readAt_eq_ld, View.readCov_unit_zero (S := S1x1) _ hz2, View.ld_unit_zero (S := S1x1) hz2,
    View.ld_unit_zero (S := S1024x1000) hz2, View.ld_unit_zero (S := S1x1024) hz2]
  iexists _; isplitr
  swap; · iexact H6
  ipureintro
  sl_unfold_words
  rw [View.read_writes_eq_canon _ _ _ (cover1 _ _), View.canon_unit_zero hz2]
  simp only [View.readAt_eq_ld, View.readCov_unit_zero (S := S1x1) _ hz2, View.ld_unit_zero (S := S1x1) hz2,
    View.ld_unit_zero (S := S1024x1000) hz2, View.ld_unit_zero (S := S1x1024) hz2]

section Region1
variable (V : (c : Dev nD) → (b : Ref sig .tc) → Buf (Elt F) ((c : Thread nD τ).loc b))

/-- Window `w`'s block at tile `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every tile, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every tile, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every tile, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every tile, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- THE ACCUMULATION: what the scratch holds after the body at tile `n`. -/
def accAt (c : Dev nD) : (n : ℕ) → n < cfg1.N → Vec F S1x1 .f32
  | 0, h => k1_pay2 (iblk1 V c 0 ⟨0, h⟩) (iblk1 V c 1 ⟨0, h⟩) (iblk1 V c 2 ⟨0, h⟩) (iblk1 V c 3 ⟨0, h⟩) (k1_pay1 (F := F))
  | n + 1, h => k1_pay2 (iblk1 V c 0 ⟨n + 1, h⟩) (iblk1 V c 1 ⟨n + 1, h⟩) (iblk1 V c 2 ⟨n + 1, h⟩) (iblk1 V c 3 ⟨n + 1, h⟩)
      (accAt c n (Nat.lt_of_succ_lt h))

/-- The region invariant before tile `n`: before the first, the scoped rest at anything and the generator register;
    afterwards the same with the accumulator scratch at what the tile before left. -/
def PhiS (c : Dev nD) : (n : ℕ) → n ≤ cfg1.N → sProp 𝕄
  | 0, _ => Pipeline.ΦA spec1 c
  | n + 1, hn => iprop(Pipeline.scopedRestBut (Ix := Unit) (Name := ℕ) (U := UR sig nD τ) (Lvl := ℕ) (Val := Elt F) spec1 c [cc1_scratch0]
      ∗ owns (c : Thread nD τ) scM1 fullShare (accAt V c n hn) ∗ (∃ r, prngReg c r))

/-- The proof data of the second pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => accAt V c t.val t.isLt
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = accAt V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The invariant and the accumulation, tile by tile -/

theorem PhiS_zero (c : Dev nD) (n : ℕ) (h : n ≤ cfg1.N) (hz : n = 0) : PhiS V c n h = Pipeline.ΦA spec1 c := by
  subst hz; rfl

/-- After tile `n`: the accumulator scratch at what that tile left. -/
theorem PhiS_succ (c : Dev nD) (n : ℕ) (hn : n < cfg1.N) :
    PhiS V c (n + 1) hn = iprop(Pipeline.scopedRestBut (Ix := Unit) (Name := ℕ) (U := UR sig nD τ) (Lvl := ℕ) (Val := Elt F) spec1 c [cc1_scratch0]
      ∗ owns (c : Thread nD τ) scM1 fullShare (accAt V c n hn) ∗ (∃ r, prngReg c r)) := rfl

/-- Before a tile that is not the first: the accumulator scratch at what the tile before left. -/
theorem PhiS_pos (c : Dev nD) (n : ℕ) (h : n ≤ cfg1.N) (hz : n ≠ 0) :
    PhiS V c n h = iprop(Pipeline.scopedRestBut (Ix := Unit) (Name := ℕ) (U := UR sig nD τ) (Lvl := ℕ) (Val := Elt F) spec1 c [cc1_scratch0]
      ∗ owns (c : Thread nD τ) scM1 fullShare (accAt V c (n - 1) (by omega)) ∗ (∃ r, prngReg c r)) := by
  cases n with
  | zero => exact absurd rfl hz
  | succ n => rfl

/-- What the launch hands the region, with the accumulator scratch taken out of the scoped rest as a memref owned at
    some contents. -/
theorem PhiA1_eq (c : Dev nD) :
    (Pipeline.ΦA spec1 c : sProp 𝕄)
      = iprop(((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [Idealize.SL.BI.bigSepL_singleton, scM1, owns_whole]
  try rfl

/-- The accumulation at the first tile: the payload of its blocks over the reset value. -/
theorem accAt_zero (c : Dev nD) (t : Fin cfg1.N) (hz : t.val = 0) :
    accAt V c t.val t.isLt = k1_pay2 (iblk1 V c 0 t) (iblk1 V c 1 t) (iblk1 V c 2 t) (iblk1 V c 3 t) (k1_pay1 (F := F)) := by
  obtain ⟨n, hn⟩ := t
  cases n with
  | zero => rfl
  | succ n => exact absurd hz (Nat.succ_ne_zero n)

/-- The accumulation at a later tile: the payload of its blocks over what the tile before left. -/
theorem accAt_pos (c : Dev nD) (t : Fin cfg1.N) (hz : t.val ≠ 0) :
    accAt V c t.val t.isLt = k1_pay2 (iblk1 V c 0 t) (iblk1 V c 1 t) (iblk1 V c 2 t) (iblk1 V c 3 t)
      (accAt V c (t.val - 1) (Nat.lt_of_le_of_lt (Nat.sub_le _ _) t.isLt)) := by
  obtain ⟨n, hn⟩ := t
  cases n with
  | zero => exact absurd rfl hz
  | succ n => rfl

/-! ## The body obligation -/

/-- What the body is called with at tile `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4000000 in
/-- The body at any tile. The inputs' buffers hold their blocks and come back so. At the first tile the invariant is
    what the launch handed over: the scratch, at anything, is reset and updated. Later the invariant holds the scratch
    at what the tile before left, and the update makes it this tile's accumulation. Away from the last tile the output
    window is idle: its buffer is handed back as it came. At the last tile it receives the accumulation. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl,
    show (dat1 V c).Φ t.succ = PhiS V c (t.val + 1) t.isLt from rfl, PhiS_succ,
    show (dat1 V c).Φ t.castSucc = PhiS V c t.val (Nat.le_of_lt t.isLt) from rfl]
  rw [show (dat1 V c).leavesExact 0 t = owns (c : Thread nD τ) (st1_0 t) fullShare ((dat1 V c).after 0 t) from by
      unfold Dat.leavesExact; rw [liveAt1_0 t], after1_0]
  rw [show (dat1 V c).leavesExact 1 t = owns (c : Thread nD τ) (st1_1 t) fullShare ((dat1 V c).after 1 t) from by
      unfold Dat.leavesExact; rw [liveAt1_1 t], after1_1]
  rw [show (dat1 V c).leavesExact 2 t = owns (c : Thread nD τ) (st1_2 t) fullShare ((dat1 V c).after 2 t) from by
      unfold Dat.leavesExact; rw [liveAt1_2 t], after1_2]
  rw [show (dat1 V c).leavesExact 3 t = owns (c : Thread nD τ) (st1_3 t) fullShare ((dat1 V c).after 3 t) from by
      unfold Dat.leavesExact; rw [liveAt1_3 t], after1_3]
  by_cases h0 : t.val = 0
  · have hc0 : cond1_0 (grid1.coords t) := (hcond1_0 t).mpr h0
    have hc1 : ¬cond1_1 (grid1.coords t) := fun h => by have := (hcond1_1 t).mp h; omega
    rw [PhiS_zero V c _ _ h0, PhiA1_eq, Dat.leavesExact_idle (dat1 V c) 4 t (idleAt1_4 t hc1) (noFlush1_4 t hc1),
      accAt_zero V c t h0]
    iintro ⟨⟨⟨HS, HR⟩, Hg⟩, Ho, ⟨%d0, H0⟩, ⟨%d1, H1⟩, ⟨%d2, H2⟩, ⟨%d3, H3⟩, H4⟩
    iapply (sound_kernel1_A c Set.univ (grid1.coords t) _ _ _ _ _ _ _ _ _ _ _ _ hc0 hc1 (iblk1 V c 0 t) (iblk1 V c 1 t) (iblk1 V c 2 t) (iblk1 V c 3 t) _)
    isplitl [H0]; · iexact H0
    isplitl [H1]; · iexact H1
    isplitl [H2]; · iexact H2
    isplitl [H3]; · iexact H3
    isplitl [HS]; · iexact HS
    iintro ⟨H0, H1, H2, H3, HS⟩
    isplitl [HR HS Hg]
    · isplitl [HR]; · iexact HR
      isplitl [HS]; · iexact HS
      iexact Hg
    isplitl [Ho]; · iexact Ho
    isplitl [H0]; · iexact H0
    isplitl [H1]; · iexact H1
    isplitl [H2]; · iexact H2
    isplitl [H3]; · iexact H3
    iexact H4
  · have hc0 : ¬cond1_0 (grid1.coords t) := fun h => h0 ((hcond1_0 t).mp h)
    rw [PhiS_pos V c _ _ h0, accAt_pos V c t h0]
    by_cases h1 : t.val = 97
    · have hc1 : cond1_1 (grid1.coords t) := (hcond1_1 t).mpr h1
      rw [show (dat1 V c).leavesExact 4 t = owns (c : Thread nD τ) (st1_4 t) fullShare ((dat1 V c).after 4 t) from by
        unfold Dat.leavesExact; rw [liveAt1_4 t hc1], after1_4, accAt_pos V c t h0]
      iintro ⟨⟨HR, HS, Hg⟩, Ho, ⟨%d0, H0⟩, ⟨%d1, H1⟩, ⟨%d2, H2⟩, ⟨%d3, H3⟩, ⟨%d4, H4⟩⟩
      iapply (sound_kernel1_C c Set.univ (grid1.coords t) _ _ _ _ _ _ _ _ _ _ _ _ hc0 hc1 (iblk1 V c 0 t) (iblk1 V c 1 t) (iblk1 V c 2 t) (iblk1 V c 3 t)
        (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      isplitl [H3]; · iexact H3
      iexact H4
    · have hc1 : ¬cond1_1 (grid1.coords t) := fun h => h1 ((hcond1_1 t).mp h)
      rw [Dat.leavesExact_idle (dat1 V c) 4 t (idleAt1_4 t hc1) (noFlush1_4 t hc1)]
      iintro ⟨⟨HR, HS, Hg⟩, Ho, ⟨%d0, H0⟩, ⟨%d1, H1⟩, ⟨%d2, H2⟩, ⟨%d3, H3⟩, H4⟩
      iapply (sound_kernel1_B c Set.univ (grid1.coords t) _ _ _ _ _ _ _ _ _ _ _ _ hc0 hc1 (iblk1 V c 0 t) (iblk1 V c 1 t) (iblk1 V c 2 t) (iblk1 V c 3 t)
        (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      isplitl [H3]; · iexact H3
      iexact H4

/-- The pipeline rule's body obligation, at every tile. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first tile. -/
theorem hin1 (c : Dev nD) : Pipeline.ΦA spec1 c ⊢ (dat1 V c).Φ 0 := by
  rw [show (dat1 V c).Φ 0 = PhiS V c 0 (Nat.zero_le _) from rfl, PhiS_zero V c 0 _ rfl]

/-- After the last tile the invariant gives the scoped rest and the generator register back, the accumulator's value forgotten. -/
theorem hout1 (c : Dev nD) : (dat1 V c).Φ (Fin.last cfg1.N) ⊢ Pipeline.ΦA spec1 c := by
  rw [show (dat1 V c).Φ (Fin.last cfg1.N) = PhiS V c cfg1.N (Nat.le_refl _) from rfl,
    PhiS_pos V c cfg1.N _ (by have : cfg1.N = 98 := N_1; omega), PhiA1_eq]
  iintro ⟨HR, HS, Hg⟩
  isplitr [Hg]
  · isplitl [HS]
    · iexists _; iexact HS
    iexact HR
  iexact Hg

end Region1

end Cert.Kernel.Fr

end
-- ==== Proof.Kernel.Segs.lean ====
/-
  The two kernel regions as segments of @main's run: what each leaves in the one buffer it may change (the
  perceptron's output; the loss block), the proof data family over the buffer contents at each region's entry, and for
  each region its record for the several-regions launch: the region's arrays split out of the core's unscoped buffers at
  entry and put back at exit, the generator register and the scoped rest in and out of the region invariant, nothing
  owed, no semaphore of the kernel's own.
-/
import proofs.«177796_j44246753083785_1_alg».proof.Proof.Kernel.Mlp
import proofs.«177796_j44246753083785_1_alg».proof.Proof.Kernel.Loss
import proofs.«177796_j44246753083785_1_alg».proof.Proof.Gen.Kernel.Regions

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-! ## What the regions leave -/

/-- The buffer contents the first region is entered from: the launch memory. -/
abbrev Vr0 : (c : Dev nD) → (b : Ref sig .tc) → Buf (Elt F) ((c : Thread nD τ).loc b) := fun c b => V0 m c b

/-- What the first region leaves in its output array. -/
def o1 (c : Dev nD) : Buf (Elt F) ((c : Thread nD τ).loc main_v0) := (dat0 (Vr0 m) c).arrAt 7 cfg0.N

/-- The regions' leavings with only the first region's named. -/
def outs1 : Outs (F := F) := fun _ r c => Function.update (V0 m c) main_v0 (o1 m c) r

/-- The buffer contents the second region is entered from. -/
abbrev Vr12 : (c : Dev nD) → (b : Ref sig .tc) → Buf (Elt F) ((c : Thread nD τ).loc b) := fun c b => V12 m (outs1 m) c b

/-- What the second region leaves in its output array. -/
def o13 (c : Dev nD) : Buf (Elt F) ((c : Thread nD τ).loc main_v10) := (dat1 (Vr12 m) c).arrAt 4 cfg1.N

/-- What the regions leave in the buffers they may change. -/
def outs : Outs (F := F) := fun J r c =>
  if J = 13 then Function.update (V12 m (outs1 m) c) main_v10 (o13 m c) r else outs1 m J r c

theorem outs_1 (c : Dev nD) : outs m 1 main_v0 c = o1 m c := by
  unfold outs; rw [if_neg (by decide)]; unfold outs1; exact Function.update_self ..

theorem outs_13 (c : Dev nD) : outs m 13 main_v10 c = o13 m c := by
  unfold outs; rw [if_pos rfl]; exact Function.update_self ..

theorem V1_outs (c : Dev nD) : V1 m (outs m) c = V1 m (outs1 m) c := by
  show Function.update (V0 m c) main_v0 (outs m 1 main_v0 c) = Function.update (V0 m c) main_v0 (outs1 m 1 main_v0 c)
  rw [outs_1]; unfold outs1; rw [Function.update_self]

theorem V12_outs (c : Dev nD) : V12 m (outs m) c = V12 m (outs1 m) c := by
  show StableHlo.after hostOps1_10 (StableHlo.after hostOps1_9 (StableHlo.after hostOps1_8 (StableHlo.after hostOps1_7 (StableHlo.after hostOps1_6
    (StableHlo.after hostOps1_5 (StableHlo.after hostOps1_4 (StableHlo.after hostOps1_3 (StableHlo.after hostOps1_2 (StableHlo.after hostOps1_1
    (StableHlo.after hostOps1 (V1 m (outs m) c))))))))))) = _
  rw [V1_outs]

theorem V1_main_v0 (c : Dev nD) : V1 m (outs m) c main_v0 = o1 m c := by
  show Function.update (V0 m c) main_v0 (outs m 1 main_v0 c) main_v0 = _
  rw [Function.update_self, outs_1]

theorem V13_main_v10 (c : Dev nD) : V13 m (outs m) c main_v10 = o13 m c := by
  show Function.update (V12 m (outs m) c) main_v10 (outs m 13 main_v10 c) main_v10 = _
  rw [Function.update_self, outs_13]

/-! ## The proof data family and what rides along -/

/-- Every pipeline's proof data, each at its region's entry contents. -/
def pdats : (p : Fin 2) → (c : Dev nD) → Dat τ (Elt F) Unit ℕ (UR sig nD τ) ℕ (cfgs p) c
  | ⟨0, _⟩ => fun c => dat0 (Vr0 m) c
  | ⟨1, _⟩ => fun c => dat1 (Vr12 m) c

abbrev 𝒱₀ : Variants := Variants.none
abbrev L : GSem nD τ sig → Finset Unit := fun _ => ∅
abbrev lv : GSem nD τ sig → Unit → ℕ := fun _ _ => 0

/-- What rides beside the buffers through every segment: the generator register at some state and the core owing nothing. -/
abbrev R (c : Dev nD) : sProp 𝕄 := iprop((∃ r, prngReg c r) ∗ ∃ W, owes (c : Thread nD τ) (0 : CellTallies nD τ sig Unit) W)

abbrev E : Fin 3 → Dev nD → sProp 𝕄 := fun _ c => R (F := F) c

end Cert.Kernel.Fr

end
-- ==== Proof.Kernel.Run.lean ====
/-
  The kernel's run as the several-regions launch of its two region records among its host stretches: every weakly
  fair execution of @main terminates, and every unscoped buffer ends at the last of the buffer contents folded through
  @main. The argument arrays among them are as launched (the frame); the result array among them is the value the
  value modules read.
-/
import proofs.«177796_j44246753083785_1_alg».proof.Proof.Kernel.Segs
import proofs.«177796_j44246753083785_1_alg».proof.Proof.Kernel.RunCond

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-! ## The regions' arrays at exit are the next buffer contents; everything else is as at entry -/

theorem V12_eq (c : Dev nD) (b : Ref sig .tc) : V12 m (outs m) c b = Vr12 m c b := by
  show V12 m (outs m) c b = V12 m (outs1 m) c b
  rw [V12_outs]

theorem hF0 (c : Dev nD) (w : Fin cfg0.W) : (pdats m 0 c).arrAt w cfg0.N = V1 m (outs m) c (Pipeline.arrRef spec0 w) := by
  have hin : ∀ w' : Fin cfg0.W, (cfg0.win w').isOut = false → Pipeline.arrRef spec0 w' ∉ ([main_v0] : List (Ref sig .tc)) →
      (pdats m 0 c).arrAt w' cfg0.N = V1 m (outs m) c (Pipeline.arrRef spec0 w') := fun w' hi hne =>
    ((pdats m 0 c).arrAt_in w' hi _).trans ((A_eq0 (Vr0 m) c w').trans (V1_of m (outs m) c _ hne).symm)
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ => exact hin 5 rfl (by decide)
  | ⟨6, _⟩ => exact hin 6 rfl (by decide)
  | ⟨7, _⟩ => exact (V1_main_v0 m c).symm

theorem hrest0 (c : Dev nD) : ∀ b, b ∉ Finset.univ.image (Pipeline.arrRef spec0) → V1 m (outs m) c b = Vr0 m c b :=
  fun b hb => V1_of m (outs m) c b fun h => hb (by
    rw [List.mem_singleton.mp h]; exact Finset.mem_image.mpr ⟨7, Finset.mem_univ _, rfl⟩)

theorem hF1 (c : Dev nD) (w : Fin cfg1.W) : (pdats m 1 c).arrAt w cfg1.N = V13 m (outs m) c (Pipeline.arrRef spec1 w) := by
  have hin : ∀ w' : Fin cfg1.W, (cfg1.win w').isOut = false → Pipeline.arrRef spec1 w' ∉ ([main_v10] : List (Ref sig .tc)) →
      (pdats m 1 c).arrAt w' cfg1.N = V13 m (outs m) c (Pipeline.arrRef spec1 w') := fun w' hi hne =>
    ((pdats m 1 c).arrAt_in w' hi _).trans ((A_eq1 (Vr12 m) c w').trans ((V12_eq m c _).symm.trans (V13_of m (outs m) c _ hne).symm))
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact (V13_main_v10 m c).symm

theorem hrest1 (c : Dev nD) : ∀ b, b ∉ Finset.univ.image (Pipeline.arrRef spec1) → V13 m (outs m) c b = Vr12 m c b :=
  fun b hb => (V13_of m (outs m) c b fun h => hb (by
    rw [List.mem_singleton.mp h]; exact Finset.mem_image.mpr ⟨4, Finset.mem_univ _, rfl⟩)).trans (V12_eq m c b)

/-! ## The regions as segments -/

set_option backward.isDefEq.respectTransparency.types false in
/-- The first region over the thread state: entered from every unscoped buffer at the launch contents, left at the
    contents with its output array at what it wrote. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr0 m) c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (V1 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr0 m c) (fun b => V1 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at the contents after the host
    stretches between the regions, left at those with its output array at what it wrote. The accumulator scratch goes
    into the region invariant with the scoped rest and comes back with it, its value forgotten. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr12 m) c).loose
  hwaits := Pipeline.hwaits_of_owed_zero _ _ _ _ L lv 1 fun _ _ => rfl
  pre c := iprop(StableHlo.held (c : Thread nD τ) (Pipeline.ucRefs τ sig) (V12 m (outs m) c) ∗ R c)
  post c := iprop(StableHlo.held (c : Thread nD τ) (Pipeline.ucRefs τ sig) (V13 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vr12 m c)
  hentry c := by
    rw [Pipeline.ownSems0_none, V12_outs]
    have hsplit := Pipeline.arrays_of_unscopedBufs (p := 1) (pcfgs (F := F)) adm (pdats m) launch1.win launch1.arr_whole c
      ((pdats m 1 c).share_full fun _ => rfl) (Vr12 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vr12 m) c)
    unfold Pipeline.ΦA
    iintro ⟨Hp, -, Hr⟩
    isplitl [Hr]; · iexact Hr
    iexact Hp
  hout c := by
    rw [Pipeline.ownSems0_none]
    refine BIBase.Entails.trans (hout1 (Vr12 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr12 m c) (fun b => V13 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- THE RUN: from any memory with zero counters every weakly fair execution of @main on the TensorCores terminates,
    nothing faulting, and every unscoped buffer ends at the last buffer contents. -/
theorem run (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V14 m (outs m) c b) :=
  run_cond m (Ix := Unit) (U := UR sig nD τ) (Lvl := ℕ) emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E (F := F))
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun c => .rfl) (fun c => .rfl)
    (reg1 m) (fun c => .rfl) (fun c => .rfl)

/-- An unscoped TensorCore reference is among those the run reads at the end. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME, at any float instance: the argument arrays end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (V14_main_arg0 m (outs m) c),
     (h c _ (mem_uc main_arg1 (by decide))).trans (V14_main_arg1 m (outs m) c),
     (h c _ (mem_uc main_arg2 (by decide))).trans (V14_main_arg2 m (outs m) c),
     (h c _ (mem_uc main_arg3 (by decide))).trans (V14_main_arg3 m (outs m) c),
     (h c _ (mem_uc main_arg4 (by decide))).trans (V14_main_arg4 m (outs m) c),
     (h c _ (mem_uc main_arg5 (by decide))).trans (V14_main_arg5 m (outs m) c),
     (h c _ (mem_uc main_arg6 (by decide))).trans (V14_main_arg6 m (outs m) c),
     (h c _ (mem_uc main_arg7 (by decide))).trans (V14_main_arg7 m (outs m) c),
     (h c _ (mem_uc main_arg8 (by decide))).trans (V14_main_arg8 m (outs m) c),
     (h c _ (mem_uc main_arg9 (by decide))).trans (V14_main_arg9 m (outs m) c)⟩) (run m ρ)

end Cert.Kernel.Fr

end
-- ==== Proof.KernelIdeal.Mlp.lean ====
/-
  The first kernel region (the three-layer perceptron, one grid point, every operand one whole block) as proof data
  for the pipeline rule: at any contents `V` of the core's buffers at the region's entry, each input window's staging
  buffer holds the whole operand, the body stores the perceptron's value of them into the output window's buffer, and
  the scoped rest and the generator register pass through untouched.
-/
import proofs.«177796_j44246753083785_1_alg».proof.Proof.Gen.KernelIdeal.Launch
import proofs.«177796_j44246753083785_1_alg».proof.Proof.Gen.KernelIdeal.Skeleton
import proofs.«177796_j44246753083785_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at the point, for any proof data over `V` that leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at the point, for any proof data over `V` that leaves it in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at the point, for any proof data over `V` that leaves it in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at the point, for any proof data over `V` that leaves it in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at the point, for any proof data over `V` that leaves it in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at the point, for any proof data over `V` that leaves it in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's staging buffer holds its block at the point, for any proof data over `V` that leaves it in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take the whole buffer -/

abbrev rw_S1024x1000 : Rect S1024x1000 := Rect.unit (s := S1024x1000) ![0, 0] S1024x1000.size inb_S1024x1000_S1024x1000_0_0
abbrev rw_S1000x1024 : Rect S1000x1024 := Rect.unit (s := S1000x1024) ![0, 0] S1000x1024.size inb_S1000x1024_S1000x1024_0_0
abbrev rw_S1024 : Rect S1024 := Rect.unit (s := S1024) ![0] S1024.size inb_S1024_S1024_0
abbrev rw_S1024x1024 : Rect S1024x1024 := Rect.unit (s := S1024x1024) ![0, 0] S1024x1024.size inb_S1024x1024_S1024x1024_0_0
abbrev rw_S1000 : Rect S1000 := Rect.unit (s := S1000) ![0] S1000.size inb_S1000_S1000_0

/-- The output window's staging buffer after the body: its one store, of the perceptron's value of the seven loads. -/
def out0_7 (x0 : Vec F S1024x1000 .f32) (x1 : Vec F S1000x1024 .f32) (x2 : Vec F S1024 .f32) (x3 : Vec F S1024x1024 .f32)
    (x4 : Vec F S1024 .f32) (x5 : Vec F S1024x1000 .f32) (x6 : Vec F S1000 .f32) : Vec F S1024x1000 .f32 :=
  View.canon [⟨rw_S1024x1000, k0_pay1 (View.ld x0 rw_S1024x1000) (View.ld x1 rw_S1000x1024) (View.ld x2 rw_S1024) (View.ld x3 rw_S1024x1024)
    (View.ld x4 rw_S1024) (View.ld x5 rw_S1024x1000) (View.ld x6 rw_S1000)⟩]

/-- The store takes the whole buffer, so it covers it. -/
theorem cover0_7 (p0 : Vec F S1024x1000 .f32) (y : S1024x1000.Idx) :
    ∃ pc ∈ ([⟨rw_S1024x1000, p0⟩] : List (View.Piece (Elt F) S1024x1000 .f32)), y ∈ pc.1.set :=
  View.cover_of_tiled [⟨rw_S1024x1000, p0⟩] S1024x1000.size (by rfl) y

set_option maxHeartbeats 1000000 in
/-- The body on whole staging memrefs: the inputs come back as they were, the output's buffer holds `out0_7` of them. -/
theorem sound_kernel0 (c : Dev nD) (E : Set ℕ) (i : grid0.Coords)
    (arg1 : Memref sig .tc .vmem S1024x1000 .f32) (harg1 : arg1.IsWhole) (arg2 : Memref sig .tc .vmem S1000x1024 .f32) (harg2 : arg2.IsWhole)
    (arg3 : Memref sig .tc .vmem S1024 .f32) (harg3 : arg3.IsWhole) (arg4 : Memref sig .tc .vmem S1024x1024 .f32) (harg4 : arg4.IsWhole)
    (arg5 : Memref sig .tc .vmem S1024 .f32) (harg5 : arg5.IsWhole) (arg6 : Memref sig .tc .vmem S1024x1000 .f32) (harg6 : arg6.IsWhole)
    (arg7 : Memref sig .tc .vmem S1000 .f32) (harg7 : arg7.IsWhole) (arg8 : Memref sig .tc .vmem S1024x1000 .f32) (harg8 : arg8.IsWhole)
    (x0 : Vec F S1024x1000 .f32) (x1 : Vec F S1000x1024 .f32) (x2 : Vec F S1024 .f32) (x3 : Vec F S1024x1024 .f32)
    (x4 : Vec F S1024 .f32) (x5 : Vec F S1024x1000 .f32) (x6 : Vec F S1000 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The pipeline's proof data -/

/-- The proof data of the first pipeline on core `c`: the arrays as the region finds them; after the body each input's
    buffer at its block and the output's at `out0_7` of the input blocks; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t
    = out0_7 (iblk0 V c 0 t) (iblk0 V c 1 t) (iblk0 V c 2 t) (iblk0 V c 3 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline rule's body obligation, at the one point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Fr

end
-- ==== Proof.KernelIdeal.LossRuns.lean ====
/-
  The second kernel region's body (the streamed loss reduction over 98 tiles of 1024 queries) as three triples, one
  per control case of its two conditionals on the grid coordinate: the first tile (the accumulator scratch is reset
  before it is added to), a middle tile (the accumulator is added to), the last tile (added to, then copied into the
  output window's buffer).
-/
import proofs.«177796_j44246753083785_1_alg».proof.Proof.Gen.KernelIdeal.Launch
import proofs.«177796_j44246753083785_1_alg».proof.Proof.Gen.KernelIdeal.Skeleton
import proofs.«177796_j44246753083785_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's two conditions, decided over the grid -/

/-- The first conditional (reset the accumulator): the grid coordinate is 0. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)

/-- The second conditional (copy the accumulator out): the grid coordinate is 97. -/
abbrev cond1_1 (i : grid1.Coords) : Prop := k1_cond2 i = 1#1
theorem hcond1_1 : ∀ t : Fin cfg1.N, cond1_1 (grid1.coords t) ↔ t.val = 97 :=
  (by decide +kernel : ∀ t : Fin grid1.N, cond1_1 (grid1.coords t) ↔ t.val = 97)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last tile the output window is idle and is not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At the last tile it is live. -/
theorem liveAt1_4 : ∀ t : Fin cfg1.N, cond1_1 (grid1.coords t) → cfg1.idle 4 (grid1.coords t) = false := by decide +kernel

/-- The accumulator scratch: a whole scoped buffer of the kernel's own. -/
abbrev scM1 : Memref sig .tc .vmem S1x1 .f32 := Memref.whole cc1_scratch0

abbrev rw_S1x1 : Rect S1x1 := Rect.unit (s := S1x1) ![0, 0] S1x1.size inb_S1x1_S1x1_0_0

end Cert.KernelIdeal.Fr

end
-- ==== Proof.KernelIdeal.Loss.lean ====
/-
  The second kernel region (the loss reduction) as proof data for the pipeline rule, at any contents `V` of the core's
  buffers at the region's entry. What the accumulator scratch holds after tile `n` is a recursion on the tile: the
  body's payload of the tile's four input blocks and of what the tile before left (of the reset value at the first
  tile). The region invariant carries the scratch at that value from tile to tile; the output window's buffer is
  written at the last tile only, with the accumulator's final value, and handed back untouched elsewhere.
-/
import proofs.«177796_j44246753083785_1_alg».proof.Proof.KernelIdeal.LossRuns
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body on whole memrefs, case by case

Every load and store of the body takes a whole buffer. The four input buffers come back as they were; the accumulator
scratch ends at the payload of the four inputs and of what it held when the update read it: the reset value at the
first tile (the reset's store is read back by the update's load), its incoming contents elsewhere; at the last tile the
output buffer receives what the update left in the scratch. Where the output buffer is not stored into it is not
mentioned: it stays in the frame. -/

theorem hz2 : (![0, 0] : Fin 2 → Nat) = fun _ => 0 := funext fun a => by fin_cases a <;> rfl

/-- A store of the whole 1x1 buffer, last, covers it. -/
theorem cover1 (p : Vec F S1x1 .f32) (L : List (View.Piece (Elt F) S1x1 .f32)) (y : S1x1.Idx) :
    ∃ pc ∈ ((⟨rw_S1x1, p⟩ : View.Piece (Elt F) S1x1 .f32) :: L), y ∈ pc.1.set :=
  ⟨_, List.mem_cons_self, View.mem_set_unit_zero hz2 inb_S1x1_S1x1_0_0 y⟩

set_option maxHeartbeats 1000000 in
/-- The first tile: the scratch, at anything, is reset and then updated. -/
theorem sound_kernel1_A (c : Dev nD) (E : Set ℕ) (i : grid1.Coords)
    (arg1 : Memref sig .tc .vmem S1024x1000 .f32) (harg1 : arg1.IsWhole) (arg2 : Memref sig .tc .vmem S1024x1000 .f32) (harg2 : arg2.IsWhole)
    (arg3 : Memref sig .tc .vmem S1x1024 .f32) (harg3 : arg3.IsWhole) (arg4 : Memref sig .tc .vmem S1x1024 .f32) (harg4 : arg4.IsWhole)
    (arg5 : Memref sig .tc .vmem S1x1 .f32) (harg5 : arg5.IsWhole) (arg6 : Memref sig .tc .vmem S1x1 .f32) (harg6 : arg6.IsWhole)
    (hc0 : cond1_0 i) (hc1 : ¬cond1_1 i)
    (x0 : Vec F S1024x1000 .f32) (x1 : Vec F S1024x1000 .f32) (x2 : Vec F S1x1024 .f32) (x3 : Vec F S1x1024 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg6 fullShare (k1_pay2 x0 x1 x2 x3 (k1_pay1 (F := F)))) -∗ K ⟨⟩))
      ⊢ wp frame (wpE (defs₀ (F := F)) Variants.none c none) E (cc1__loss_kernel i arg1 harg1 arg2 harg2 arg3 harg3 arg4 harg4 arg5 harg5 arg6 harg6) K := by
  simp only [cc1__loss_kernel_eq_skeleton]; unfold cc1__loss_kernel_skel
  unfold owns
  iintro ⟨⟨%f0, %hf0, H0⟩, ⟨%f1, %hf1, H1⟩, ⟨%f2, %hf2, H2⟩, ⟨%f3, %hf3, H3⟩, ⟨%d6, %f6, -, H6⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H6
  ipureintro
  sl_unfold_words
  rw [View.read_writes_eq_canon _ _ _ (cover1 _ _), View.canon_cons_unit_zero hz2]
  simp only [View.readAt_eq_ld, View.readCov_unit_zero (S := S1x1) _ hz2, View.ld_unit_zero (S := S1x1) hz2,
    View.ld_unit_zero (S := S1024x1000) hz2, View.ld_unit_zero (S := S1x1024) hz2]

set_option maxHeartbeats 1000000 in
/-- A middle tile: the scratch is updated. -/
theorem sound_kernel1_B (c : Dev nD) (E : Set ℕ) (i : grid1.Coords)
    (arg1 : Memref sig .tc .vmem S1024x1000 .f32) (harg1 : arg1.IsWhole) (arg2 : Memref sig .tc .vmem S1024x1000 .f32) (harg2 : arg2.IsWhole)
    (arg3 : Memref sig .tc .vmem S1x1024 .f32) (harg3 : arg3.IsWhole) (arg4 : Memref sig .tc .vmem S1x1024 .f32) (harg4 : arg4.IsWhole)
    (arg5 : Memref sig .tc .vmem S1x1 .f32) (harg5 : arg5.IsWhole) (arg6 : Memref sig .tc .vmem S1x1 .f32) (harg6 : arg6.IsWhole)
    (hc0 : ¬cond1_0 i) (hc1 : ¬cond1_1 i)
    (x0 : Vec F S1024x1000 .f32) (x1 : Vec F S1024x1000 .f32) (x2 : Vec F S1x1024 .f32) (x3 : Vec F S1x1024 .f32)
    (a : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg6 fullShare a
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg6 fullShare (k1_pay2 x0 x1 x2 x3 a)) -∗ K ⟨⟩))
      ⊢ wp frame (wpE (defs₀ (F := F)) Variants.none c none) E (cc1__loss_kernel i arg1 harg1 arg2 harg2 arg3 harg3 arg4 harg4 arg5 harg5 arg6 harg6) K := by
  simp only [cc1__loss_kernel_eq_skeleton]; unfold cc1__loss_kernel_skel
  unfold owns
  iintro ⟨⟨%f0, %hf0, H0⟩, ⟨%f1, %hf1, H1⟩, ⟨%f2, %hf2, H2⟩, ⟨%f3, %hf3, H3⟩, ⟨%f6, %hf6, H6⟩, Hk⟩
  subst hf0; subst hf1; subst hf2; subst hf3; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H6
  ipureintro
  rw [View.read_writes_eq_canon _ _ _ (cover1 _ _), View.canon_unit_zero hz2]
  simp only [View.readAt_eq_ld, View.ld_unit_zero (S := S1x1) hz2, View.ld_unit_zero (S := S1024x1000) hz2,
    View.ld_unit_zero (S := S1x1024) hz2]

set_option maxHeartbeats 1000000 in
/-- The last tile: the scratch is updated, and what the update left is copied into the output buffer. -/
theorem sound_kernel1_C (c : Dev nD) (E : Set ℕ) (i : grid1.Coords)
    (arg1 : Memref sig .tc .vmem S1024x1000 .f32) (harg1 : arg1.IsWhole) (arg2 : Memref sig .tc .vmem S1024x1000 .f32) (harg2 : arg2.IsWhole)
    (arg3 : Memref sig .tc .vmem S1x1024 .f32) (harg3 : arg3.IsWhole) (arg4 : Memref sig .tc .vmem S1x1024 .f32) (harg4 : arg4.IsWhole)
    (arg5 : Memref sig .tc .vmem S1x1 .f32) (harg5 : arg5.IsWhole) (arg6 : Memref sig .tc .vmem S1x1 .f32) (harg6 : arg6.IsWhole)
    (hc0 : ¬cond1_0 i) (hc1 : cond1_1 i)
    (x0 : Vec F S1024x1000 .f32) (x1 : Vec F S1024x1000 .f32) (x2 : Vec F S1x1024 .f32) (x3 : Vec F S1x1024 .f32)
    (a : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ owns (c : Thread nD τ) arg6 fullShare a
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (k1_pay2 x0 x1 x2 x3 a)
            ∗ owns (c : Thread nD τ) arg6 fullShare (k1_pay2 x0 x1 x2 x3 a)) -∗ K ⟨⟩))
      ⊢ wp frame (wpE (defs₀ (F := F)) Variants.none c none) E (cc1__loss_kernel i arg1 harg1 arg2 harg2 arg3 harg3 arg4 harg4 arg5 harg5 arg6 harg6) K := by
  simp only [cc1__loss_kernel_eq_skeleton]; unfold cc1__loss_kernel_skel
  unfold owns
  iintro ⟨⟨%f0, %hf0, H0⟩, ⟨%f1, %hf1, H1⟩, ⟨%f2, %hf2, H2⟩, ⟨%f3, %hf3, H3⟩, ⟨%d5, %f5, -, H5⟩, ⟨%f6, %hf6, H6⟩, Hk⟩
  subst hf0; subst hf1; subst hf2; subst hf3; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H5]
  · iexists _; isplitr
    swap; · iexact H5
    ipureintro
    sl_unfold_words
    rw [View.read_writes_eq_canon _ _ _ (cover1 _ _), View.canon_unit_zero hz2]
    simp only [View.readAt_eq_ld, View.readCov_unit_zero (S := S1x1) _ hz2, View.ld_unit_zero (S := S1x1) hz2,
    View.ld_unit_zero (S := S1024x1000) hz2, View.ld_unit_zero (S := S1x1024) hz2]
  iexists _; isplitr
  swap; · iexact H6
  ipureintro
  sl_unfold_words
  rw [View.read_writes_eq_canon _ _ _ (cover1 _ _), View.canon_unit_zero hz2]
  simp only [View.readAt_eq_ld, View.readCov_unit_zero (S := S1x1) _ hz2, View.ld_unit_zero (S := S1x1) hz2,
    View.ld_unit_zero (S := S1024x1000) hz2, View.ld_unit_zero (S := S1x1024) hz2]

section Region1
variable (V : (c : Dev nD) → (b : Ref sig .tc) → Buf (Elt F) ((c : Thread nD τ).loc b))

/-- Window `w`'s block at tile `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every tile, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every tile, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every tile, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every tile, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- THE ACCUMULATION: what the scratch holds after the body at tile `n`. -/
def accAt (c : Dev nD) : (n : ℕ) → n < cfg1.N → Vec F S1x1 .f32
  | 0, h => k1_pay2 (iblk1 V c 0 ⟨0, h⟩) (iblk1 V c 1 ⟨0, h⟩) (iblk1 V c 2 ⟨0, h⟩) (iblk1 V c 3 ⟨0, h⟩) (k1_pay1 (F := F))
  | n + 1, h => k1_pay2 (iblk1 V c 0 ⟨n + 1, h⟩) (iblk1 V c 1 ⟨n + 1, h⟩) (iblk1 V c 2 ⟨n + 1, h⟩) (iblk1 V c 3 ⟨n + 1, h⟩)
      (accAt c n (Nat.lt_of_succ_lt h))

/-- The region invariant before tile `n`: before the first, the scoped rest at anything and the generator register;
    afterwards the same with the accumulator scratch at what the tile before left. -/
def PhiS (c : Dev nD) : (n : ℕ) → n ≤ cfg1.N → sProp 𝕄
  | 0, _ => Pipeline.ΦA spec1 c
  | n + 1, hn => iprop(Pipeline.scopedRestBut (Ix := Unit) (Name := ℕ) (U := UR sig nD τ) (Lvl := ℕ) (Val := Elt F) spec1 c [cc1_scratch0]
      ∗ owns (c : Thread nD τ) scM1 fullShare (accAt V c n hn) ∗ (∃ r, prngReg c r))

/-- The proof data of the second pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => accAt V c t.val t.isLt
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = accAt V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The invariant and the accumulation, tile by tile -/

theorem PhiS_zero (c : Dev nD) (n : ℕ) (h : n ≤ cfg1.N) (hz : n = 0) : PhiS V c n h = Pipeline.ΦA spec1 c := by
  subst hz; rfl

/-- After tile `n`: the accumulator scratch at what that tile left. -/
theorem PhiS_succ (c : Dev nD) (n : ℕ) (hn : n < cfg1.N) :
    PhiS V c (n + 1) hn = iprop(Pipeline.scopedRestBut (Ix := Unit) (Name := ℕ) (U := UR sig nD τ) (Lvl := ℕ) (Val := Elt F) spec1 c [cc1_scratch0]
      ∗ owns (c : Thread nD τ) scM1 fullShare (accAt V c n hn) ∗ (∃ r, prngReg c r)) := rfl

/-- Before a tile that is not the first: the accumulator scratch at what the tile before left. -/
theorem PhiS_pos (c : Dev nD) (n : ℕ) (h : n ≤ cfg1.N) (hz : n ≠ 0) :
    PhiS V c n h = iprop(Pipeline.scopedRestBut (Ix := Unit) (Name := ℕ) (U := UR sig nD τ) (Lvl := ℕ) (Val := Elt F) spec1 c [cc1_scratch0]
      ∗ owns (c : Thread nD τ) scM1 fullShare (accAt V c (n - 1) (by omega)) ∗ (∃ r, prngReg c r)) := by
  cases n with
  | zero => exact absurd rfl hz
  | succ n => rfl

/-- What the launch hands the region, with the accumulator scratch taken out of the scoped rest as a memref owned at
    some contents. -/
theorem PhiA1_eq (c : Dev nD) :
    (Pipeline.ΦA spec1 c : sProp 𝕄)
      = iprop(((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [Idealize.SL.BI.bigSepL_singleton, scM1, owns_whole]
  try rfl

/-- The accumulation at the first tile: the payload of its blocks over the reset value. -/
theorem accAt_zero (c : Dev nD) (t : Fin cfg1.N) (hz : t.val = 0) :
    accAt V c t.val t.isLt = k1_pay2 (iblk1 V c 0 t) (iblk1 V c 1 t) (iblk1 V c 2 t) (iblk1 V c 3 t) (k1_pay1 (F := F)) := by
  obtain ⟨n, hn⟩ := t
  cases n with
  | zero => rfl
  | succ n => exact absurd hz (Nat.succ_ne_zero n)

/-- The accumulation at a later tile: the payload of its blocks over what the tile before left. -/
theorem accAt_pos (c : Dev nD) (t : Fin cfg1.N) (hz : t.val ≠ 0) :
    accAt V c t.val t.isLt = k1_pay2 (iblk1 V c 0 t) (iblk1 V c 1 t) (iblk1 V c 2 t) (iblk1 V c 3 t)
      (accAt V c (t.val - 1) (Nat.lt_of_le_of_lt (Nat.sub_le _ _) t.isLt)) := by
  obtain ⟨n, hn⟩ := t
  cases n with
  | zero => exact absurd rfl hz
  | succ n => rfl

/-! ## The body obligation -/

/-- What the body is called with at tile `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4000000 in
/-- The body at any tile. The inputs' buffers hold their blocks and come back so. At the first tile the invariant is
    what the launch handed over: the scratch, at anything, is reset and updated. Later the invariant holds the scratch
    at what the tile before left, and the update makes it this tile's accumulation. Away from the last tile the output
    window is idle: its buffer is handed back as it came. At the last tile it receives the accumulation. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl,
    show (dat1 V c).Φ t.succ = PhiS V c (t.val + 1) t.isLt from rfl, PhiS_succ,
    show (dat1 V c).Φ t.castSucc = PhiS V c t.val (Nat.le_of_lt t.isLt) from rfl]
  rw [show (dat1 V c).leavesExact 0 t = owns (c : Thread nD τ) (st1_0 t) fullShare ((dat1 V c).after 0 t) from by
      unfold Dat.leavesExact; rw [liveAt1_0 t], after1_0]
  rw [show (dat1 V c).leavesExact 1 t = owns (c : Thread nD τ) (st1_1 t) fullShare ((dat1 V c).after 1 t) from by
      unfold Dat.leavesExact; rw [liveAt1_1 t], after1_1]
  rw [show (dat1 V c).leavesExact 2 t = owns (c : Thread nD τ) (st1_2 t) fullShare ((dat1 V c).after 2 t) from by
      unfold Dat.leavesExact; rw [liveAt1_2 t], after1_2]
  rw [show (dat1 V c).leavesExact 3 t = owns (c : Thread nD τ) (st1_3 t) fullShare ((dat1 V c).after 3 t) from by
      unfold Dat.leavesExact; rw [liveAt1_3 t], after1_3]
  by_cases h0 : t.val = 0
  · have hc0 : cond1_0 (grid1.coords t) := (hcond1_0 t).mpr h0
    have hc1 : ¬cond1_1 (grid1.coords t) := fun h => by have := (hcond1_1 t).mp h; omega
    rw [PhiS_zero V c _ _ h0, PhiA1_eq, Dat.leavesExact_idle (dat1 V c) 4 t (idleAt1_4 t hc1) (noFlush1_4 t hc1),
      accAt_zero V c t h0]
    iintro ⟨⟨⟨HS, HR⟩, Hg⟩, Ho, ⟨%d0, H0⟩, ⟨%d1, H1⟩, ⟨%d2, H2⟩, ⟨%d3, H3⟩, H4⟩
    iapply (sound_kernel1_A c Set.univ (grid1.coords t) _ _ _ _ _ _ _ _ _ _ _ _ hc0 hc1 (iblk1 V c 0 t) (iblk1 V c 1 t) (iblk1 V c 2 t) (iblk1 V c 3 t) _)
    isplitl [H0]; · iexact H0
    isplitl [H1]; · iexact H1
    isplitl [H2]; · iexact H2
    isplitl [H3]; · iexact H3
    isplitl [HS]; · iexact HS
    iintro ⟨H0, H1, H2, H3, HS⟩
    isplitl [HR HS Hg]
    · isplitl [HR]; · iexact HR
      isplitl [HS]; · iexact HS
      iexact Hg
    isplitl [Ho]; · iexact Ho
    isplitl [H0]; · iexact H0
    isplitl [H1]; · iexact H1
    isplitl [H2]; · iexact H2
    isplitl [H3]; · iexact H3
    iexact H4
  · have hc0 : ¬cond1_0 (grid1.coords t) := fun h => h0 ((hcond1_0 t).mp h)
    rw [PhiS_pos V c _ _ h0, accAt_pos V c t h0]
    by_cases h1 : t.val = 97
    · have hc1 : cond1_1 (grid1.coords t) := (hcond1_1 t).mpr h1
      rw [show (dat1 V c).leavesExact 4 t = owns (c : Thread nD τ) (st1_4 t) fullShare ((dat1 V c).after 4 t) from by
        unfold Dat.leavesExact; rw [liveAt1_4 t hc1], after1_4, accAt_pos V c t h0]
      iintro ⟨⟨HR, HS, Hg⟩, Ho, ⟨%d0, H0⟩, ⟨%d1, H1⟩, ⟨%d2, H2⟩, ⟨%d3, H3⟩, ⟨%d4, H4⟩⟩
      iapply (sound_kernel1_C c Set.univ (grid1.coords t) _ _ _ _ _ _ _ _ _ _ _ _ hc0 hc1 (iblk1 V c 0 t) (iblk1 V c 1 t) (iblk1 V c 2 t) (iblk1 V c 3 t)
        (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      isplitl [H3]; · iexact H3
      iexact H4
    · have hc1 : ¬cond1_1 (grid1.coords t) := fun h => h1 ((hcond1_1 t).mp h)
      rw [Dat.leavesExact_idle (dat1 V c) 4 t (idleAt1_4 t hc1) (noFlush1_4 t hc1)]
      iintro ⟨⟨HR, HS, Hg⟩, Ho, ⟨%d0, H0⟩, ⟨%d1, H1⟩, ⟨%d2, H2⟩, ⟨%d3, H3⟩, H4⟩
      iapply (sound_kernel1_B c Set.univ (grid1.coords t) _ _ _ _ _ _ _ _ _ _ _ _ hc0 hc1 (iblk1 V c 0 t) (iblk1 V c 1 t) (iblk1 V c 2 t) (iblk1 V c 3 t)
        (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      isplitl [H3]; · iexact H3
      iexact H4

/-- The pipeline rule's body obligation, at every tile. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first tile. -/
theorem hin1 (c : Dev nD) : Pipeline.ΦA spec1 c ⊢ (dat1 V c).Φ 0 := by
  rw [show (dat1 V c).Φ 0 = PhiS V c 0 (Nat.zero_le _) from rfl, PhiS_zero V c 0 _ rfl]

/-- After the last tile the invariant gives the scoped rest and the generator register back, the accumulator's value forgotten. -/
theorem hout1 (c : Dev nD) : (dat1 V c).Φ (Fin.last cfg1.N) ⊢ Pipeline.ΦA spec1 c := by
  rw [show (dat1 V c).Φ (Fin.last cfg1.N) = PhiS V c cfg1.N (Nat.le_refl _) from rfl,
    PhiS_pos V c cfg1.N _ (by have : cfg1.N = 98 := N_1; omega), PhiA1_eq]
  iintro ⟨HR, HS, Hg⟩
  isplitr [Hg]
  · isplitl [HS]
    · iexists _; iexact HS
    iexact HR
  iexact Hg

end Region1

end Cert.KernelIdeal.Fr

end
-- ==== Proof.KernelIdeal.Segs.lean ====
/-
  The two kernel regions as segments of @main's run: what each leaves in the one buffer it may change (the
  perceptron's output; the loss block), the proof data family over the buffer contents at each region's entry, and for
  each region its record for the several-regions launch: the region's arrays split out of the core's unscoped buffers at
  entry and put back at exit, the generator register and the scoped rest in and out of the region invariant, nothing
  owed, no semaphore of the kernel's own.
-/
import proofs.«177796_j44246753083785_1_alg».proof.Proof.KernelIdeal.Mlp
import proofs.«177796_j44246753083785_1_alg».proof.Proof.KernelIdeal.Loss
import proofs.«177796_j44246753083785_1_alg».proof.Proof.Gen.KernelIdeal.Regions

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-! ## What the regions leave -/

/-- The buffer contents the first region is entered from: the launch memory. -/
abbrev Vr0 : (c : Dev nD) → (b : Ref sig .tc) → Buf (Elt F) ((c : Thread nD τ).loc b) := fun c b => V0 m c b

/-- What the first region leaves in its output array. -/
def o1 (c : Dev nD) : Buf (Elt F) ((c : Thread nD τ).loc main_v0) := (dat0 (Vr0 m) c).arrAt 7 cfg0.N

/-- The regions' leavings with only the first region's named. -/
def outs1 : Outs (F := F) := fun _ r c => Function.update (V0 m c) main_v0 (o1 m c) r

/-- The buffer contents the second region is entered from. -/
abbrev Vr12 : (c : Dev nD) → (b : Ref sig .tc) → Buf (Elt F) ((c : Thread nD τ).loc b) := fun c b => V12 m (outs1 m) c b

/-- What the second region leaves in its output array. -/
def o13 (c : Dev nD) : Buf (Elt F) ((c : Thread nD τ).loc main_v10) := (dat1 (Vr12 m) c).arrAt 4 cfg1.N

/-- What the regions leave in the buffers they may change. -/
def outs : Outs (F := F) := fun J r c =>
  if J = 13 then Function.update (V12 m (outs1 m) c) main_v10 (o13 m c) r else outs1 m J r c

theorem outs_1 (c : Dev nD) : outs m 1 main_v0 c = o1 m c := by
  unfold outs; rw [if_neg (by decide)]; unfold outs1; exact Function.update_self ..

theorem outs_13 (c : Dev nD) : outs m 13 main_v10 c = o13 m c := by
  unfold outs; rw [if_pos rfl]; exact Function.update_self ..

theorem V1_outs (c : Dev nD) : V1 m (outs m) c = V1 m (outs1 m) c := by
  show Function.update (V0 m c) main_v0 (outs m 1 main_v0 c) = Function.update (V0 m c) main_v0 (outs1 m 1 main_v0 c)
  rw [outs_1]; unfold outs1; rw [Function.update_self]

theorem V12_outs (c : Dev nD) : V12 m (outs m) c = V12 m (outs1 m) c := by
  show StableHlo.after hostOps1_10 (StableHlo.after hostOps1_9 (StableHlo.after hostOps1_8 (StableHlo.after hostOps1_7 (StableHlo.after hostOps1_6
    (StableHlo.after hostOps1_5 (StableHlo.after hostOps1_4 (StableHlo.after hostOps1_3 (StableHlo.after hostOps1_2 (StableHlo.after hostOps1_1
    (StableHlo.after hostOps1 (V1 m (outs m) c))))))))))) = _
  rw [V1_outs]

theorem V1_main_v0 (c : Dev nD) : V1 m (outs m) c main_v0 = o1 m c := by
  show Function.update (V0 m c) main_v0 (outs m 1 main_v0 c) main_v0 = _
  rw [Function.update_self, outs_1]

theorem V13_main_v10 (c : Dev nD) : V13 m (outs m) c main_v10 = o13 m c := by
  show Function.update (V12 m (outs m) c) main_v10 (outs m 13 main_v10 c) main_v10 = _
  rw [Function.update_self, outs_13]

/-! ## The proof data family and what rides along -/

/-- Every pipeline's proof data, each at its region's entry contents. -/
def pdats : (p : Fin 2) → (c : Dev nD) → Dat τ (Elt F) Unit ℕ (UR sig nD τ) ℕ (cfgs p) c
  | ⟨0, _⟩ => fun c => dat0 (Vr0 m) c
  | ⟨1, _⟩ => fun c => dat1 (Vr12 m) c

abbrev 𝒱₀ : Variants := Variants.none
abbrev L : GSem nD τ sig → Finset Unit := fun _ => ∅
abbrev lv : GSem nD τ sig → Unit → ℕ := fun _ _ => 0

/-- What rides beside the buffers through every segment: the generator register at some state and the core owing nothing. -/
abbrev R (c : Dev nD) : sProp 𝕄 := iprop((∃ r, prngReg c r) ∗ ∃ W, owes (c : Thread nD τ) (0 : CellTallies nD τ sig Unit) W)

abbrev E : Fin 3 → Dev nD → sProp 𝕄 := fun _ c => R (F := F) c

end Cert.KernelIdeal.Fr

end
-- ==== Proof.KernelIdeal.Run.lean ====
/-
  The kernel's run as the several-regions launch of its two region records among its host stretches: every weakly
  fair execution of @main terminates, and every unscoped buffer ends at the last of the buffer contents folded through
  @main. The argument arrays among them are as launched (the frame); the result array among them is the value the
  value modules read.
-/
import proofs.«177796_j44246753083785_1_alg».proof.Proof.KernelIdeal.Segs
import proofs.«177796_j44246753083785_1_alg».proof.Proof.KernelIdeal.RunCond

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-! ## The regions' arrays at exit are the next buffer contents; everything else is as at entry -/

theorem V12_eq (c : Dev nD) (b : Ref sig .tc) : V12 m (outs m) c b = Vr12 m c b := by
  show V12 m (outs m) c b = V12 m (outs1 m) c b
  rw [V12_outs]

theorem hF0 (c : Dev nD) (w : Fin cfg0.W) : (pdats m 0 c).arrAt w cfg0.N = V1 m (outs m) c (Pipeline.arrRef spec0 w) := by
  have hin : ∀ w' : Fin cfg0.W, (cfg0.win w').isOut = false → Pipeline.arrRef spec0 w' ∉ ([main_v0] : List (Ref sig .tc)) →
      (pdats m 0 c).arrAt w' cfg0.N = V1 m (outs m) c (Pipeline.arrRef spec0 w') := fun w' hi hne =>
    ((pdats m 0 c).arrAt_in w' hi _).trans ((A_eq0 (Vr0 m) c w').trans (V1_of m (outs m) c _ hne).symm)
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ => exact hin 5 rfl (by decide)
  | ⟨6, _⟩ => exact hin 6 rfl (by decide)
  | ⟨7, _⟩ => exact (V1_main_v0 m c).symm

theorem hrest0 (c : Dev nD) : ∀ b, b ∉ Finset.univ.image (Pipeline.arrRef spec0) → V1 m (outs m) c b = Vr0 m c b :=
  fun b hb => V1_of m (outs m) c b fun h => hb (by
    rw [List.mem_singleton.mp h]; exact Finset.mem_image.mpr ⟨7, Finset.mem_univ _, rfl⟩)

theorem hF1 (c : Dev nD) (w : Fin cfg1.W) : (pdats m 1 c).arrAt w cfg1.N = V13 m (outs m) c (Pipeline.arrRef spec1 w) := by
  have hin : ∀ w' : Fin cfg1.W, (cfg1.win w').isOut = false → Pipeline.arrRef spec1 w' ∉ ([main_v10] : List (Ref sig .tc)) →
      (pdats m 1 c).arrAt w' cfg1.N = V13 m (outs m) c (Pipeline.arrRef spec1 w') := fun w' hi hne =>
    ((pdats m 1 c).arrAt_in w' hi _).trans ((A_eq1 (Vr12 m) c w').trans ((V12_eq m c _).symm.trans (V13_of m (outs m) c _ hne).symm))
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact (V13_main_v10 m c).symm

theorem hrest1 (c : Dev nD) : ∀ b, b ∉ Finset.univ.image (Pipeline.arrRef spec1) → V13 m (outs m) c b = Vr12 m c b :=
  fun b hb => (V13_of m (outs m) c b fun h => hb (by
    rw [List.mem_singleton.mp h]; exact Finset.mem_image.mpr ⟨4, Finset.mem_univ _, rfl⟩)).trans (V12_eq m c b)

/-! ## The regions as segments -/

set_option backward.isDefEq.respectTransparency.types false in
/-- The first region over the thread state: entered from every unscoped buffer at the launch contents, left at the
    contents with its output array at what it wrote. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr0 m) c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (V1 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr0 m c) (fun b => V1 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at the contents after the host
    stretches between the regions, left at those with its output array at what it wrote. The accumulator scratch goes
    into the region invariant with the scoped rest and comes back with it, its value forgotten. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr12 m) c).loose
  hwaits := Pipeline.hwaits_of_owed_zero _ _ _ _ L lv 1 fun _ _ => rfl
  pre c := iprop(StableHlo.held (c : Thread nD τ) (Pipeline.ucRefs τ sig) (V12 m (outs m) c) ∗ R c)
  post c := iprop(StableHlo.held (c : Thread nD τ) (Pipeline.ucRefs τ sig) (V13 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vr12 m c)
  hentry c := by
    rw [Pipeline.ownSems0_none, V12_outs]
    have hsplit := Pipeline.arrays_of_unscopedBufs (p := 1) (pcfgs (F := F)) adm (pdats m) launch1.win launch1.arr_whole c
      ((pdats m 1 c).share_full fun _ => rfl) (Vr12 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vr12 m) c)
    unfold Pipeline.ΦA
    iintro ⟨Hp, -, Hr⟩
    isplitl [Hr]; · iexact Hr
    iexact Hp
  hout c := by
    rw [Pipeline.ownSems0_none]
    refine BIBase.Entails.trans (hout1 (Vr12 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr12 m c) (fun b => V13 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- THE RUN: from any memory with zero counters every weakly fair execution of @main on the TensorCores terminates,
    nothing faulting, and every unscoped buffer ends at the last buffer contents. -/
theorem run (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V14 m (outs m) c b) :=
  run_cond m (Ix := Unit) (U := UR sig nD τ) (Lvl := ℕ) emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E (F := F))
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun c => .rfl) (fun c => .rfl)
    (reg1 m) (fun c => .rfl) (fun c => .rfl)

/-- An unscoped TensorCore reference is among those the run reads at the end. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME, at any float instance: the argument arrays end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (V14_main_arg0 m (outs m) c),
     (h c _ (mem_uc main_arg1 (by decide))).trans (V14_main_arg1 m (outs m) c),
     (h c _ (mem_uc main_arg2 (by decide))).trans (V14_main_arg2 m (outs m) c),
     (h c _ (mem_uc main_arg3 (by decide))).trans (V14_main_arg3 m (outs m) c),
     (h c _ (mem_uc main_arg4 (by decide))).trans (V14_main_arg4 m (outs m) c),
     (h c _ (mem_uc main_arg5 (by decide))).trans (V14_main_arg5 m (outs m) c),
     (h c _ (mem_uc main_arg6 (by decide))).trans (V14_main_arg6 m (outs m) c),
     (h c _ (mem_uc main_arg7 (by decide))).trans (V14_main_arg7 m (outs m) c),
     (h c _ (mem_uc main_arg8 (by decide))).trans (V14_main_arg8 m (outs m) c),
     (h c _ (mem_uc main_arg9 (by decide))).trans (V14_main_arg9 m (outs m) c)⟩) (run m ρ)

end Cert.KernelIdeal.Fr

end
-- ==== Proof.Ref.Term.lean ====
/-
  The reference program's three stages as functions of the values they are applied to: the three-layer perceptron,
  the per-column log-softmax and clamp, and the marginal loss (the masked sums of log-probabilities exponentiated,
  averaged over the batch, compared with the targets, squared, weighted and summed).
-/
import proofs.«177796_j44246753083785_1_alg».proof.Proof.Gen.ReferenceIdeal

noncomputable section

namespace Cert.ReferenceIdeal.Hand

open Idealize.ShloMosaic Cert.ReferenceIdeal Cert.ReferenceIdeal.Gen

variable {F : FTy → Type} [FloatOps F]

/-- The perceptron: two hidden layers with a rectifier, one output layer, biases broadcast along the batch. -/
def mlpR (z : Vec F S1024x1000 .f32) (W1 : Vec F S1000x1024 .f32) (b1 : Vec F S1024 .f32) (W2 : Vec F S1024x1024 .f32)
    (b2 : Vec F S1024 .f32) (W3 : Vec F S1024x1000 .f32) (b3 : Vec F S1000 .f32) : Vec F S1024x1000 .f32 :=
  addf (Host.dotGeneral dot_S1024x1024_S1024x1000_S1024x1000_1_0_0_1_n_n none
      (maximumf (addf (Host.dotGeneral dot_S1024x1024_S1024x1024_S1024x1024_1_0_0_1_n_n none
          (maximumf (addf (Host.dotGeneral dot_S1024x1000_S1000x1024_S1024x1024_1_0_0_1_n_n none z W1)
              (broadcastInDim S1024x1024 ![0, 1] bcast_S1x1024_S1024x1024_0_1 (broadcastInDim S1x1024 ![1] bcast_S1024_S1x1024_1 b1)))
            (broadcastInDim S1024x1024 ![] bcast_S_S1024x1024 (constant S_ .f32 0x00000000#32)))
          W2)
          (broadcastInDim S1024x1024 ![0, 1] bcast_S1x1024_S1024x1024_0_1 (broadcastInDim S1x1024 ![1] bcast_S1024_S1x1024_1 b2)))
        (broadcastInDim S1024x1024 ![] bcast_S_S1024x1024 (constant S_ .f32 0x00000000#32)))
      W3)
    (broadcastInDim S1024x1000 ![0, 1] bcast_S1x1000_S1024x1000_0_1 (broadcastInDim S1x1000 ![1] bcast_S1000_S1x1000_1 b3))

/-- Log-softmax over each group of 20 classes, clamped to [-30, 0], of a 1024 × 1000 array read as 1024 × 50 × 20. -/
def glueR (l : Vec F S1024x1000 .f32) : Vec F S1024x1000 .f32 :=
  shapeCast _ (minimumf (broadcastInDim S1024x50x20 ![] bcast_S_S1024x50x20 (id (constant S_ .f32 0x00000000#32)))
    (maximumf (broadcastInDim S1024x50x20 ![] bcast_S_S1024x50x20 (id (constant S_ .f32 0xC1F00000#32)))
      (subf (subf (shapeCast _ l shapeCasts_S1024x1000_S1024x50x20)
          (broadcastInDim S1024x50x20 ![0, 1, 2] bcast_S1024x50x1_S1024x50x20_0_1_2 (broadcastInDim S1024x50x1 ![0, 1] bcast_S1024x50_S1024x50x1_0_1
            (maximumf (broadcastInDim S1024x50 ![] bcast_S_S1024x50 (constant S_ .f32 0xFF800000#32))
              (Host.reduce FloatOps.maximumf (shapeCast _ l shapeCasts_S1024x1000_S1024x50x20) (constant S_ .f32 0xFF800000#32) reducesTo_S1024x50x20_S1024x50_d2 h_S_)))))
        (broadcastInDim S1024x50x20 ![0, 1, 2] bcast_S1024x50x1_S1024x50x20_0_1_2 (Host.log (broadcastInDim S1024x50x1 ![0, 1] bcast_S1024x50_S1024x50x1_0_1
          (Host.reduceAdd (Host.exp (subf (shapeCast _ l shapeCasts_S1024x1000_S1024x50x20)
              (broadcastInDim S1024x50x20 ![0, 1, 2] bcast_S1024x50x1_S1024x50x20_0_1_2 (broadcastInDim S1024x50x1 ![0, 1] bcast_S1024x50_S1024x50x1_0_1
                (maximumf (broadcastInDim S1024x50 ![] bcast_S_S1024x50 (constant S_ .f32 0xFF800000#32))
                  (Host.reduce FloatOps.maximumf (shapeCast _ l shapeCasts_S1024x1000_S1024x50x20) (constant S_ .f32 0xFF800000#32) reducesTo_S1024x50x20_S1024x50_d2 h_S_))))))
            (constant S_ .f32 0x00000000#32) reducesTo_S1024x50x20_S1024x50_d2 h_S_)))))))
    shapeCasts_S1024x50x20_S1024x1000

/-- Each query's deviation: the batch mean of the exponentiated masked sums, less the target. -/
def devR (xp : Vec F S1024x1000 .f32) (Q : Vec F S100000x1000 .f32) (real : Vec F S100000 .f32) : Vec F S100000 .f32 :=
  subf (Host.divf (Host.reduceAdd (Host.exp (Host.dotGeneral dot_S1024x1000_S1000x100000_S1024x100000_1_0_0_1_n_n none xp
      (transpose S1000x100000 [1, 0] Q transposes_S100000x1000_S1000x100000_1_0))) (constant S_ .f32 0x00000000#32) reducesTo_S1024x100000_S100000_d0 h_S_)
    (broadcastInDim S100000 ![] bcast_S_S100000 (constant S_ .f32 0x44800000#32))) real

/-- The loss: the weighted squared deviations, summed. -/
def lossR (xp : Vec F S1024x1000 .f32) (Q : Vec F S100000x1000 .f32) (real w : Vec F S100000 .f32) : Vec F S_ .f32 :=
  Host.reduceAdd (mulf w (mulf (devR xp Q real) (devR xp Q real))) (constant S_ .f32 0x00000000#32) reducesTo_S100000_S_d0 h_S_

end Cert.ReferenceIdeal.Hand

end
-- ==== Proof.Ref.Run.lean ====
/-
  The reference program's run, stage by stage: every weakly fair execution of its straight-line @main terminates with
  the result buffer at the loss of the clamped log-softmax of the perceptron of the arguments, and the arguments
  unchanged. The operations are cut into the three stages' stretches; each stretch is folded over whatever the buffers
  held before it, so that no stage's term is written out more than once.
-/
import proofs.«177796_j44246753083785_1_alg».proof.Proof.Ref.Ops
import proofs.«177796_j44246753083785_1_alg».proof.Proof.Ref.Term
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.ReferenceIdeal.Value (ops main_eq scopedRefs_eq scopedSems_eq ops_sub)

variable {F : FTy → Type} [FloatOps F]

/-- The perceptron's operations: the first eighteen. -/
abbrev opsA : List (HloOp τ sig (Elt F)) :=
  [ binary main_arg0 main_arg1 main_v0 ((fun l r => Host.dotGeneral dot_S1024x1000_S1000x1024_S1024x1024_1_0_0_1_n_n none l r) : (⟨S1024x1000, .f32⟩ : BufTy).Contents (Elt F) → (⟨S1000x1024, .f32⟩ : BufTy).Contents (Elt F) → (⟨S1024x1024, .f32⟩ : BufTy).Contents (Elt F)),
    unary main_arg2 main_v1 (broadcastInDim S1x1024 ![1] bcast_S1024_S1x1024_1 : (⟨S1024, .f32⟩ : BufTy).Contents (Elt F) → (⟨S1x1024, .f32⟩ : BufTy).Contents (Elt F)),
    unary main_v1 main_v2 (broadcastInDim S1024x1024 ![0, 1] bcast_S1x1024_S1024x1024_0_1 : (⟨S1x1024, .f32⟩ : BufTy).Contents (Elt F) → (⟨S1024x1024, .f32⟩ : BufTy).Contents (Elt F)),
    binary main_v0 main_v2 main_v3 (addf : (⟨S1024x1024, .f32⟩ : BufTy).Contents (Elt F) → (⟨S1024x1024, .f32⟩ : BufTy).Contents (Elt F) → (⟨S1024x1024, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1024x1024, .f32⟩) main_call0_v0) (broadcastInDim S1024x1024 ![] bcast_S_S1024x1024),
    TRef.binary (TRef.of (T := ⟨S1024x1024, .f32⟩) main_v3) (TRef.of (T := ⟨S1024x1024, .f32⟩) main_call0_v0) (TRef.of (T := ⟨S1024x1024, .f32⟩) main_v4) maximumf,
    binary main_v4 main_arg3 main_v5 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    unary main_arg4 main_v6 (broadcastInDim S1x1024 ![1] bcast_S1024_S1x1024_1 : (⟨S1024, .f32⟩ : BufTy).Contents (Elt F) → (⟨S1x1024, .f32⟩ : BufTy).Contents (Elt F)),
    unary main_v6 main_v7 (broadcastInDim S1024x1024 ![0, 1] bcast_S1x1024_S1024x1024_0_1 : (⟨S1x1024, .f32⟩ : BufTy).Contents (Elt F) → (⟨S1024x1024, .f32⟩ : BufTy).Contents (Elt F)),
    binary main_v5 main_v7 main_v8 (addf : (⟨S1024x1024, .f32⟩ : BufTy).Contents (Elt F) → (⟨S1024x1024, .f32⟩ : BufTy).Contents (Elt F) → (⟨S1024x1024, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S1024x1024, .f32⟩) main_call1_v0) (broadcastInDim S1024x1024 ![] bcast_S_S1024x1024),
    TRef.binary (TRef.of (T := ⟨S1024x1024, .f32⟩) main_v8) (TRef.of (T := ⟨S1024x1024, .f32⟩) main_call1_v0) (TRef.of (T := ⟨S1024x1024, .f32⟩) main_v9) maximumf,
    binary main_v9 main_arg5 main_v10 ((fun l r => Host.dotGeneral dot_S1024x1024_S1024x1000_S1024x1000_1_0_0_1_n_n none l r) : (⟨S1024x1024, .f32⟩ : BufTy).Contents (Elt F) → (⟨S1024x1000, .f32⟩ : BufTy).Contents (Elt F) → (⟨S1024x1000, .f32⟩ : BufTy).Contents (Elt F)),
    unary main_arg6 main_v11 (broadcastInDim S1x1000 ![1] bcast_S1000_S1x1000_1 : (⟨S1000, .f32⟩ : BufTy).Contents (Elt F) → (⟨S1x1000, .f32⟩ : BufTy).Contents (Elt F)),
    unary main_v11 main_v12 (broadcastInDim S1024x1000 ![0, 1] bcast_S1x1000_S1024x1000_0_1 : (⟨S1x1000, .f32⟩ : BufTy).Contents (Elt F) → (⟨S1024x1000, .f32⟩ : BufTy).Contents (Elt F)),
    binary main_v10 main_v12 main_v13 (addf : (⟨S1024x1000, .f32⟩ : BufTy).Contents (Elt F) → (⟨S1024x1000, .f32⟩ : BufTy).Contents (Elt F) → (⟨S1024x1000, .f32⟩ : BufTy).Contents (Elt F)) ]

/-- The log-softmax's and the clamp's operations: the next twenty-five. -/
abbrev opsB : List (HloOp τ sig (Elt F)) :=
  [ reshape main_v13 main_v14 rfl shapeCasts_S1024x1000_S1024x50x20,
    TRef.nullary (TRef.of (T := ⟨S_, .f32⟩) main_call2_cst) (constant S_ .f32 0xFF800000#32),
    TRef.binary (TRef.of (T := ⟨S1024x50x20, .f32⟩) main_v14) (TRef.of (T := ⟨S_, .f32⟩) main_call2_cst) (TRef.of (T := ⟨S1024x50, .f32⟩) main_call2_v0) (fun x v => Host.reduce FloatOps.maximumf x v reducesTo_S1024x50x20_S1024x50_d2 h_S_),
    TRef.nullary (TRef.of (T := ⟨S_, .f32⟩) main_call2_cst_0) (constant S_ .f32 0xFF800000#32),
    TRef.unary (TRef.of (T := ⟨S_, .f32⟩) main_call2_cst_0) (TRef.of (T := ⟨S1024x50, .f32⟩) main_call2_v1) (broadcastInDim S1024x50 ![] bcast_S_S1024x50),
    TRef.binary (TRef.of (T := ⟨S1024x50, .f32⟩) main_call2_v1) (TRef.of (T := ⟨S1024x50, .f32⟩) main_call2_v0) (TRef.of (T := ⟨S1024x50, .f32⟩) main_call2_v2) maximumf,
    TRef.unary (TRef.of (T := ⟨S1024x50, .f32⟩) main_call2_v2) (TRef.of (T := ⟨S1024x50x1, .f32⟩) main_call2_v3) (broadcastInDim S1024x50x1 ![0, 1] bcast_S1024x50_S1024x50x1_0_1),
    TRef.unary (TRef.of (T := ⟨S1024x50x1, .f32⟩) main_call2_v3) (TRef.of (T := ⟨S1024x50x20, .f32⟩) main_call2_v4) (broadcastInDim S1024x50x20 ![0, 1, 2] bcast_S1024x50x1_S1024x50x20_0_1_2),
    TRef.binary (TRef.of (T := ⟨S1024x50x20, .f32⟩) main_v14) (TRef.of (T := ⟨S1024x50x20, .f32⟩) main_call2_v4) (TRef.of (T := ⟨S1024x50x20, .f32⟩) main_call2_v5) subf,
    TRef.unary (TRef.of (T := ⟨S1024x50x20, .f32⟩) main_call2_v5) (TRef.of (T := ⟨S1024x50x20, .f32⟩) main_call2_v6) Host.exp,
    TRef.nullary (TRef.of (T := ⟨S_, .f32⟩) main_call2_cst_1) (constant S_ .f32 0x00000000#32),
    TRef.binary (TRef.of (T := ⟨S1024x50x20, .f32⟩) main_call2_v6) (TRef.of (T := ⟨S_, .f32⟩) main_call2_cst_1) (TRef.of (T := ⟨S1024x50, .f32⟩) main_call2_v7) (fun x v => Host.reduceAdd x v reducesTo_S1024x50x20_S1024x50_d2 h_S_),
    TRef.unary (TRef.of (T := ⟨S1024x50, .f32⟩) main_call2_v7) (TRef.of (T := ⟨S1024x50x1, .f32⟩) main_call2_v8) (broadcastInDim S1024x50x1 ![0, 1] bcast_S1024x50_S1024x50x1_0_1),
    TRef.unary (TRef.of (T := ⟨S1024x50x1, .f32⟩) main_call2_v8) (TRef.of (T := ⟨S1024x50x1, .f32⟩) main_call2_v9) Host.log,
    TRef.unary (TRef.of (T := ⟨S1024x50x1, .f32⟩) main_call2_v9) (TRef.of (T := ⟨S1024x50x20, .f32⟩) main_call2_v10) (broadcastInDim S1024x50x20 ![0, 1, 2] bcast_S1024x50x1_S1024x50x20_0_1_2),
    TRef.binary (TRef.of (T := ⟨S1024x50x20, .f32⟩) main_call2_v5) (TRef.of (T := ⟨S1024x50x20, .f32⟩) main_call2_v10) (TRef.of (T := ⟨S1024x50x20, .f32⟩) main_v15) subf,
    nullary main_cst (constant S_ .f32 0xC1F00000#32),
    nullary main_cst_0 (constant S_ .f32 0x00000000#32),
    TRef.unary (TRef.of (T := ⟨S_, .f32⟩) main_cst) (TRef.of (T := ⟨S_, .f32⟩) main_call3_v0) id,
    TRef.unary (TRef.of (T := ⟨S_, .f32⟩) main_call3_v0) (TRef.of (T := ⟨S1024x50x20, .f32⟩) main_call3_v1) (broadcastInDim S1024x50x20 ![] bcast_S_S1024x50x20),
    TRef.binary (TRef.of (T := ⟨S1024x50x20, .f32⟩) main_call3_v1) (TRef.of (T := ⟨S1024x50x20, .f32⟩) main_v15) (TRef.of (T := ⟨S1024x50x20, .f32⟩) main_call3_v2) maximumf,
    TRef.unary (TRef.of (T := ⟨S_, .f32⟩) main_cst_0) (TRef.of (T := ⟨S_, .f32⟩) main_call3_v3) id,
    TRef.unary (TRef.of (T := ⟨S_, .f32⟩) main_call3_v3) (TRef.of (T := ⟨S1024x50x20, .f32⟩) main_call3_v4) (broadcastInDim S1024x50x20 ![] bcast_S_S1024x50x20),
    TRef.binary (TRef.of (T := ⟨S1024x50x20, .f32⟩) main_call3_v4) (TRef.of (T := ⟨S1024x50x20, .f32⟩) main_call3_v2) (TRef.of (T := ⟨S1024x50x20, .f32⟩) main_v16) minimumf,
    reshape main_v16 main_v17 rfl shapeCasts_S1024x50x20_S1024x1000 ]

/-- The loss's operations: the last thirteen. -/
abbrev opsC : List (HloOp τ sig (Elt F)) :=
  [ unary main_arg7 main_v18 ((transpose S1000x100000 [1, 0] · transposes_S100000x1000_S1000x100000_1_0) : (⟨S100000x1000, .f32⟩ : BufTy).Contents (Elt F) → (⟨S1000x100000, .f32⟩ : BufTy).Contents (Elt F)),
    binary main_v17 main_v18 main_v19 ((fun l r => Host.dotGeneral dot_S1024x1000_S1000x100000_S1024x100000_1_0_0_1_n_n none l r) : (⟨S1024x1000, .f32⟩ : BufTy).Contents (Elt F) → (⟨S1000x100000, .f32⟩ : BufTy).Contents (Elt F) → (⟨S1024x100000, .f32⟩ : BufTy).Contents (Elt F)),
    unary main_v19 main_v20 (Host.exp : (⟨S1024x100000, .f32⟩ : BufTy).Contents (Elt F) → (⟨S1024x100000, .f32⟩ : BufTy).Contents (Elt F)),
    nullary main_cst_1 (constant S_ .f32 0x00000000#32),
    binary main_v20 main_cst_1 main_v21 ((fun x v => Host.reduceAdd x v reducesTo_S1024x100000_S100000_d0 h_S_) : (⟨S1024x100000, .f32⟩ : BufTy).Contents (Elt F) → (⟨S_, .f32⟩ : BufTy).Contents (Elt F) → (⟨S100000, .f32⟩ : BufTy).Contents (Elt F)),
    nullary main_cst_2 (constant S_ .f32 0x44800000#32),
    unary main_cst_2 main_v22 (broadcastInDim S100000 ![] bcast_S_S100000 : (⟨S_, .f32⟩ : BufTy).Contents (Elt F) → (⟨S100000, .f32⟩ : BufTy).Contents (Elt F)),
    binary main_v21 main_v22 main_v23 (Host.divf : (⟨S100000, .f32⟩ : BufTy).Contents (Elt F) → (⟨S100000, .f32⟩ : BufTy).Contents (Elt F) → (⟨S100000, .f32⟩ : BufTy).Contents (Elt F)),
    binary main_v23 main_arg8 main_v24 (subf : (⟨S100000, .f32⟩ : BufTy).Contents (Elt F) → (⟨S100000, .f32⟩ : BufTy).Contents (Elt F) → (⟨S100000, .f32⟩ : BufTy).Contents (Elt F)),
    binary main_v24 main_v24 main_v25 (mulf : (⟨S100000, .f32⟩ : BufTy).Contents (Elt F) → (⟨S100000, .f32⟩ : BufTy).Contents (Elt F) → (⟨S100000, .f32⟩ : BufTy).Contents (Elt F)),
    binary main_arg9 main_v25 main_v26 (mulf : (⟨S100000, .f32⟩ : BufTy).Contents (Elt F) → (⟨S100000, .f32⟩ : BufTy).Contents (Elt F) → (⟨S100000, .f32⟩ : BufTy).Contents (Elt F)),
    nullary main_cst_3 (constant S_ .f32 0x00000000#32),
    binary main_v26 main_cst_3 main_v27 ((fun x v => Host.reduceAdd x v reducesTo_S100000_S_d0 h_S_) : (⟨S100000, .f32⟩ : BufTy).Contents (Elt F) → (⟨S_, .f32⟩ : BufTy).Contents (Elt F) → (⟨S_, .f32⟩ : BufTy).Contents (Elt F)) ]

/-- The program's operations are the three stretches in a row. -/
theorem ops_cut : (ops : List (HloOp τ sig (Elt F))) = opsA ++ (opsB ++ opsC) := rfl

/-- A transport along an equation of a type with itself is the identity. -/
theorem cast_self {α : Sort _} (h : α = α) (a : α) : cast h a = a := eq_of_heq (cast_heq h a)

/-- The perceptron's stretch, over whatever the buffers held before it. -/
theorem stageA (W : Valuation τ sig (Elt F)) :
    after opsA W (Proc.devRef .tc main_v13)
      = mlpR (W (Proc.devRef .tc main_arg0)) (W (Proc.devRef .tc main_arg1)) (W (Proc.devRef .tc main_arg2)) (W (Proc.devRef .tc main_arg3))
          (W (Proc.devRef .tc main_arg4)) (W (Proc.devRef .tc main_arg5)) (W (Proc.devRef .tc main_arg6)) := by
  after_results
  rfl

/-- The perceptron's stretch writes none of the loss's three arguments. -/
theorem stageA_arg7 (W : Valuation τ sig (Elt F)) : after opsA W (Proc.devRef .tc main_arg7) = W (Proc.devRef .tc main_arg7) := by
  after_results
theorem stageA_arg8 (W : Valuation τ sig (Elt F)) : after opsA W (Proc.devRef .tc main_arg8) = W (Proc.devRef .tc main_arg8) := by
  after_results
theorem stageA_arg9 (W : Valuation τ sig (Elt F)) : after opsA W (Proc.devRef .tc main_arg9) = W (Proc.devRef .tc main_arg9) := by
  after_results

/-- The log-softmax's and the clamp's stretch: its one leaf is the perceptron's result, read as 1024 × 50 × 20 four times
    (the maximum, the difference twice, the sum of exponentials). The outlined functions' typed references move each
    value to its buffer's type and back; every such transport is between a type and itself. -/
theorem stageB (W : Valuation τ sig (Elt F)) :
    after opsB W (Proc.devRef .tc main_v17) = glueR (W (Proc.devRef .tc main_v13)) := by
  after_results_simp
  simp only [TRef.ofBuf, TRef.toBuf, cast_self]
  generalize W (Proc.devRef .tc main_v13) = l
  unfold glueR
  rfl

/-- The log-softmax's stretch writes none of the loss's three arguments. -/
theorem stageB_arg7 (W : Valuation τ sig (Elt F)) : after opsB W (Proc.devRef .tc main_arg7) = W (Proc.devRef .tc main_arg7) := by
  after_results
theorem stageB_arg8 (W : Valuation τ sig (Elt F)) : after opsB W (Proc.devRef .tc main_arg8) = W (Proc.devRef .tc main_arg8) := by
  after_results
theorem stageB_arg9 (W : Valuation τ sig (Elt F)) : after opsB W (Proc.devRef .tc main_arg9) = W (Proc.devRef .tc main_arg9) := by
  after_results

/-- The loss's stretch: the deviation is read twice by the square. -/
theorem stageC (W : Valuation τ sig (Elt F)) :
    after opsC W (Proc.devRef .tc main_v27)
      = lossR (W (Proc.devRef .tc main_v17)) (W (Proc.devRef .tc main_arg7)) (W (Proc.devRef .tc main_arg8)) (W (Proc.devRef .tc main_arg9)) := by
  after_results
  rfl

/-- The result buffer after all the operations, over whatever the buffers held at the launch: the stretches' facts in a row,
    each taken over from the one before by rewriting, so that no stage's term is opened. -/
theorem after_v27 (V : Valuation τ sig (Elt F)) :
    after ops V (Proc.devRef .tc main_v27)
      = lossR (glueR (mlpR (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6))))
        (V (Proc.devRef .tc main_arg7)) (V (Proc.devRef .tc main_arg8)) (V (Proc.devRef .tc main_arg9)) := by
  rw [ops_cut, after_append, after_append, stageC, stageB, stageB_arg7, stageB_arg8, stageB_arg9, stageA, stageA_arg7, stageA_arg8, stageA_arg9]

/-- No operation writes an argument's buffer. -/
theorem after_arg0 (V : Valuation τ sig (Elt F)) : after ops V (Proc.devRef .tc main_arg0) = V (Proc.devRef .tc main_arg0) := by
  after_results_simp
theorem after_arg1 (V : Valuation τ sig (Elt F)) : after ops V (Proc.devRef .tc main_arg1) = V (Proc.devRef .tc main_arg1) := by
  after_results_simp
theorem after_arg2 (V : Valuation τ sig (Elt F)) : after ops V (Proc.devRef .tc main_arg2) = V (Proc.devRef .tc main_arg2) := by
  after_results_simp
theorem after_arg3 (V : Valuation τ sig (Elt F)) : after ops V (Proc.devRef .tc main_arg3) = V (Proc.devRef .tc main_arg3) := by
  after_results_simp
theorem after_arg4 (V : Valuation τ sig (Elt F)) : after ops V (Proc.devRef .tc main_arg4) = V (Proc.devRef .tc main_arg4) := by
  after_results_simp
theorem after_arg5 (V : Valuation τ sig (Elt F)) : after ops V (Proc.devRef .tc main_arg5) = V (Proc.devRef .tc main_arg5) := by
  after_results_simp
theorem after_arg6 (V : Valuation τ sig (Elt F)) : after ops V (Proc.devRef .tc main_arg6) = V (Proc.devRef .tc main_arg6) := by
  after_results_simp
theorem after_arg7 (V : Valuation τ sig (Elt F)) : after ops V (Proc.devRef .tc main_arg7) = V (Proc.devRef .tc main_arg7) := by
  after_results_simp
theorem after_arg8 (V : Valuation τ sig (Elt F)) : after ops V (Proc.devRef .tc main_arg8) = V (Proc.devRef .tc main_arg8) := by
  after_results_simp
theorem after_arg9 (V : Valuation τ sig (Elt F)) : after ops V (Proc.devRef .tc main_arg9) = V (Proc.devRef .tc main_arg9) := by
  after_results_simp

/-- THE REFERENCE'S RUN. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v27)
        = lossR (glueR (mlpR (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))))
          (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v27).trans (after_v27 _),
      (h c main_arg0).trans (after_arg0 _), (h c main_arg1).trans (after_arg1 _), (h c main_arg2).trans (after_arg2 _),
      (h c main_arg3).trans (after_arg3 _), (h c main_arg4).trans (after_arg4 _), (h c main_arg5).trans (after_arg5 _),
      (h c main_arg6).trans (after_arg6 _), (h c main_arg7).trans (after_arg7 _), (h c main_arg8).trans (after_arg8 _),
      (h c main_arg9).trans (after_arg9 _)⟩)
    (run_seq scopedRefs_eq scopedSems_eq defs main (fun _ => ops) main_eq (fun _ => ops_sub) m ρ)

end Cert.ReferenceIdeal.Hand

end
-- ==== Proof.KernelIdeal.Glue.lean ====
/-
  The host operations between the two kernel regions, as functions of the values they are applied to: the per-column
  log-softmax and clamp of the perceptron's output (the same chain of operations the reference applies to its own
  perceptron's output), and the zero-padding of the query mask and of the two query rows to whole tiles.
-/
import proofs.«177796_j44246753083785_1_alg».proof.Proof.Gen.KernelIdeal

noncomputable section

namespace Cert.KernelIdeal.Fr

open Idealize.ShloMosaic Cert.KernelIdeal Cert.KernelIdeal.Facts₀ Cert.KernelIdeal.Facts

variable {F : FTy → Type} [FloatOps F]

/-- Log-softmax over each group of 20 classes, clamped to [-30, 0], of a 1024 × 1000 array read as 1024 × 50 × 20. -/
def glue (l : Vec F S1024x1000 .f32) : Vec F S1024x1000 .f32 :=
  shapeCast _ (minimumf (broadcastInDim S1024x50x20 ![] bcast_S_S1024x50x20 (id (constant S_ .f32 0x00000000#32)))
    (maximumf (broadcastInDim S1024x50x20 ![] bcast_S_S1024x50x20 (id (constant S_ .f32 0xC1F00000#32)))
      (subf (subf (shapeCast _ l shapeCasts_S1024x1000_S1024x50x20)
          (broadcastInDim S1024x50x20 ![0, 1, 2] bcast_S1024x50x1_S1024x50x20_0_1_2 (broadcastInDim S1024x50x1 ![0, 1] bcast_S1024x50_S1024x50x1_0_1
            (maximumf (broadcastInDim S1024x50 ![] bcast_S_S1024x50 (constant S_ .f32 0xFF800000#32))
              (Host.reduce FloatOps.maximumf (shapeCast _ l shapeCasts_S1024x1000_S1024x50x20) (constant S_ .f32 0xFF800000#32) reducesTo_S1024x50x20_S1024x50_d2 h_S_)))))
        (broadcastInDim S1024x50x20 ![0, 1, 2] bcast_S1024x50x1_S1024x50x20_0_1_2 (Host.log (broadcastInDim S1024x50x1 ![0, 1] bcast_S1024x50_S1024x50x1_0_1
          (Host.reduceAdd (Host.exp (subf (shapeCast _ l shapeCasts_S1024x1000_S1024x50x20)
              (broadcastInDim S1024x50x20 ![0, 1, 2] bcast_S1024x50x1_S1024x50x20_0_1_2 (broadcastInDim S1024x50x1 ![0, 1] bcast_S1024x50_S1024x50x1_0_1
                (maximumf (broadcastInDim S1024x50 ![] bcast_S_S1024x50 (constant S_ .f32 0xFF800000#32))
                  (Host.reduce FloatOps.maximumf (shapeCast _ l shapeCasts_S1024x1000_S1024x50x20) (constant S_ .f32 0xFF800000#32) reducesTo_S1024x50x20_S1024x50_d2 h_S_))))))
            (constant S_ .f32 0x00000000#32) reducesTo_S1024x50x20_S1024x50_d2 h_S_)))))))
    shapeCasts_S1024x50x20_S1024x1000

/-- The query mask padded with 352 zero rows. -/
def padQ (Q : Vec F S100000x1000 .f32) : Vec F S100352x1000 .f32 :=
  pad S100352x1000 ![0, 0] ![352, 0] ![0, 0] Q (sitofp .f32 (constantI S_ 32 0#32)) pads_S100000x1000_S100352x1000_03520_000 h_S_

/-- A query vector padded with 352 zeros, as one row. -/
def padRow (r : Vec F S100000 .f32) : Vec F S1x100352 .f32 :=
  shapeCast _ (pad S100352 ![0] ![352] ![0] r (sitofp .f32 (constantI S_ 32 0#32)) pads_S100000_S100352_03520 h_S_) shapeCasts_S100352_S1x100352

end Cert.KernelIdeal.Fr

end
-- ==== Proof.KernelIdeal.Value.lean ====
/-
  What the kernel's program leaves in its result, read off the two regions' proof data and the host operations
  around them, at any float instance: the first region's output array is the perceptron's value of the seven
  arguments; the second region is entered with the clamped log-softmax of that, the zero-padded mask and the two
  zero-padded rows; its output array ends at the accumulator's value after the last tile; the program's result is that
  one number reshaped to a scalar.
-/
import proofs.«177796_j44246753083785_1_alg».proof.Proof.KernelIdeal.Segs
import proofs.«177796_j44246753083785_1_alg».proof.Proof.KernelIdeal.Glue
import Idealize.ShloMosaic.Lib.Pipeline.Value
import Idealize.ShloMosaic.Lib.StableHlo.Run

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

private theorem zero2 : (![0, 0] : Fin 2 → Nat) = fun _ => 0 := funext fun a => by fin_cases a <;> rfl
private theorem zero1 : (![0] : Fin 1 → Nat) = fun _ => 0 := funext fun a => by fin_cases a <;> rfl

/-! ## The first region: every window's one block is its whole array -/

private theorem iblk0_0_eq (c : Dev nD) (t : Fin cfg0.N) : (iblk0 (Vr0 m) c 0 t : Vec F S1024x1000 .f32) = m ((c : Thread nD τ).loc main_arg0) := by
  obtain rfl := fin_N0 t
  have hz : (fun a => win0_0.index t0_0 a * main_arg0.ty.shape.size a) = fun _ => 0 := funext fun a => by fin_cases a <;> decide
  exact Memref.read_access_unit_zero (Elt F) main_arg0 hz (fun a => by rw [congrFun hz a]; simp) _

private theorem iblk0_1_eq (c : Dev nD) (t : Fin cfg0.N) : (iblk0 (Vr0 m) c 1 t : Vec F S1000x1024 .f32) = m ((c : Thread nD τ).loc main_arg1) := by
  obtain rfl := fin_N0 t
  have hz : (fun a => win0_1.index t0_0 a * main_arg1.ty.shape.size a) = fun _ => 0 := funext fun a => by fin_cases a <;> decide
  exact Memref.read_access_unit_zero (Elt F) main_arg1 hz (fun a => by rw [congrFun hz a]; simp) _

private theorem iblk0_2_eq (c : Dev nD) (t : Fin cfg0.N) : (iblk0 (Vr0 m) c 2 t : Vec F S1024 .f32) = m ((c : Thread nD τ).loc main_arg2) := by
  obtain rfl := fin_N0 t
  have hz : (fun a => win0_2.index t0_0 a * main_arg2.ty.shape.size a) = fun _ => 0 := funext fun a => by fin_cases a <;> decide
  exact Memref.read_access_unit_zero (Elt F) main_arg2 hz (fun a => by rw [congrFun hz a]; simp) _

private theorem iblk0_3_eq (c : Dev nD) (t : Fin cfg0.N) : (iblk0 (Vr0 m) c 3 t : Vec F S1024x1024 .f32) = m ((c : Thread nD τ).loc main_arg3) := by
  obtain rfl := fin_N0 t
  have hz : (fun a => win0_3.index t0_0 a * main_arg3.ty.shape.size a) = fun _ => 0 := funext fun a => by fin_cases a <;> decide
  exact Memref.read_access_unit_zero (Elt F) main_arg3 hz (fun a => by rw [congrFun hz a]; simp) _

private theorem iblk0_4_eq (c : Dev nD) (t : Fin cfg0.N) : (iblk0 (Vr0 m) c 4 t : Vec F S1024 .f32) = m ((c : Thread nD τ).loc main_arg4) := by
  obtain rfl := fin_N0 t
  have hz : (fun a => win0_4.index t0_0 a * main_arg4.ty.shape.size a) = fun _ => 0 := funext fun a => by fin_cases a <;> decide
  exact Memref.read_access_unit_zero (Elt F) main_arg4 hz (fun a => by rw [congrFun hz a]; simp) _

private theorem iblk0_5_eq (c : Dev nD) (t : Fin cfg0.N) : (iblk0 (Vr0 m) c 5 t : Vec F S1024x1000 .f32) = m ((c : Thread nD τ).loc main_arg5) := by
  obtain rfl := fin_N0 t
  have hz : (fun a => win0_5.index t0_0 a * main_arg5.ty.shape.size a) = fun _ => 0 := funext fun a => by fin_cases a <;> decide
  exact Memref.read_access_unit_zero (Elt F) main_arg5 hz (fun a => by rw [congrFun hz a]; simp) _

private theorem iblk0_6_eq (c : Dev nD) (t : Fin cfg0.N) : (iblk0 (Vr0 m) c 6 t : Vec F S1000 .f32) = m ((c : Thread nD τ).loc main_arg6) := by
  obtain rfl := fin_N0 t
  have hz : (fun a => win0_6.index t0_0 a * main_arg6.ty.shape.size a) = fun _ => 0 := funext fun a => by fin_cases a <;> decide
  exact Memref.read_access_unit_zero (Elt F) main_arg6 hz (fun a => by rw [congrFun hz a]; simp) _

/-- The output window's block at the one point is the block at index (0, 0) of the whole array. -/
private theorem out_block_zero : (fun a => win0_7.index t0_0 a * main_v0.ty.shape.size a) = fun _ => 0 :=
  funext fun a => by fin_cases a <;> decide

/-- Every index of the output array is in that block. -/
private theorem mem_out_block : ∀ i, i ∈ ((cfg0.win 7).blk t0_0).view.set := by
  show ∀ i, i ∈ ((View.whole main_v0).slice (win0_7.rect t0_0)).set
  intro i
  rw [View.set_slice_whole]
  exact View.mem_set_unit_zero out_block_zero _ i

/-- The first region's output array after the region: the perceptron's value of the arguments. -/
theorem o1_eq (c : Dev nD) : o1 m c = k0_pay1 (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) := by
  unfold o1
  refine (dat0 (Vr0 m) c).arrAt_eq_of_cover 7 _ (fun t _ => ?_) (fun i => ⟨t0_0, flush0_7 t0_0, mem_out_block i⟩)
  -- the one point writes back the body's one store, of the payload of the seven whole arrays
  obtain rfl := fin_N0 t
  show (cfg0.win 7).cut (grid0.coords t0_0) ((dat0 (Vr0 m) c).after 7 t0_0) = _
  rw [after0_7]
  unfold out0_7
  rw [View.canon_unit_zero zero2]
  simp only [View.ld_unit_zero (S := S1024x1000) zero2, View.ld_unit_zero (S := S1000x1024) zero2, View.ld_unit_zero (S := S1024x1024) zero2,
    View.ld_unit_zero (S := S1024) zero1, View.ld_unit_zero (S := S1000) zero1]
  refine Eq.trans ?_ (Memref.read_access_unit_zero (Elt F) main_v0 out_block_zero (fun a => by rw [congrFun out_block_zero a]; simp) _).symm
  rw [iblk0_0_eq m c, iblk0_1_eq m c, iblk0_2_eq m c, iblk0_3_eq m c, iblk0_4_eq m c, iblk0_5_eq m c, iblk0_6_eq m c]
  rfl

/-! ## The second region: the one write-back is the last tile's -/

/-- The last tile is a point of the second region's grid. -/
private theorem lt97 : 97 < cfg1.N := by decide

/-- In the second region the output window's block at the last tile is the block at index (0, 0) of the 1 × 1 array. -/
private theorem last_block_zero : (fun a => win1_4.index ⟨97, lt97⟩ a * main_v10.ty.shape.size a) = fun _ => 0 :=
  funext fun a => by fin_cases a <;> decide

/-- Every index of the 1 × 1 array is in that block. -/
private theorem mem_last_block : ∀ i, i ∈ ((cfg1.win 4).blk ⟨97, lt97⟩).view.set := by
  show ∀ i, i ∈ ((View.whole main_v10).slice (win1_4.rect ⟨97, lt97⟩)).set
  intro i
  rw [View.set_slice_whole]
  exact View.mem_set_unit_zero last_block_zero _ i

/-- The second region's output array after the region: the accumulator after the last tile. -/
theorem o13_eq (c : Dev nD) : o13 m c = accAt (Vr12 m) c 97 (by decide) := by
  have hN : cfg1.N = 98 := N_1
  unfold o13
  refine (dat1 (Vr12 m) c).arrAt_eq_of_cover 4 _ (fun t hf => ?_) (fun i => ⟨⟨97, lt97⟩, (flush1_4 _).mpr rfl, mem_last_block i⟩)
  -- the one write-back is the last tile's, of the whole 1 × 1 block
  have h97 : t.val = 97 := by have h := (flush1_4 t).mp hf; have := t.isLt; omega
  obtain rfl : t = ⟨97, lt97⟩ := Fin.ext h97
  show (cfg1.win 4).cut (grid1.coords ⟨97, lt97⟩) ((dat1 (Vr12 m) c).after 4 ⟨97, lt97⟩) = _
  rw [after1_4]
  exact (Memref.read_access_unit_zero (Elt F) main_v10 last_block_zero (fun a => by rw [congrFun last_block_zero a]; simp) _).symm

/-! ## The host operations between the regions -/

/-- Transport of contents to a typed reference's buffer and back is the identity. -/
private theorem ofBuf_toBuf {T : BufTy} (x : StableHlo.TRef sig T) (v : T.Contents (Elt F)) : x.ofBuf (x.toBuf v) = v := by
  obtain ⟨r, h, _, _⟩ := x; subst h; rfl

/-- Contents transported to the buffer are the buffer's contents when they are those transported back. -/
private theorem toBuf_eq_of {T : BufTy} (x : StableHlo.TRef sig T) (v : T.Contents (Elt F)) (w : x.ref.ty.Contents (Elt F))
    (h : v = x.ofBuf w) : x.toBuf v = w := by
  obtain ⟨r, e, _, _⟩ := x; subst e; exact h

/-- The log-softmax over each group of 20 classes of a 1024 × 50 × 20 array: each entry less its group's maximum, less
    the logarithm of the group's sum of the exponentials of those differences. -/
private def logSoftmax20 (x : Vec F S1024x50x20 .f32) : Vec F S1024x50x20 .f32 :=
  subf (subf x
      (broadcastInDim S1024x50x20 ![0, 1, 2] bcast_S1024x50x1_S1024x50x20_0_1_2 (broadcastInDim S1024x50x1 ![0, 1] bcast_S1024x50_S1024x50x1_0_1
        (maximumf (broadcastInDim S1024x50 ![] bcast_S_S1024x50 (constant S_ .f32 0xFF800000#32))
          (Host.reduce FloatOps.maximumf x (constant S_ .f32 0xFF800000#32) reducesTo_S1024x50x20_S1024x50_d2 h_S_)))))
    (broadcastInDim S1024x50x20 ![0, 1, 2] bcast_S1024x50x1_S1024x50x20_0_1_2 (Host.log (broadcastInDim S1024x50x1 ![0, 1] bcast_S1024x50_S1024x50x1_0_1
      (Host.reduceAdd (Host.exp (subf x
          (broadcastInDim S1024x50x20 ![0, 1, 2] bcast_S1024x50x1_S1024x50x20_0_1_2 (broadcastInDim S1024x50x1 ![0, 1] bcast_S1024x50_S1024x50x1_0_1
            (maximumf (broadcastInDim S1024x50 ![] bcast_S_S1024x50 (constant S_ .f32 0xFF800000#32))
              (Host.reduce FloatOps.maximumf x (constant S_ .f32 0xFF800000#32) reducesTo_S1024x50x20_S1024x50_d2 h_S_))))))
        (constant S_ .f32 0x00000000#32) reducesTo_S1024x50x20_S1024x50_d2 h_S_))))

/-- The clamp of every entry between a lower and an upper scalar bound. -/
private def clampBetween (lo hi : Vec F S_ .f32) (y : Vec F S1024x50x20 .f32) : Vec F S1024x50x20 .f32 :=
  minimumf (broadcastInDim S1024x50x20 ![] bcast_S_S1024x50x20 (id hi))
    (maximumf (broadcastInDim S1024x50x20 ![] bcast_S_S1024x50x20 (id lo)) y)

/-- The operations between the regions are the log-softmax and the clamp, between two reshapes. -/
private theorem glue_eq (l : Vec F S1024x1000 .f32) : glue l = shapeCast S1024x1000 (clampBetween (constant S_ .f32 0xC1F00000#32) (constant S_ .f32 0x00000000#32)
    (logSoftmax20 (shapeCast S1024x50x20 l shapeCasts_S1024x1000_S1024x50x20))) shapeCasts_S1024x50x20_S1024x1000 := by
  unfold glue clampBetween logSoftmax20
  rfl

section Stretches
variable (W : Valuation τ sig (Elt F))

/-- The reshape to groups of 20. -/
private theorem stretch_v1 : StableHlo.after hostOps1 W (Proc.devRef .tc main_v1)
    = shapeCast S1024x50x20 (W (Proc.devRef .tc main_v0) : Vec F S1024x1000 .f32) shapeCasts_S1024x1000_S1024x50x20 := by
  after_results
  rfl

/-- The log-softmax stretch. -/
private theorem stretch_v2 : StableHlo.after hostOps1_1 W (Proc.devRef .tc main_v2) = logSoftmax20 (W (Proc.devRef .tc main_v1)) := by
  after_results
  refine toBuf_eq_of _ _ _ ?_
  simp only [ofBuf_toBuf]
  rfl

/-- The two bounds, and the log-softmax left alone. -/
private theorem stretch_cst : StableHlo.after hostOps1_2 W (Proc.devRef .tc main_cst) = (constant S_ .f32 0xC1F00000#32 : Vec F S_ .f32) := by
  after_results
private theorem stretch_cst_0 : StableHlo.after hostOps1_2 W (Proc.devRef .tc main_cst_0) = (constant S_ .f32 0x00000000#32 : Vec F S_ .f32) := by
  after_results

/-- The clamp stretch. -/
private theorem stretch_v3 : StableHlo.after hostOps1_3 W (Proc.devRef .tc main_v3)
    = clampBetween (W (Proc.devRef .tc main_cst)) (W (Proc.devRef .tc main_cst_0)) (W (Proc.devRef .tc main_v2)) := by
  after_results
  refine toBuf_eq_of _ _ _ ?_
  simp only [ofBuf_toBuf]
  rfl

/-- The reshape back. -/
private theorem stretch_v4 : StableHlo.after hostOps1_4 W (Proc.devRef .tc main_v4)
    = shapeCast S1024x1000 (W (Proc.devRef .tc main_v3) : Vec F S1024x50x20 .f32) shapeCasts_S1024x50x20_S1024x1000 := by
  after_results
  rfl

end Stretches

/-- The first region's output array as the second stretch finds it. -/
private theorem V1_main_v0' (c : Dev nD) : V1 m (outs1 m) c main_v0 = o1 m c := by
  rw [← V1_outs]; exact V1_main_v0 m c

/-- What the second region is entered with. -/
theorem Vr12_v4 (c : Dev nD) : Vr12 m c main_v4 = glue (o1 m c) := by
  show V12 m (outs1 m) c main_v4 = _
  rw [V12_of m (outs1 m) c main_v4 (by decide), V11_of m (outs1 m) c main_v4 (by decide), V10_of m (outs1 m) c main_v4 (by decide),
    V9_of m (outs1 m) c main_v4 (by decide), V8_of m (outs1 m) c main_v4 (by decide), V7_of m (outs1 m) c main_v4 (by decide)]
  have e4 : V6 m (outs1 m) c main_v4 = shapeCast S1024x1000 (V5 m (outs1 m) c main_v3 : Vec F S1024x50x20 .f32) shapeCasts_S1024x50x20_S1024x1000 :=
    stretch_v4 (V5 m (outs1 m) c)
  have e3 : V5 m (outs1 m) c main_v3 = clampBetween (V4 m (outs1 m) c main_cst) (V4 m (outs1 m) c main_cst_0) (V4 m (outs1 m) c main_v2) :=
    stretch_v3 (V4 m (outs1 m) c)
  have ec : V4 m (outs1 m) c main_cst = (constant S_ .f32 0xC1F00000#32 : Vec F S_ .f32) := stretch_cst (V3 m (outs1 m) c)
  have ec0 : V4 m (outs1 m) c main_cst_0 = (constant S_ .f32 0x00000000#32 : Vec F S_ .f32) := stretch_cst_0 (V3 m (outs1 m) c)
  have e2' : V4 m (outs1 m) c main_v2 = V3 m (outs1 m) c main_v2 := V4_of m (outs1 m) c main_v2 (by decide)
  have e2 : V3 m (outs1 m) c main_v2 = logSoftmax20 (V2 m (outs1 m) c main_v1) := stretch_v2 (V2 m (outs1 m) c)
  have e1 : V2 m (outs1 m) c main_v1 = shapeCast S1024x50x20 (V1 m (outs1 m) c main_v0 : Vec F S1024x1000 .f32) shapeCasts_S1024x1000_S1024x50x20 :=
    stretch_v1 (V1 m (outs1 m) c)
  rw [e4, e3, ec, ec0, e2', e2, e1, V1_main_v0' m c]
  exact (glue_eq (o1 m c)).symm

theorem Vr12_v5 (c : Dev nD) : Vr12 m c main_v5 = padQ (m ((c : Thread nD τ).loc main_arg7)) := by
  show V12 m (outs1 m) c main_v5 = _
  rw [V12_of m (outs1 m) c main_v5 (by decide), V11_of m (outs1 m) c main_v5 (by decide), V10_of m (outs1 m) c main_v5 (by decide),
    V9_of m (outs1 m) c main_v5 (by decide), V8_of m (outs1 m) c main_v5 (by decide)]
  show StableHlo.after hostOps1_5 (V6 m (outs1 m) c) (Proc.devRef .tc main_v5) = _
  after_results
  rw [V1_of m (outs1 m) c main_arg7 (by decide)]
  rfl

theorem Vr12_v7 (c : Dev nD) : Vr12 m c main_v7 = padRow (m ((c : Thread nD τ).loc main_arg8)) := by
  show V12 m (outs1 m) c main_v7 = _
  rw [V12_of m (outs1 m) c main_v7 (by decide), V11_of m (outs1 m) c main_v7 (by decide)]
  show StableHlo.after hostOps1_8 (V9 m (outs1 m) c) (Proc.devRef .tc main_v7) = _
  after_results
  rw [V1_of m (outs1 m) c main_arg8 (by decide)]
  rfl

theorem Vr12_v9 (c : Dev nD) : Vr12 m c main_v9 = padRow (m ((c : Thread nD τ).loc main_arg9)) := by
  show StableHlo.after hostOps1_10 (V11 m (outs1 m) c) (Proc.devRef .tc main_v9) = _
  after_results
  rw [V1_of m (outs1 m) c main_arg9 (by decide)]
  rfl

/-- The program's result: the second region's output reshaped to a scalar. -/
theorem V14_v11 (c : Dev nD) : V14 m (outs m) c main_v11 = shapeCast S_ (o13 m c) Facts₀.shapeCasts_S1x1_S_ := by
  show StableHlo.after hostOps2 (V13 m (outs m) c) (Proc.devRef .tc main_v11) = _
  after_results
  rw [V13_main_v10]
  rfl

end Cert.KernelIdeal.Fr

end
-- ==== Proof.Spec.lean ====
/-
  The arithmetic both programs share, over the extended reals, with no program in sight. One query (a row `q` of the
  0/1 mask, its target `r`, its weight `w`) contributes `w · d²` where `d = (Σ_b e (Σ_k x b k · q k)) · κ − r`, `e` the
  exponential and `κ` the reciprocal of the batch size 1024. The kernel pads the 100000 queries to 98 tiles of 1024
  with zero rows, zero targets and zero weights and adds tile sums one after another; the reference adds the 100000
  terms at once. A padded query contributes `0`: its exponent is `0`, so the batch sum is 1024 and `d = 1`, and its weight
  is `0`. Sums of extended reals may be regrouped freely (addition there is commutative and associative), which is all
  the regrouping of 100352 = 98 · 1024 terms needs.
-/
import Mathlib.Data.EReal.Basic
import Mathlib.Data.EReal.Operations
import Mathlib.Data.EReal.Inv
import Mathlib.Algebra.BigOperators.Fin
import Mathlib.Algebra.BigOperators.Group.Finset.Basic
import Mathlib.Data.Fintype.BigOperators
import Mathlib.Logic.Equiv.Fin.Basic

noncomputable section

namespace Cert.Spec

open scoped BigOperators

variable (e : EReal → EReal) (κ : EReal)

/-- The deviation of one query's synthetic answer from its target. -/
def dev (x : Fin 1024 → Fin 1000 → EReal) (q : Fin 1000 → EReal) (r : EReal) : EReal :=
  (0 + ∑ b : Fin 1024, e (∑ k : Fin 1000, x b k * q k)) * κ - r

/-- One query's term as the kernel multiplies it out: `(w · d) · d`. -/
def termK (x : Fin 1024 → Fin 1000 → EReal) (q : Fin 1000 → EReal) (r w : EReal) : EReal :=
  (w * dev e κ x q r) * dev e κ x q r

/-- One query's term as the reference multiplies it out: `w · (d · d)`. -/
def termR (x : Fin 1024 → Fin 1000 → EReal) (q : Fin 1000 → EReal) (r w : EReal) : EReal :=
  w * (dev e κ x q r * dev e κ x q r)

/-- Zero-padding of a family indexed by the 100000 queries to the 100352 padded ones. -/
def padTo {α : Type} (z : α) (f : Fin 100000 → α) (i : Fin 100352) : α :=
  if h : i.val < 100000 then f ⟨i.val, h⟩ else z

/-- The padded index of lane `j` of tile `n`. -/
def lane (n : Fin 98) (j : Fin 1024) : Fin 100352 := ⟨n.val * 1024 + j.val, by have := n.isLt; have := j.isLt; omega⟩

/-- One tile's sum, as the kernel's lane reduction states it (from the initial value `0`). -/
def tileSum (x : Fin 1024 → Fin 1000 → EReal) (Q : Fin 100352 → Fin 1000 → EReal) (r w : Fin 100352 → EReal) (n : Fin 98) : EReal :=
  0 + ∑ j : Fin 1024, termK e κ x (Q (lane n j)) (r (lane n j)) (w (lane n j))

/-- The accumulator after tile `n`: reset to `0` before the first tile, each tile's sum added in turn. -/
def accK (x : Fin 1024 → Fin 1000 → EReal) (Q : Fin 100352 → Fin 1000 → EReal) (r w : Fin 100352 → EReal) : (n : ℕ) → n < 98 → EReal
  | 0, h => 0 + tileSum e κ x Q r w ⟨0, h⟩
  | n + 1, h => accK x Q r w n (Nat.lt_of_succ_lt h) + tileSum e κ x Q r w ⟨n + 1, h⟩

/-- The reference's loss: the 100000 terms added at once (from the initial value `0`). -/
def lossR (x : Fin 1024 → Fin 1000 → EReal) (Q : Fin 100000 → Fin 1000 → EReal) (r w : Fin 100000 → EReal) : EReal :=
  0 + ∑ k : Fin 100000, termR e κ x (Q k) (r k) (w k)

/-- The kernel's product `(w · d) · d` is the reference's `w · (d · d)`: multiplication of extended reals is
    associative. -/
theorem termK_eq_termR (x : Fin 1024 → Fin 1000 → EReal) (q : Fin 1000 → EReal) (r w : EReal) :
    termK e κ x q r w = termR e κ x q r w := by
  unfold termK termR
  exact mul_assoc _ _ _

/-- The batch size as an extended real: the cast of the natural number is the cast of the real number. -/
theorem natCast_batch : ((1024 : ℕ) : EReal) = ((1024 : ℝ) : EReal) := by
  rw [← EReal.coe_natCast, Nat.cast_ofNat]

/-- A zero query against a zero target deviates by exactly `1`: every exponent is `0`, so the batch sum is `1024`. -/
theorem dev_zero (he : e 0 = 1) (hκ : ((1024 : ℝ) : EReal) * κ = 1) (x : Fin 1024 → Fin 1000 → EReal) :
    dev e κ x (fun _ => 0) 0 = 1 := by
  unfold dev
  have hexp : ∀ b : Fin 1024, e (∑ k : Fin 1000, x b k * (0 : EReal)) = 1 := by
    intro b
    rw [Finset.sum_eq_zero (fun k _ => mul_zero (x b k)), he]
  rw [Finset.sum_congr rfl (fun b _ => hexp b), Finset.sum_const, Finset.card_univ, Fintype.card_fin,
    nsmul_one, natCast_batch, zero_add, hκ, sub_zero]

/-- A padded query (zero row, zero target, zero weight) contributes `(0 · 1) · 1 = 0`. -/
theorem termK_zero (he : e 0 = 1) (hκ : ((1024 : ℝ) : EReal) * κ = 1) (x : Fin 1024 → Fin 1000 → EReal) :
    termK e κ x (fun _ => 0) 0 0 = 0 := by
  unfold termK
  rw [dev_zero e κ he hκ x, zero_mul, zero_mul]

/-- The accumulator after tile `n` is the sum of the tile sums `0, …, n`. -/
theorem accK_eq_sum (x : Fin 1024 → Fin 1000 → EReal) (Q : Fin 100352 → Fin 1000 → EReal) (r w : Fin 100352 → EReal) :
    ∀ (n : ℕ) (h : n < 98),
      accK e κ x Q r w n h
        = ∑ t : Fin (n + 1), tileSum e κ x Q r w ⟨t.val, by have := t.isLt; omega⟩
  | 0, h => by
      rw [accK, Fin.sum_univ_castSucc, Fin.sum_univ_zero]
      rfl
  | n + 1, h => by
      rw [accK, accK_eq_sum x Q r w n (Nat.lt_of_succ_lt h), Fin.sum_univ_castSucc (n := n + 1)]
      rfl

/-- A sum over `m` tiles of `n` lanes each is one sum over the `m · n` flat indices `j + n · t`. -/
theorem sum_tiles {M : Type*} [AddCommMonoid M] (m n : ℕ) (g : Fin (m * n) → M) :
    ∑ t : Fin m, ∑ j : Fin n, g (finProdFinEquiv (t, j)) = ∑ i, g i := by
  rw [← Equiv.sum_comp finProdFinEquiv g, Fintype.sum_prod_type]

/-- A sum over `m + n` indices whose last `n` terms vanish is the sum of its first `m` terms. -/
theorem sum_pad {M : Type*} [AddCommMonoid M] (m n : ℕ) (g : Fin (m + n) → M)
    (hz : ∀ i : Fin n, g (Fin.natAdd m i) = 0) :
    ∑ i, g i = ∑ i : Fin m, g (Fin.castAdd n i) := by
  rw [Fin.sum_univ_add, Finset.sum_eq_zero (fun i _ => hz i), add_zero]

/-- The flat index of lane `j` of tile `t` is the image of `(t, j)` under the standard bijection. -/
theorem lane_eq (t : Fin 98) (j : Fin 1024) : lane t j = finProdFinEquiv (t, j) := by
  apply Fin.ext
  show t.val * 1024 + j.val = j.val + 1024 * t.val
  omega

/-- The accumulator after the last tile is the sum of all 98 tile sums. -/
theorem accK_last (x : Fin 1024 → Fin 1000 → EReal) (Q : Fin 100352 → Fin 1000 → EReal) (r w : Fin 100352 → EReal) :
    accK e κ x Q r w 97 (by decide) = ∑ t : Fin 98, tileSum e κ x Q r w t :=
  accK_eq_sum e κ x Q r w 97 (by decide)

/-- The 98 tile sums together are one sum over the 100352 padded queries. -/
theorem sum_tileSum (x : Fin 1024 → Fin 1000 → EReal) (Q : Fin 100352 → Fin 1000 → EReal) (r w : Fin 100352 → EReal) :
    ∑ t : Fin 98, tileSum e κ x Q r w t = ∑ i : Fin 100352, termK e κ x (Q i) (r i) (w i) := by
  have h : ∀ t : Fin 98, tileSum e κ x Q r w t
      = ∑ j : Fin 1024, termK e κ x (Q (finProdFinEquiv (t, j))) (r (finProdFinEquiv (t, j)))
          (w (finProdFinEquiv (t, j))) := by
    intro t
    unfold tileSum
    rw [zero_add]
    exact Finset.sum_congr rfl (fun j _ => by rw [lane_eq])
  rw [Finset.sum_congr rfl (fun t _ => h t)]
  exact sum_tiles 98 1024 (fun i => termK e κ x (Q i) (r i) (w i))

/-- Below 100000 the padded family is the original one. -/
theorem padTo_castAdd {α : Type} (z : α) (f : Fin 100000 → α) (k : Fin 100000) :
    padTo z f (Fin.castAdd 352 k) = f k := by
  unfold padTo
  exact dif_pos k.isLt

/-- From 100000 on the padded family is the padding value. -/
theorem padTo_natAdd {α : Type} (z : α) (f : Fin 100000 → α) (i : Fin 352) :
    padTo z f (Fin.natAdd 100000 i) = z := by
  unfold padTo
  exact dif_neg (by show ¬ (100000 + i.val < 100000); omega)

/-- THE BRIDGE: the kernel's tiled accumulation over the zero-padded queries is the reference's one sum, for any
    function `e` with `e 0 = 1` and any `κ` with `1024 · κ = 1`. -/
theorem accK_pad_eq_lossR (he : e 0 = 1) (hκ : ((1024 : ℝ) : EReal) * κ = 1)
    (x : Fin 1024 → Fin 1000 → EReal) (Q : Fin 100000 → Fin 1000 → EReal) (r w : Fin 100000 → EReal) :
    accK e κ x (padTo (fun _ => 0) Q) (padTo 0 r) (padTo 0 w) 97 (by decide) = lossR e κ x Q r w := by
  have hz : ∀ i : Fin 352,
      termK e κ x (padTo (fun _ => 0) Q (Fin.natAdd 100000 i)) (padTo 0 r (Fin.natAdd 100000 i))
        (padTo 0 w (Fin.natAdd 100000 i)) = 0 := by
    intro i
    rw [padTo_natAdd, padTo_natAdd, padTo_natAdd]
    exact termK_zero e κ he hκ x
  have hk : ∀ k : Fin 100000,
      termK e κ x (padTo (fun _ => 0) Q (Fin.castAdd 352 k)) (padTo 0 r (Fin.castAdd 352 k))
        (padTo 0 w (Fin.castAdd 352 k)) = termR e κ x (Q k) (r k) (w k) := by
    intro k
    rw [padTo_castAdd, padTo_castAdd, padTo_castAdd, termK_eq_termR]
  rw [accK_last, sum_tileSum]
  unfold lossR
  rw [zero_add]
  exact (sum_pad 100000 352 (fun i => termK e κ x (padTo (fun _ => 0) Q i) (padTo 0 r i) (padTo 0 w i)) hz).trans
    (Finset.sum_congr rfl (fun k _ => hk k))

end Cert.Spec

end
-- ==== Proof.Consts.lean ====
/-
  The float constants the two programs spell, as the extended reals their patterns denote at the ideal instance, and
  the two facts of the shared arithmetic the bridge asks for: the exponential of 0 is 1, and 1024 times the kernel's
  folded reciprocal 2⁻¹⁰ is 1 (so the reference's division by 1024 is the kernel's product with it).
-/
import Idealize.ShloMosaic.PureOps.Ideal
import Idealize.ShloMosaic.PureOps.Ideal.Laws

noncomputable section

namespace Cert.Consts

open Idealize.ShloMosaic

/-- The reciprocal of the batch size. -/
def κ : EReal := ((1 / 1024 : ℝ) : EReal)

/-- `e⁰ = 1` on the extended reals. -/
theorem exp_zero : Ideal.exp 0 = 1 := by
  rw [← EReal.coe_zero]
  show ((Real.exp 0 : ℝ) : EReal) = 1
  rw [Real.exp_zero, EReal.coe_one]

/-- `1024 · 2⁻¹⁰ = 1`. -/
theorem κ_spec : ((1024 : ℝ) : EReal) * κ = 1 := by
  unfold κ
  rw [← EReal.coe_mul]
  norm_num

/-- The kernel's literal `9.765625e-4` denotes `1/1024` exactly. -/
theorem ofBits_inv1024 : Ideal.ofBits .f32 0x3A800000#32 = κ := by
  unfold κ
  simp [Ideal.ofBits, Ideal.ieee, -EReal.coe_mul]; norm_num

/-- The reference's divisor `1024.0` denotes the real `1024`. -/
theorem ofBits_1024 : Ideal.ofBits .f32 0x44800000#32 = ((1024 : ℝ) : EReal) := by
  simp [Ideal.ofBits, Ideal.ieee, -EReal.coe_mul]; norm_num

/-- The reference's quotient by `1024.0` is the product with the reciprocal, on every extended real. -/
theorem div_1024 (x : EReal) : Ideal.div x (Ideal.ofBits .f32 0x44800000#32) = x * κ := by
  rw [ofBits_1024, Ideal.div_coe (by norm_num : (1024 : ℝ) ≠ 0)]; rfl

end Cert.Consts

end
-- ==== Proof.KernelIdeal.ReadK.lean ====
/-
  The kernel's loss region at the ideal instance, read at indices: one tile's payload is the accumulator plus the
  tile's sum over its 1024 lanes of the weighted squared deviations; the accumulation over the 98 tiles, with the
  blocks read off the padded arrays, is the tiled sum of the shared arithmetic; and the padded arrays read at an
  index are the arrays below 100000 and zero from there on.
-/
import proofs.«177796_j44246753083785_1_alg».proof.Proof.KernelIdeal.Loss
import proofs.«177796_j44246753083785_1_alg».proof.Proof.KernelIdeal.Glue
import proofs.«177796_j44246753083785_1_alg».proof.Proof.Spec
import proofs.«177796_j44246753083785_1_alg».proof.Proof.Consts
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

/-! ## The non-pointwise operations of one tile's payload, read at an index -/

/-- The reset value is zero. -/
theorem k1_pay1_apply : (k1_pay1 (F := Ideal)) (ix2 0 0) = 0 := by
  unfold k1_pay1
  simp only [shapeCast_self]
  exact Ideal.ofBits_zero_f32

/-- The left operand's row coordinate is the output's row. -/
theorem lhsK_0 (i : S1024x1024.Idx) (p : dot_S1024x1000_S1024x1000_S1024x1024_1_1_0_0_n_n.contr.Idx) :
    (dot_S1024x1000_S1024x1000_S1024x1024_1_1_0_0_n_n.lhsIdx i p 0).val = (i 0).val := by
  unfold DotDims.lhsIdx
  rw [dif_neg (show ¬(0 : Fin S1024x1000.rank) ∈ dot_S1024x1000_S1024x1000_S1024x1024_1_1_0_0_n_n.lhsBatch by decide), dif_pos (show (0 : Fin S1024x1000.rank) ∈ dot_S1024x1000_S1024x1000_S1024x1024_1_1_0_0_n_n.lhsNonContracting by decide)]
  rfl
/-- The left operand's column coordinate is the contraction index. -/
theorem lhsK_1 (i : S1024x1024.Idx) (p : dot_S1024x1000_S1024x1000_S1024x1024_1_1_0_0_n_n.contr.Idx) :
    (dot_S1024x1000_S1024x1000_S1024x1024_1_1_0_0_n_n.lhsIdx i p 1).val = (p ⟨0, by decide⟩).val :=
  dot_S1024x1000_S1024x1000_S1024x1024_1_1_0_0_n_n.lhsIdx_val_of_single rfl i p
/-- The right operand's row coordinate is the output's column. -/
theorem rhsK_0 (i : S1024x1024.Idx) (p : dot_S1024x1000_S1024x1000_S1024x1024_1_1_0_0_n_n.contr.Idx) :
    (dot_S1024x1000_S1024x1000_S1024x1024_1_1_0_0_n_n.rhsIdx i p 0).val = (i 1).val := by
  unfold DotDims.rhsIdx
  rw [dif_neg (show ¬(0 : Fin S1024x1000.rank) ∈ dot_S1024x1000_S1024x1000_S1024x1024_1_1_0_0_n_n.rhsBatch by decide), dif_pos (show (0 : Fin S1024x1000.rank) ∈ dot_S1024x1000_S1024x1000_S1024x1024_1_1_0_0_n_n.rhsNonContracting by decide)]
  rfl
/-- The right operand's column coordinate is the contraction index. -/
theorem rhsK_1 (i : S1024x1024.Idx) (p : dot_S1024x1000_S1024x1000_S1024x1024_1_1_0_0_n_n.contr.Idx) :
    (dot_S1024x1000_S1024x1000_S1024x1024_1_1_0_0_n_n.rhsIdx i p 1).val = (p ⟨0, by decide⟩).val :=
  dot_S1024x1000_S1024x1000_S1024x1024_1_1_0_0_n_n.rhsIdx_val_of_single rfl i p

/-- The product of the batch block with the transposed query block: entry `(b, j)` is the inner product of row `b` of
    the one with row `j` of the other. -/
theorem matmulK_apply (x q : FVec Ideal S1024x1000 .f32) (b j : Fin 1024) :
    matmul dot_S1024x1000_S1024x1000_S1024x1024_1_1_0_0_n_n none x q (constant (F := Ideal) S1024x1024 .f32 0x00000000#32) (ix2 b j)
      = ∑ k : Fin 1000, x (ix2 b k) * q (ix2 j k) := by
  simp only [matmul]
  rw [Ideal.matmul_constant_zero_apply, ← Equiv.sum_comp (contrEquiv1 dot_S1024x1000_S1024x1000_S1024x1024_1_1_0_0_n_n 1000 rfl rfl).symm]
  refine Finset.sum_congr rfl fun k _ => ?_
  have hk := contrEquiv1_symm_val dot_S1024x1000_S1024x1000_S1024x1024_1_1_0_0_n_n 1000 rfl rfl k
  have el : dot_S1024x1000_S1024x1000_S1024x1024_1_1_0_0_n_n.lhsIdx (ix2 b j) ((contrEquiv1 dot_S1024x1000_S1024x1000_S1024x1024_1_1_0_0_n_n 1000 rfl rfl).symm k) = ix2 b k := funext fun a => Fin.ext (by
    match a with
    | ⟨0, _⟩ => exact lhsK_0 _ _
    | ⟨1, _⟩ => exact (lhsK_1 _ _).trans hk)
  have er : dot_S1024x1000_S1024x1000_S1024x1024_1_1_0_0_n_n.rhsIdx (ix2 b j) ((contrEquiv1 dot_S1024x1000_S1024x1000_S1024x1024_1_1_0_0_n_n 1000 rfl rfl).symm k) = ix2 j k := funext fun a => Fin.ext (by
    match a with
    | ⟨0, _⟩ => exact rhsK_0 _ _
    | ⟨1, _⟩ => exact (rhsK_1 _ _).trans hk)
  rw [el, er]

/-- The sum down a column of a 1024 × 1024 array. -/
theorem colSum_apply (v : FVec Ideal S1024x1024 .f32) (hφ : FKind.Formats .f32)
    (hacc : (0x00000000#32 : BitVec 32) = 0x00000000#32) (j : Fin 1024) :
    multiReduction .add [0] S1024 v 0x00000000#32 reduces_S1024x1024_S1024 hφ hacc (ix1 j) = ∑ b : Fin 1024, v (ix2 b j) := by
  refine (Ideal.multiReduction_add_single v 0x00000000#32 reduces_S1024x1024_S1024 hφ hacc (ix1 j)).trans ?_
  refine Finset.sum_congr rfl fun b _ => congrArg v (funext fun a => ?_)
  match a with
  | ⟨0, _⟩ => rfl
  | ⟨1, _⟩ => rfl

/-- The sum along the one row of a 1 × 1024 array. -/
theorem laneSum_apply (v : FVec Ideal S1x1024 .f32) (hφ : FKind.Formats .f32)
    (hacc : (0x00000000#32 : BitVec 32) = 0x00000000#32) :
    multiReduction .add [1] S1 v 0x00000000#32 reduces_S1x1024_S1 hφ hacc (ix1 0) = ∑ j : Fin 1024, v (ix2 0 j) := by
  refine (Ideal.multiReduction_add_single v 0x00000000#32 reduces_S1x1024_S1 hφ hacc (ix1 0)).trans ?_
  refine Finset.sum_congr rfl fun j _ => congrArg v (funext fun a => ?_)
  match a with
  | ⟨0, _⟩ => rfl
  | ⟨1, _⟩ => rfl

/-- The exponential of that product, entry by entry. -/
theorem expMatmulK_apply (x q : FVec Ideal S1024x1000 .f32) (b j : Fin 1024) :
    exp (matmul dot_S1024x1000_S1024x1000_S1024x1024_1_1_0_0_n_n none x q (constant (F := Ideal) S1024x1024 .f32 0x00000000#32)) (ix2 b j)
      = Ideal.exp (∑ k : Fin 1000, x (ix2 b k) * q (ix2 j k)) := by
  show Ideal.exp (matmul dot_S1024x1000_S1024x1000_S1024x1024_1_1_0_0_n_n none x q (constant (F := Ideal) S1024x1024 .f32 0x00000000#32) (ix2 b j)) = _
  rw [matmulK_apply]

/-- One tile's payload: the accumulator plus the sum over the tile's 1024 lanes of the weighted squared deviations. -/
theorem k1_pay2_apply (x q : Vec Ideal S1024x1000 .f32) (r w : Vec Ideal S1x1024 .f32) (a : Vec Ideal S1x1 .f32) :
    k1_pay2 x q r w a (ix2 0 0)
      = a (ix2 0 0) + (0 + ∑ j : Fin 1024, Cert.Spec.termK Ideal.exp Cert.Consts.κ (fun b k => x (ix2 b k))
          (fun k => q (ix2 j k)) (r (ix2 0 j)) (w (ix2 0 j))) := by
  unfold k1_pay2
  simp only [shapeCast_self]
  rw [addf_apply, shapeCast_a_1a_apply, laneSum_apply, zero_add]
  refine congrArg (a (ix2 0 0) + ·) (Finset.sum_congr rfl fun j _ => ?_)
  unfold Cert.Spec.termK Cert.Spec.dev
  rw [mulf_apply, mulf_apply, subf_apply, mulf_apply, shapeCast_a_1a_apply, colSum_apply, broadcast_apply, zero_add,
    Finset.sum_congr rfl (fun b _ => expMatmulK_apply x q b j)]
  show _ * (_ * Ideal.ofBits .f32 0x3A800000#32 - _) * (_ * Ideal.ofBits .f32 0x3A800000#32 - _) = _
  rw [Cert.Consts.ofBits_inv1024]

/-! ## The four input blocks of a tile, read off their arrays

Window 0's block is the whole batch array at every tile; window 1's block at tile `t` is rows `1024 t … 1024 t + 1023`
of the padded query mask; windows 2 and 3 read columns `1024 t … 1024 t + 1023` of the one row of the padded targets
and weights. -/

/-- The block indices of window 0: both zero at every tile. -/
theorem idx1_0 : ∀ t : Fin grid1.N, win1_0.index t (0 : Fin 2) = 0 ∧ win1_0.index t (1 : Fin 2) = 0 := by decide +kernel
/-- The block indices of window 1: the tile along the rows, zero along the columns. -/
theorem idx1_1 : ∀ t : Fin grid1.N, win1_1.index t (0 : Fin 2) = t.val ∧ win1_1.index t (1 : Fin 2) = 0 := by decide +kernel
/-- The block indices of window 2: zero along the one row, the tile along the columns. -/
theorem idx1_2 : ∀ t : Fin grid1.N, win1_2.index t (0 : Fin 2) = 0 ∧ win1_2.index t (1 : Fin 2) = t.val := by decide +kernel
/-- The block indices of window 3: zero along the one row, the tile along the columns. -/
theorem idx1_3 : ∀ t : Fin grid1.N, win1_3.index t (0 : Fin 2) = 0 ∧ win1_3.index t (1 : Fin 2) = t.val := by decide +kernel

section Blocks
variable (V : (c : Dev nD) → (b : Ref sig .tc) → Buf (Elt Ideal) ((c : Thread nD τ).loc b)) (c : Dev nD)

/-- Window 0's block is the batch array. -/
theorem iblk1_0_apply (t : Fin cfg1.N) (b : Fin 1024) (k : Fin 1000) :
    (iblk1 V c 0 t : Vec Ideal S1024x1000 .f32) (ix2 b k) = (V c main_v4 : Vec Ideal S1024x1000 .f32) (ix2 b k) := by
  unfold iblk1
  rw [View.read_apply]
  show V c main_v4 _ = V c main_v4 _
  congr 1
  funext a
  apply Fin.ext
  match a with
  | ⟨0, _⟩ => show win1_0.index t 0 * 1024 + 1 * b.val = b.val; rw [(idx1_0 t).1]; omega
  | ⟨1, _⟩ => show win1_0.index t 1 * 1000 + 1 * k.val = k.val; rw [(idx1_0 t).2]; omega

/-- Window 1's block at tile `t` is rows `1024 t + j` of the padded mask. -/
theorem iblk1_1_apply (t : Fin cfg1.N) (j : Fin 1024) (k : Fin 1000) (i : Fin 100352) (hi : i.val = t.val * 1024 + j.val) :
    (iblk1 V c 1 t : Vec Ideal S1024x1000 .f32) (ix2 j k) = (V c main_v5 : Vec Ideal S100352x1000 .f32) (ix2 i k) := by
  unfold iblk1
  rw [View.read_apply]
  show V c main_v5 _ = V c main_v5 _
  congr 1
  funext a
  apply Fin.ext
  match a with
  | ⟨0, _⟩ => show win1_1.index t 0 * 1024 + 1 * j.val = i.val; rw [(idx1_1 t).1, hi]; omega
  | ⟨1, _⟩ => show win1_1.index t 1 * 1000 + 1 * k.val = k.val; rw [(idx1_1 t).2]; omega

/-- Window 2's block at tile `t` is columns `1024 t + j` of the padded targets' row. -/
theorem iblk1_2_apply (t : Fin cfg1.N) (j : Fin 1024) (i : Fin 100352) (hi : i.val = t.val * 1024 + j.val) :
    (iblk1 V c 2 t : Vec Ideal S1x1024 .f32) (ix2 0 j) = (V c main_v7 : Vec Ideal S1x100352 .f32) (ix2 0 i) := by
  unfold iblk1
  rw [View.read_apply]
  show V c main_v7 _ = V c main_v7 _
  congr 1
  funext a
  apply Fin.ext
  match a with
  | ⟨0, _⟩ => show win1_2.index t 0 * 1 + 1 * 0 = 0; rw [(idx1_2 t).1]
  | ⟨1, _⟩ => show win1_2.index t 1 * 1024 + 1 * j.val = i.val; rw [(idx1_2 t).2, hi]; omega

/-- Window 3's block at tile `t` is columns `1024 t + j` of the padded weights' row. -/
theorem iblk1_3_apply (t : Fin cfg1.N) (j : Fin 1024) (i : Fin 100352) (hi : i.val = t.val * 1024 + j.val) :
    (iblk1 V c 3 t : Vec Ideal S1x1024 .f32) (ix2 0 j) = (V c main_v9 : Vec Ideal S1x100352 .f32) (ix2 0 i) := by
  unfold iblk1
  rw [View.read_apply]
  show V c main_v9 _ = V c main_v9 _
  congr 1
  funext a
  apply Fin.ext
  match a with
  | ⟨0, _⟩ => show win1_3.index t 0 * 1 + 1 * 0 = 0; rw [(idx1_3 t).1]
  | ⟨1, _⟩ => show win1_3.index t 1 * 1024 + 1 * j.val = i.val; rw [(idx1_3 t).2, hi]; omega

end Blocks

/-! ## One tile, and the accumulation over the 98 tiles -/

section Accumulation
variable (V : (c : Dev nD) → (b : Ref sig .tc) → Buf (Elt Ideal) ((c : Thread nD τ).loc b)) (c : Dev nD)

/-- One tile's payload over its four blocks: the accumulator plus the tile's sum of the shared arithmetic, the lanes
    read off the padded arrays at `1024 t + j`. -/
theorem tile_apply (t : Fin cfg1.N) (ht : t.val < 98) (a : Vec Ideal S1x1 .f32) :
    k1_pay2 (iblk1 V c 0 t) (iblk1 V c 1 t) (iblk1 V c 2 t) (iblk1 V c 3 t) a (ix2 0 0)
      = a (ix2 0 0) + Cert.Spec.tileSum Ideal.exp Cert.Consts.κ
          (fun b k => (V c main_v4 : Vec Ideal S1024x1000 .f32) (ix2 b k))
          (fun q k => (V c main_v5 : Vec Ideal S100352x1000 .f32) (ix2 q k))
          (fun q => (V c main_v7 : Vec Ideal S1x100352 .f32) (ix2 0 q))
          (fun q => (V c main_v9 : Vec Ideal S1x100352 .f32) (ix2 0 q)) ⟨t.val, ht⟩ := by
  rw [k1_pay2_apply]
  unfold Cert.Spec.tileSum
  refine congrArg (a (ix2 0 0) + ·) (congrArg (0 + ·) (Finset.sum_congr rfl fun j _ => ?_))
  have e0 : (fun (b : Fin 1024) (k : Fin 1000) => (iblk1 V c 0 t : Vec Ideal S1024x1000 .f32) (ix2 b k))
      = fun b k => (V c main_v4 : Vec Ideal S1024x1000 .f32) (ix2 b k) :=
    funext fun b => funext fun k => iblk1_0_apply V c t b k
  have e1 : (fun k : Fin 1000 => (iblk1 V c 1 t : Vec Ideal S1024x1000 .f32) (ix2 j k))
      = fun k => (V c main_v5 : Vec Ideal S100352x1000 .f32) (ix2 (Cert.Spec.lane ⟨t.val, ht⟩ j) k) :=
    funext fun k => iblk1_1_apply V c t j k _ rfl
  have e2 : (iblk1 V c 2 t : Vec Ideal S1x1024 .f32) (ix2 0 j)
      = (V c main_v7 : Vec Ideal S1x100352 .f32) (ix2 0 (Cert.Spec.lane ⟨t.val, ht⟩ j)) := iblk1_2_apply V c t j _ rfl
  have e3 : (iblk1 V c 3 t : Vec Ideal S1x1024 .f32) (ix2 0 j)
      = (V c main_v9 : Vec Ideal S1x100352 .f32) (ix2 0 (Cert.Spec.lane ⟨t.val, ht⟩ j)) := iblk1_3_apply V c t j _ rfl
  rw [e0, e1, e2, e3]

/-- The accumulator after tile `n`, for every tile: the tiled sum of the shared arithmetic up to `n`. -/
theorem accAt_eq_accK : ∀ (n : ℕ) (h : n < cfg1.N) (h' : n < 98),
    accAt (F := Ideal) V c n h (ix2 0 0)
      = Cert.Spec.accK Ideal.exp Cert.Consts.κ
          (fun b k => (V c main_v4 : Vec Ideal S1024x1000 .f32) (ix2 b k))
          (fun q k => (V c main_v5 : Vec Ideal S100352x1000 .f32) (ix2 q k))
          (fun q => (V c main_v7 : Vec Ideal S1x100352 .f32) (ix2 0 q))
          (fun q => (V c main_v9 : Vec Ideal S1x100352 .f32) (ix2 0 q)) n h'
  | 0, h, h' => by
      rw [accAt, Cert.Spec.accK, tile_apply V c ⟨0, h⟩ h', k1_pay1_apply]
  | n + 1, h, h' => by
      rw [accAt, Cert.Spec.accK, tile_apply V c ⟨n + 1, h⟩ h', accAt_eq_accK n (Nat.lt_of_succ_lt h) (Nat.lt_of_succ_lt h')]

end Accumulation

/-- The accumulator after the last tile, at the ideal instance and at any buffer contents `V` at the region's entry:
    the tiled sum of the shared arithmetic over the four arrays the region's windows read. -/
theorem accAt_apply (V : (c : Dev nD) → (b : Ref sig .tc) → Buf (Elt Ideal) ((c : Thread nD τ).loc b)) (c : Dev nD) :
    accAt (F := Ideal) V c 97 (by decide) (ix2 0 0)
      = Cert.Spec.accK Ideal.exp Cert.Consts.κ
          (fun b k => (V c main_v4 : Vec Ideal S1024x1000 .f32) (ix2 b k))
          (fun q k => (V c main_v5 : Vec Ideal S100352x1000 .f32) (ix2 q k))
          (fun q => (V c main_v7 : Vec Ideal S1x100352 .f32) (ix2 0 q))
          (fun q => (V c main_v9 : Vec Ideal S1x100352 .f32) (ix2 0 q)) 97 (by decide) :=
  accAt_eq_accK V c 97 _ _

/-! ## The padded arrays read at an index -/

/-- The padding value: the integer zero converted is the extended real zero. -/
theorem padVal : (sitofp (F := Ideal) .f32 (constantI S_ 32 0#32)) (Shape.Idx.first h_S_) = 0 :=
  sitofp_zero

/-- The padded mask read at an index. -/
theorem padQ_apply (Q : Vec Ideal S100000x1000 .f32) (q : Fin 100352) (k : Fin 1000) :
    padQ (F := Ideal) Q (ix2 q k) = Cert.Spec.padTo (fun _ => (0 : EReal)) (fun q' k' => Q (ix2 q' k')) q k := by
  unfold padQ Cert.Spec.padTo
  by_cases h : q.val < 100000
  · rw [dif_pos h]
    exact pad_apply_of_inside ![0, 0] ![352, 0] ![0, 0] Q _ pads_S100000x1000_S100352x1000_03520_000 h_S_ (ix2 q k)
      (ix2 ⟨q.val, h⟩ k) (fun a => by
        match a with
        | ⟨0, _⟩ => show q.val = 0 + q.val * (0 + 1); omega
        | ⟨1, _⟩ => show k.val = 0 + k.val * (0 + 1); omega)
  · rw [dif_neg h]
    refine (pad_apply_of_not_inside ![0, 0] ![352, 0] ![0, 0] Q _ pads_S100000x1000_S100352x1000_03520_000 h_S_ (ix2 q k)
      (0 : Fin 2) (fun hin => h ?_)).trans padVal
    have h3 : (q.val - 0) / (0 + 1) < 100000 := hin.2.2
    omega

/-- A padded row read at an index. -/
theorem padRow_apply (r : Vec Ideal S100000 .f32) (q : Fin 100352) :
    padRow (F := Ideal) r (ix2 0 q) = Cert.Spec.padTo (0 : EReal) (fun q' => r (ix1 q')) q := by
  unfold padRow Cert.Spec.padTo
  rw [shapeCast_a_1a_apply]
  by_cases h : q.val < 100000
  · rw [dif_pos h]
    exact pad_apply_of_inside ![0] ![352] ![0] r _ pads_S100000_S100352_03520 h_S_ (ix1 q)
      (ix1 ⟨q.val, h⟩) (fun a => by
        match a with
        | ⟨0, _⟩ => show q.val = 0 + q.val * (0 + 1); omega)
  · rw [dif_neg h]
    refine (pad_apply_of_not_inside ![0] ![352] ![0] r _ pads_S100000_S100352_03520 h_S_ (ix1 q)
      (0 : Fin 1) (fun hin => h ?_)).trans padVal
    have h3 : (q.val - 0) / (0 + 1) < 100000 := hin.2.2
    omega

end Cert.KernelIdeal.Fr

end
-- ==== Proof.Bridge.Mlp.lean ====
/-
  The two perceptrons are one function at the ideal instance: the kernel's matrix products into a zero accumulator
  are the host's products, entry by entry the same sums; a bias row broadcast along the batch is the same array however
  the broadcast is spelt; the rectifier is the same maximum with a zero splat. And the host chain between the regions
  is, operation for operation, the reference's.
-/
import proofs.«177796_j44246753083785_1_alg».proof.Proof.Gen.KernelIdeal.Skeleton
import proofs.«177796_j44246753083785_1_alg».proof.Proof.KernelIdeal.Glue
import proofs.«177796_j44246753083785_1_alg».proof.Proof.Ref.Term
import Idealize.ShloMosaic.Lib.ValueIdx
import Idealize.ShloMosaic.Lib.ValueLayout
import Idealize.ShloMosaic.Lib.Pipeline.Value
import Idealize.ShloMosaic.PureOps.Ideal.Laws
import Idealize.ShloMosaic.Lib.KernelVsHost

noncomputable section

namespace Cert.Bridge

open Idealize.ShloMosaic Idealize.ShloMosaic.ValueIdx

/-- A bias vector of `n` entries laid along each of `m` rows. One side casts it to a one-row table and broadcasts that
    table down the rows; the other broadcasts it along axis 1 to a one-row table and broadcasts that table to both axes.
    Either way entry (p, c) is entry c of the vector. -/
theorem bias_eq {α : Type} {m n : Nat} (b : (⟨1, ![n]⟩ : Shape).Idx → α)
    (hc : (⟨1, ![n]⟩ : Shape).ShapeCasts ⟨2, ![1, n]⟩) (hb : (⟨2, ![1, n]⟩ : Shape).Broadcasts ⟨2, ![m, n]⟩)
    (h1 : (⟨2, ![1, n]⟩ : Shape).BroadcastsInDim ⟨2, ![m, n]⟩ ![0, 1])
    (h2 : (⟨1, ![n]⟩ : Shape).BroadcastsInDim ⟨2, ![1, n]⟩ ![1]) :
    broadcastTo ⟨2, ![m, n]⟩ (shapeCast ⟨2, ![1, n]⟩ b hc) hb
      = broadcastInDim ⟨2, ![m, n]⟩ ![0, 1] h1 (broadcastInDim ⟨2, ![1, n]⟩ ![1] h2 b) := by
  funext j
  obtain ⟨p, c, rfl⟩ : ∃ (p : Fin m) (c : Fin n), j = ix2 p c := ⟨j 0, j 1, eq_ix2 j⟩
  -- the left side: row 0 of the cast, which is the vector
  have eL : broadcastTo ⟨2, ![m, n]⟩ (shapeCast ⟨2, ![1, n]⟩ b hc) hb (ix2 p c) = b (ix1 c) :=
    (broadcastTo_1b_ab_apply _ hb p c).trans (shapeCast_a_1a_apply b hc 0 c)
  -- the right side: row 0 of the one-row broadcast, which reads the vector at the column
  have eR1 : broadcastInDim ⟨2, ![m, n]⟩ ![0, 1] h1 (broadcastInDim ⟨2, ![1, n]⟩ ![1] h2 b) (ix2 p c)
      = broadcastInDim ⟨2, ![1, n]⟩ ![1] h2 b (ix2 (0 : Fin 1) c) :=
    broadcastInDim_oneRow_apply h1 _ p c
  have eR2 : broadcastInDim ⟨2, ![1, n]⟩ ![1] h2 b (ix2 (0 : Fin 1) c) = b (ix1 c) := by
    refine broadcastInDim_apply ![1] h2 b (ix2 (0 : Fin 1) c) (ix1 c) fun a => ?_
    match a with
    | ⟨0, _⟩ =>
      show c.val = if n = 1 then 0 else c.val
      split
      · have := c.isLt; omega
      · rfl
  exact eL.trans (eR1.trans eR2).symm

/-- One affine layer: a matrix product into a zero accumulator plus the bias row is the host's product plus the bias
    row, when the two records carry the same dimension numbers and the two inputs are the same array. -/
theorem layer_eq {M K N : Nat} (dk dr : DotDims ⟨2, ![M, K]⟩ ⟨2, ![K, N]⟩ ⟨2, ![M, N]⟩) (hd : dk = dr)
    (x x' : FVec Ideal ⟨2, ![M, K]⟩ .f32) (hx : x = x') (W : FVec Ideal ⟨2, ![K, N]⟩ .f32)
    (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (h1 : (⟨2, ![1, N]⟩ : Shape).BroadcastsInDim ⟨2, ![M, N]⟩ ![0, 1])
    (h2 : (⟨1, ![N]⟩ : Shape).BroadcastsInDim ⟨2, ![1, N]⟩ ![1]) :
    addf (matmul dk none x W (constant ⟨2, ![M, N]⟩ .f32 0x00000000#32)) (broadcastTo ⟨2, ![M, N]⟩ (shapeCast ⟨2, ![1, N]⟩ b hc) hb)
      = addf (Host.dotGeneral dr none x' W) (broadcastInDim ⟨2, ![M, N]⟩ ![0, 1] h1 (broadcastInDim ⟨2, ![1, N]⟩ ![1] h2 b)) := by
  subst hd hx
  rw [matmul_zero_eq_dotGeneral, bias_eq b hc hb h1 h2]

/-- The rectifier: the maximum with a zero splat, the zero spelt as a scalar's splat or as a constant broadcast. -/
theorem relu_eq {s s0 : Shape} (dims : Fin s0.rank → Fin s.rank) (h : s0.BroadcastsInDim s dims)
    (x x' : FVec Ideal s .f32) (hx : x = x') :
    maximumf x (broadcast s (Scalar.ofBits .f32 0x00000000#32))
      = maximumf x' (broadcastInDim s dims h (constant s0 .f32 0x00000000#32)) := by
  subst hx
  rw [broadcastInDim_constant]

/-- The kernel's perceptron payload is the reference's perceptron, at the ideal instance. -/
theorem mlp_eq (z : Vec Ideal Cert.KernelIdeal.S1024x1000 .f32) (W1 : Vec Ideal Cert.KernelIdeal.S1000x1024 .f32) (b1 : Vec Ideal Cert.KernelIdeal.S1024 .f32)
    (W2 : Vec Ideal Cert.KernelIdeal.S1024x1024 .f32) (b2 : Vec Ideal Cert.KernelIdeal.S1024 .f32) (W3 : Vec Ideal Cert.KernelIdeal.S1024x1000 .f32)
    (b3 : Vec Ideal Cert.KernelIdeal.S1000 .f32) :
    Cert.KernelIdeal.Gen.k0_pay1 (F := Ideal) z W1 b1 W2 b2 W3 b3 = Cert.ReferenceIdeal.Hand.mlpR (F := Ideal) z W1 b1 W2 b2 W3 b3 := by
  unfold Cert.KernelIdeal.Gen.k0_pay1 Cert.ReferenceIdeal.Hand.mlpR
  -- layer by layer, from the input outwards: each layer's two spellings agree once the layer below agrees
  exact layer_eq _ _ rfl _ _
    (relu_eq _ _ _ _
      (layer_eq _ _ rfl _ _
        (relu_eq _ _ _ _
          (layer_eq _ _ rfl _ _ rfl W1 b1 _ _ _ _))
        W2 b2 _ _ _ _))
    W3 b3 _ _ _ _

/-- The host chain between the kernel's regions is the reference's log-softmax and clamp. -/
theorem glue_eq {F : FTy → Type} [FloatOps F] (l : Vec F Cert.KernelIdeal.S1024x1000 .f32) :
    Cert.KernelIdeal.Fr.glue l = Cert.ReferenceIdeal.Hand.glueR l := rfl

end Cert.Bridge

end
-- ==== Proof.Ref.Read.lean ====
/-
  The reference's loss stage at the ideal instance, read at its one index: the plain sum over the 100000 queries of the
  weighted squared deviations, each deviation the batch sum of the exponentials of the masked sums, divided by 1024 (a
  product with its reciprocal), less the target.
-/
import proofs.«177796_j44246753083785_1_alg».proof.Proof.Ref.Term
import proofs.«177796_j44246753083785_1_alg».proof.Proof.Spec
import proofs.«177796_j44246753083785_1_alg».proof.Proof.Consts
import Idealize.ShloMosaic.Lib.ValueIdx
import Idealize.ShloMosaic.Lib.Pipeline.Value
import Idealize.ShloMosaic.PureOps.Ideal.Laws

noncomputable section

namespace Cert.ReferenceIdeal.Hand

open Idealize.ShloMosaic Idealize.ShloMosaic.ValueIdx Cert.ReferenceIdeal Cert.ReferenceIdeal.Gen
open scoped BigOperators

/-- A sum over a rank-1 index set is the sum over its one coordinate. -/
theorem sum_ix1 {M : Type*} [AddCommMonoid M] {n : Nat} (f : (⟨1, ![n]⟩ : Shape).Idx → M) :
    ∑ i, f i = ∑ a : Fin n, f (ix1 a) :=
  Fintype.sum_equiv ⟨fun i => i 0, ix1, fun i => (eq_ix1 i).symm, fun _ => rfl⟩ f (fun a => f (ix1 a))
    (fun i => congrArg f (eq_ix1 i))

/-! ## The operand indices of the product with the transposed queries

At the output index (b, q) and contraction coordinate k the left operand is read at (b, k) and the right at (k, q). -/

theorem lhs_dotT_0 (i : S1024x100000.Idx) (c : dot_S1024x1000_S1000x100000_S1024x100000_1_0_0_1_n_n.contr.Idx) :
    (dot_S1024x1000_S1000x100000_S1024x100000_1_0_0_1_n_n.lhsIdx i c 0).val = (i 0).val := by
  unfold DotDims.lhsIdx
  rw [dif_neg (show ¬(0 : Fin S1024x1000.rank) ∈ dot_S1024x1000_S1000x100000_S1024x100000_1_0_0_1_n_n.lhsBatch by decide),
    dif_pos (show (0 : Fin S1024x1000.rank) ∈ dot_S1024x1000_S1000x100000_S1024x100000_1_0_0_1_n_n.lhsNonContracting by decide)]
  rfl
theorem lhs_dotT_1 (i : S1024x100000.Idx) (c : dot_S1024x1000_S1000x100000_S1024x100000_1_0_0_1_n_n.contr.Idx) :
    (dot_S1024x1000_S1000x100000_S1024x100000_1_0_0_1_n_n.lhsIdx i c 1).val = (c ⟨0, by decide⟩).val :=
  dot_S1024x1000_S1000x100000_S1024x100000_1_0_0_1_n_n.lhsIdx_val_of_single rfl i c
theorem rhs_dotT_0 (i : S1024x100000.Idx) (c : dot_S1024x1000_S1000x100000_S1024x100000_1_0_0_1_n_n.contr.Idx) :
    (dot_S1024x1000_S1000x100000_S1024x100000_1_0_0_1_n_n.rhsIdx i c 0).val = (c ⟨0, by decide⟩).val :=
  dot_S1024x1000_S1000x100000_S1024x100000_1_0_0_1_n_n.rhsIdx_val_of_single rfl i c
theorem rhs_dotT_1 (i : S1024x100000.Idx) (c : dot_S1024x1000_S1000x100000_S1024x100000_1_0_0_1_n_n.contr.Idx) :
    (dot_S1024x1000_S1000x100000_S1024x100000_1_0_0_1_n_n.rhsIdx i c 1).val = (i 1).val := by
  unfold DotDims.rhsIdx
  rw [dif_neg (show ¬(1 : Fin S1000x100000.rank) ∈ dot_S1024x1000_S1000x100000_S1024x100000_1_0_0_1_n_n.rhsBatch by decide),
    dif_pos (show (1 : Fin S1000x100000.rank) ∈ dot_S1024x1000_S1000x100000_S1024x100000_1_0_0_1_n_n.rhsNonContracting by decide)]
  rfl

/-- The masked sum of sample b against query q: the product of the log-probabilities with the transposed mask, at
    (b, q), is the sum over the 1000 classes of the sample's entry times the query's. -/
theorem dotT_apply (xp : FVec Ideal S1024x1000 .f32) (Q : FVec Ideal S100000x1000 .f32) (b : Fin 1024) (q : Fin 100000) :
    Host.dotGeneral (F := Ideal) dot_S1024x1000_S1000x100000_S1024x100000_1_0_0_1_n_n none xp (transpose S1000x100000 [1, 0] Q transposes_S100000x1000_S1000x100000_1_0) (ix2 b q)
      = ∑ k : Fin 1000, xp (ix2 b k) * Q (ix2 q k) := by
  simp only [Host.dotGeneral]
  rw [Ideal.dotGeneral_apply, ← Equiv.sum_comp (contrEquiv1 dot_S1024x1000_S1000x100000_S1024x100000_1_0_0_1_n_n 1000 rfl rfl).symm]
  refine Finset.sum_congr rfl fun k _ => ?_
  have hk := contrEquiv1_symm_val dot_S1024x1000_S1000x100000_S1024x100000_1_0_0_1_n_n 1000 rfl rfl k
  have el : dot_S1024x1000_S1000x100000_S1024x100000_1_0_0_1_n_n.lhsIdx (ix2 b q) ((contrEquiv1 dot_S1024x1000_S1000x100000_S1024x100000_1_0_0_1_n_n 1000 rfl rfl).symm k) = ix2 b k :=
    funext fun a => Fin.ext (by
      match a with
      | ⟨0, _⟩ => exact lhs_dotT_0 _ _
      | ⟨1, _⟩ => exact (lhs_dotT_1 _ _).trans hk)
  have er : dot_S1024x1000_S1000x100000_S1024x100000_1_0_0_1_n_n.rhsIdx (ix2 b q) ((contrEquiv1 dot_S1024x1000_S1000x100000_S1024x100000_1_0_0_1_n_n 1000 rfl rfl).symm k) = ix2 k q :=
    funext fun a => Fin.ext (by
      match a with
      | ⟨0, _⟩ => exact (rhs_dotT_0 _ _).trans hk
      | ⟨1, _⟩ => exact rhs_dotT_1 _ _)
  rw [el, er]
  exact congrArg (xp (ix2 b k) * ·) (transpose_apply [1, 0] Q transposes_S100000x1000_S1000x100000_1_0 (ix2 k q) (ix2 q k) (fun a => match a with
    | ⟨0, _⟩ => rfl
    | ⟨1, _⟩ => rfl))

/-- Its exponential at (b, q). -/
theorem expDotT_apply (xp : FVec Ideal S1024x1000 .f32) (Q : FVec Ideal S100000x1000 .f32) (b : Fin 1024) (q : Fin 100000) :
    Host.exp (F := Ideal) (Host.dotGeneral (F := Ideal) dot_S1024x1000_S1000x100000_S1024x100000_1_0_0_1_n_n none xp (transpose S1000x100000 [1, 0] Q transposes_S100000x1000_S1000x100000_1_0)) (ix2 b q)
      = Ideal.exp (∑ k : Fin 1000, xp (ix2 b k) * Q (ix2 q k)) := by
  show Ideal.exp (Host.dotGeneral (F := Ideal) dot_S1024x1000_S1000x100000_S1024x100000_1_0_0_1_n_n none xp (transpose S1000x100000 [1, 0] Q transposes_S100000x1000_S1000x100000_1_0) (ix2 b q)) = _
  rw [dotT_apply]

/-- The batch sum at query q: the initial value 0 plus the sum over the 1024 samples. -/
theorem batchSum_apply (xp : FVec Ideal S1024x1000 .f32) (Q : FVec Ideal S100000x1000 .f32) (q : Fin 100000) :
    Host.reduceAdd (F := Ideal) (Host.exp (F := Ideal) (Host.dotGeneral (F := Ideal) dot_S1024x1000_S1000x100000_S1024x100000_1_0_0_1_n_n none xp (transpose S1000x100000 [1, 0] Q transposes_S100000x1000_S1000x100000_1_0)))
        (constant (F := Ideal) S_ .f32 0x00000000#32) reducesTo_S1024x100000_S100000_d0 h_S_ (ix1 q)
      = 0 + ∑ b : Fin 1024, Ideal.exp (∑ k : Fin 1000, xp (ix2 b k) * Q (ix2 q k)) := by
  have hy : ∀ b : Fin 1024, Host.exp (F := Ideal) (Host.dotGeneral (F := Ideal) dot_S1024x1000_S1000x100000_S1024x100000_1_0_0_1_n_n none xp (transpose S1000x100000 [1, 0] Q transposes_S100000x1000_S1000x100000_1_0)) (ix2 b q)
      = Ideal.exp (∑ k : Fin 1000, xp (ix2 b k) * Q (ix2 q k)) := fun b => expDotT_apply xp Q b q
  generalize Host.exp (F := Ideal) (Host.dotGeneral (F := Ideal) dot_S1024x1000_S1000x100000_S1024x100000_1_0_0_1_n_n none xp (transpose S1000x100000 [1, 0] Q transposes_S100000x1000_S1000x100000_1_0)) = y at hy ⊢
  simp only [Host.reduceAdd, Ideal.hostReduceAdd_def]
  rw [Ideal.hostReduceAdd_single reducesTo_S1024x100000_S100000_d0 (by decide)]
  refine congrArg₂ (· + ·) Ideal.ofBits_zero_f32 (Finset.sum_congr rfl fun (b : Fin 1024) _ => ?_)
  rw [← hy b]
  exact congrArg y (funext fun a => Fin.ext (by match a with | ⟨0, _⟩ => rfl | ⟨1, _⟩ => rfl))

/-- The host's quotient at an index is the ideal division of the elements. -/
theorem hostDivf_at {s : Shape} {φ : FTy} (a b : FVec Ideal s φ) (i : s.Idx) :
    Host.divf a b i = Ideal.div (a i) (b i) := rfl

/-- Each query's deviation at the ideal instance: the batch sum times the reciprocal of 1024, less the target. -/
theorem devR_apply (xp : FVec Ideal S1024x1000 .f32) (Q : FVec Ideal S100000x1000 .f32) (real : FVec Ideal S100000 .f32) (q : Fin 100000) :
    devR (F := Ideal) xp Q real (ix1 q)
      = Cert.Spec.dev Ideal.exp Cert.Consts.κ (fun b k => xp (ix2 b k)) (fun k => Q (ix2 q k)) (real (ix1 q)) := by
  have hb : broadcastInDim S100000 ![] bcast_S_S100000 (constant (F := Ideal) S_ .f32 0x44800000#32) (ix1 q)
      = Ideal.ofBits .f32 0x44800000#32 :=
    broadcastInDim_apply _ bcast_S_S100000 (constant (F := Ideal) S_ .f32 0x44800000#32) (ix1 q) ix0 (fun a => a.elim0)
  unfold devR Cert.Spec.dev
  rw [subf_apply, hostDivf_at, batchSum_apply, hb, Cert.Consts.div_1024]

/-- The reference's loss, at the ideal instance, is the one sum over the queries. -/
theorem lossR_apply (xp : Vec Ideal S1024x1000 .f32) (Q : Vec Ideal S100000x1000 .f32) (real w : Vec Ideal S100000 .f32) (i : S_.Idx) :
    lossR (F := Ideal) xp Q real w i
      = Cert.Spec.lossR Ideal.exp Cert.Consts.κ (fun b k => xp (ix2 b k)) (fun q k => Q (ix2 q k)) (fun q => real (ix1 q)) (fun q => w (ix1 q)) := by
  unfold lossR Cert.Spec.lossR
  simp only [Host.reduceAdd, Ideal.hostReduceAdd_def]
  rw [Ideal.hostReduceAdd_total reducesTo_S100000_S_d0 (fun b => b.elim0)]
  refine congrArg₂ (· + ·) Ideal.ofBits_zero_f32 ?_
  rw [sum_ix1]
  refine Finset.sum_congr rfl fun q _ => ?_
  rw [mulf_apply, mulf_apply, devR_apply]
  rfl

end Cert.ReferenceIdeal.Hand

end
-- ==== Proof.Bridge.Result.lean ====
/-
  The two programs' results are one extended real. The kernel's result is its accumulator after the last tile,
  reshaped to a scalar; read at the ideal instance that accumulator is the tiled sum of the shared arithmetic over the
  clamped log-softmax of the kernel's perceptron and the zero-padded mask, targets and weights; the padded tiled sum is
  the reference's one sum over the queries; and the kernel's perceptron and host chain are the reference's.
-/
import proofs.«177796_j44246753083785_1_alg».proof.Proof.KernelIdeal.Value
import proofs.«177796_j44246753083785_1_alg».proof.Proof.KernelIdeal.ReadK
import proofs.«177796_j44246753083785_1_alg».proof.Proof.Bridge.Mlp
import proofs.«177796_j44246753083785_1_alg».proof.Proof.Ref.Read

noncomputable section

namespace Cert.Bridge

open Idealize.ShloMosaic Idealize.ShloMosaic.TcCoe Idealize.ShloMosaic.ValueIdx Idealize.SL.Sem
open Cert.KernelIdeal Cert.KernelIdeal.Gen Cert.KernelIdeal.Fr

variable (m : (ℓ : Loc nD τ sig) → Buf (Elt Ideal) ℓ)

/-- The reshape of the 1 × 1 loss block to a scalar reads its one entry. -/
theorem scalar_of_block (X : Vec Ideal S1x1 .f32) (i : S_.Idx) :
    shapeCast S_ X Facts₀.shapeCasts_S1x1_S_ i = X (ix2 0 0) :=
  shapeCast_apply X _ i (ix2 0 0) (by
    rw [Shape.rowMajor_val_two]
    have : (S_.rowMajor i).val < 1 := (S_.rowMajor i).isLt
    show 0 * 1 + 0 = _
    omega)

/-- THE RESULT: the kernel's result array, at the ideal instance, is the reference's loss of the reference's clamped
    log-softmax of the reference's perceptron of the same arguments. -/
theorem result_eq (c : Dev nD) :
    (V14 m (outs m) c main_v11 : Vec Ideal S_ .f32)
      = Cert.ReferenceIdeal.Hand.lossR (F := Ideal)
          (Cert.ReferenceIdeal.Hand.glueR (Cert.ReferenceIdeal.Hand.mlpR
            (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))))
          (m ((c : Thread nD τ).loc main_arg7)) (m ((c : Thread nD τ).loc main_arg8)) (m ((c : Thread nD τ).loc main_arg9)) := by
  funext i
  rw [V14_v11, scalar_of_block, o13_eq, accAt_apply, Cert.ReferenceIdeal.Hand.lossR_apply]
  rw [show (Vr12 m c main_v4 : Vec Ideal S1024x1000 .f32) = _ from Vr12_v4 m c, show (Vr12 m c main_v5 : Vec Ideal S100352x1000 .f32) = _ from Vr12_v5 m c,
    show (Vr12 m c main_v7 : Vec Ideal S1x100352 .f32) = _ from Vr12_v7 m c, show (Vr12 m c main_v9 : Vec Ideal S1x100352 .f32) = _ from Vr12_v9 m c,
    o1_eq, mlp_eq, glue_eq]
  simp only [padQ_apply, padRow_apply]
  exact Cert.Spec.accK_pad_eq_lossR Ideal.exp Cert.Consts.κ Cert.Consts.exp_zero Cert.Consts.κ_spec _ _ _ _

end Cert.Bridge

end
-- ==== Proof.lean ====
/-
  The certificate. Each of the two kernel programs (the word-level one and its idealization, the same text at two
  float instances) runs as the several-regions launch of its two kernel regions among its host stretches and leaves its
  arguments as launched; the reference, a straight-line host program, runs stage by stage; the ideal pass rewrote
  nothing, so the idealization is the program's own text read at the extended reals; and at the extended reals the
  kernel's tiled, zero-padded accumulation of the weighted squared deviations is the reference's one sum over the
  100000 queries, both over the same clamped log-softmax of the same perceptron of the same arguments.
-/
import proofs.«177796_j44246753083785_1_alg».proof.Defs
import proofs.«177796_j44246753083785_1_alg».proof.Proof.Kernel.Run
import proofs.«177796_j44246753083785_1_alg».proof.Proof.KernelIdeal.Run
import proofs.«177796_j44246753083785_1_alg».proof.Proof.Ref.Run
import proofs.«177796_j44246753083785_1_alg».proof.Proof.Bridge.Result
import proofs.«177796_j44246753083785_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Fr.frame m ρ

/-- The idealized kernel runs and keeps its arguments. -/
theorem frame_ki : Cert.frame_KernelIdeal := fun m ρ _ => Cert.KernelIdeal.Fr.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- The ideal pass rewrote no operation. -/
theorem preserves : Cert.preserves_Kernel_KernelIdeal := trivial

/-- At the extended reals the two programs, run from memories that agree on the arguments, end with the same loss. -/
theorem algebraic : Cert.algebraic_KernelIdeal_ReferenceIdeal := by
  intro m ρ m' ρ' _ hagree
  refine ⟨fun c => Cert.KernelIdeal.Gen.V14 m (Cert.KernelIdeal.Fr.outs m) c Cert.KernelIdeal.main_v11, ?_, ?_⟩
  · refine (θ_run Cert.KernelIdeal.defs _ _).mono (fun r h c => ?_) (Cert.KernelIdeal.Fr.run (F := Ideal) m ρ)
    exact ⟨h c _ (Cert.KernelIdeal.Fr.mem_uc Cert.KernelIdeal.main_v11 (by decide)),
      (h c _ (Cert.KernelIdeal.Fr.mem_uc Cert.KernelIdeal.main_arg0 (by decide))).trans (Cert.KernelIdeal.Gen.V14_main_arg0 m _ c),
      (h c _ (Cert.KernelIdeal.Fr.mem_uc Cert.KernelIdeal.main_arg1 (by decide))).trans (Cert.KernelIdeal.Gen.V14_main_arg1 m _ c),
      (h c _ (Cert.KernelIdeal.Fr.mem_uc Cert.KernelIdeal.main_arg2 (by decide))).trans (Cert.KernelIdeal.Gen.V14_main_arg2 m _ c),
      (h c _ (Cert.KernelIdeal.Fr.mem_uc Cert.KernelIdeal.main_arg3 (by decide))).trans (Cert.KernelIdeal.Gen.V14_main_arg3 m _ c),
      (h c _ (Cert.KernelIdeal.Fr.mem_uc Cert.KernelIdeal.main_arg4 (by decide))).trans (Cert.KernelIdeal.Gen.V14_main_arg4 m _ c),
      (h c _ (Cert.KernelIdeal.Fr.mem_uc Cert.KernelIdeal.main_arg5 (by decide))).trans (Cert.KernelIdeal.Gen.V14_main_arg5 m _ c),
      (h c _ (Cert.KernelIdeal.Fr.mem_uc Cert.KernelIdeal.main_arg6 (by decide))).trans (Cert.KernelIdeal.Gen.V14_main_arg6 m _ c),
      (h c _ (Cert.KernelIdeal.Fr.mem_uc Cert.KernelIdeal.main_arg7 (by decide))).trans (Cert.KernelIdeal.Gen.V14_main_arg7 m _ c),
      (h c _ (Cert.KernelIdeal.Fr.mem_uc Cert.KernelIdeal.main_arg8 (by decide))).trans (Cert.KernelIdeal.Gen.V14_main_arg8 m _ c),
      (h c _ (Cert.KernelIdeal.Fr.mem_uc Cert.KernelIdeal.main_arg9 (by decide))).trans (Cert.KernelIdeal.Gen.V14_main_arg9 m _ c)⟩
  · refine (θ_run Cert.ReferenceIdeal.defs _ _).mono (fun r h c => ⟨(h c).1.trans ?_, (h c).2⟩) (Cert.ReferenceIdeal.Hand.run (F := Ideal) m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2]
    exact (Cert.Bridge.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
